-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v93)) (v3 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v93) = v2 c
          ∧ r.2.mem ((c.tc : Thread Cert.KernelIdeal.nD Cert.KernelIdeal.τ).loc Cert.KernelIdeal.main_v94) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x1 : Shape := ⟨2, ![4000000, 1]⟩
abbrev S10000 : Shape := ⟨1, ![10000]⟩
abbrev S_ : Shape := ⟨0, ![]⟩

class Facts : Prop where
  bcast_S_S4000000x1 : S_.BroadcastsInDim S4000000x1 (![] : Fin 0 → Fin S4000000x1.rank)
  reducesTo_S4000000x1_S_d0_1 : S4000000x1.ReducesTo [0, 1] S_
  h_S_ : 0 < S_.numel
  bcast_S_S10000 : S_.BroadcastsInDim S10000 (![] : Fin 0 → Fin S10000.rank)
  reducesTo_S10000_S_d0 : S10000.ReducesTo [0] S_

variable [Facts]

def fn_part1 {F : FTy → Type} [FloatOps F] (main_arg5 : IVec S10000 32) (main_arg6 : IVec S10000 32) (main_v13 : IVec S_ 1) (main_v15 : IVec S10000 1) (main_c_5 : IVec S_ 1) : IVec S_ 1 :=
  let main_v16 : IVec S_ 1 := (fun x v => Host.reduce IntOp.andi x v reducesTo_S10000_S_d0 h_S_) main_v15 main_c_5
  let main_v17 : IVec S_ 1 := andi main_v13 main_v16
  let main_c_6 : IVec S_ 32 := constantI S_ 32 4000000#32
  let main_v18 : IVec S10000 32 := broadcastInDim S10000 ![] bcast_S_S10000 main_c_6
  let main_v19 : IVec S10000 1 := cmpi .sle main_arg5 main_v18
  let main_c_7 : IVec S_ 1 := constantI S_ 1 1#1
  let main_v20 : IVec S_ 1 := (fun x v => Host.reduce IntOp.andi x v reducesTo_S10000_S_d0 h_S_) main_v19 main_c_7
  let main_v21 : IVec S_ 1 := andi main_v17 main_v20
  let main_c_8 : IVec S_ 32 := constantI S_ 32 0#32
  let main_v22 : IVec S10000 32 := broadcastInDim S10000 ![] bcast_S_S10000 main_c_8
  let main_v23 : IVec S10000 1 := cmpi .sge main_arg6 main_v22
  let main_c_9 : IVec S_ 1 := constantI S_ 1 1#1
  let main_v24 : IVec S_ 1 := (fun x v => Host.reduce IntOp.andi x v reducesTo_S10000_S_d0 h_S_) main_v23 main_c_9
  let main_v25 : IVec S_ 1 := andi main_v21 main_v24
  let main_c_10 : IVec S_ 32 := constantI S_ 32 4000000#32
  let main_v26 : IVec S10000 32 := broadcastInDim S10000 ![] bcast_S_S10000 main_c_10
  let main_v27 : IVec S10000 1 := cmpi .sle main_arg6 main_v26
  let main_c_11 : IVec S_ 1 := constantI S_ 1 1#1
  let main_v28 : IVec S_ 1 := (fun x v => Host.reduce IntOp.andi x v reducesTo_S10000_S_d0 h_S_) main_v27 main_c_11
  let main_v29 : IVec S_ 1 := andi main_v25 main_v28
  main_v29

def fn {F : FTy → Type} [FloatOps F] (main_arg0 : IVec S4000000x1 32) (main_arg1 : FVec F S4000000x1 .f32) (main_arg2 : FVec F S4000000x1 .f32) (main_arg3 : IVec S4000000x1 32) (main_arg4 : FVec F S4000000x1 .f32) (main_arg5 : IVec S10000 32) (main_arg6 : IVec S10000 32) : IVec S_ 1 :=
  let main_v0 : FVec F S4000000x1 .f32 := Host.absf main_arg1
  let main_cst : FVec F S_ .f32 := constant S_ .f32 0x7F800000#32
  let main_v1 : FVec F S4000000x1 .f32 := broadcastInDim S4000000x1 ![] bcast_S_S4000000x1 main_cst
  let main_v2 : IVec S4000000x1 1 := cmpf .olt main_v0 main_v1
  let main_c : IVec S_ 1 := constantI S_ 1 1#1
  let main_v3 : IVec S_ 1 := (fun x v => Host.reduce IntOp.andi x v reducesTo_S4000000x1_S_d0_1 h_S_) main_v2 main_c
  let main_v4 : FVec F S4000000x1 .f32 := Host.absf main_arg2
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  let main_v9 : FVec F S4000000x1 .f32 := Host.absf main_arg4
  let main_cst_2 : FVec F S_ .f32 := constant S_ .f32 0x7F800000#32
  let main_v10 : FVec F S4000000x1 .f32 := broadcastInDim S4000000x1 ![] bcast_S_S4000000x1 main_cst_2
  let main_v11 : IVec S4000000x1 1 := cmpf .olt main_v9 main_v10
  let main_c_3 : IVec S_ 1 := constantI S_ 1 1#1
  let main_v12 : IVec S_ 1 := (fun x v => Host.reduce IntOp.andi x v reducesTo_S4000000x1_S_d0_1 h_S_) main_v11 main_c_3
  let main_v13 : IVec S_ 1 := andi main_v8 main_v12
  let main_c_4 : IVec S_ 32 := constantI S_ 32 0#32
  let main_v14 : IVec S10000 32 := broadcastInDim S10000 ![] bcast_S_S10000 main_c_4
  let main_v15 : IVec S10000 1 := cmpi .sge main_arg5 main_v14
  let main_c_5 : IVec S_ 1 := constantI S_ 1 1#1
  fn_part1 (F := F) main_arg5 main_arg6 main_v13 main_v15 main_c_5
-- ==== Kernel.lean ====
abbrev S4000000x1 : Shape := ⟨2, ![4000000, 1]⟩
abbrev S10000 : Shape := ⟨1, ![10000]⟩
abbrev S625x6400 : Shape := ⟨2, ![625, 6400]⟩
abbrev S625x1280 : Shape := ⟨2, ![625, 1280]⟩
abbrev S4000000 : Shape := ⟨1, ![4000000]⟩
abbrev S_ : Shape := ⟨0, ![]⟩
abbrev S10001 : Shape := ⟨1, ![10001]⟩
abbrev S10000x1 : Shape := ⟨2, ![10000, 1]⟩
abbrev S10000x2 : Shape := ⟨2, ![10000, 2]⟩
abbrev S1 : Shape := ⟨1, ![1]⟩
abbrev S10001x1 : Shape := ⟨2, ![10001, 1]⟩
abbrev S10001x4 : Shape := ⟨2, ![10001, 4]⟩
abbrev S4000000x4 : Shape := ⟨2, ![4000000, 4]⟩

abbrev nBuf : Space → Nat
  | .hbm => 134
  | .vmem => 12
  | .smem => 0
  | _ => 0

abbrev hbmTy0_0 (i : Nat) : BufTy := match i % 128 with
  | 0 => ⟨S4000000x1, .i32⟩
  | 1 => ⟨S4000000x1, .f32⟩
  | 2 => ⟨S4000000x1, .f32⟩
  | 3 => ⟨S4000000x1, .i32⟩
  | 4 => ⟨S4000000x1, .f32⟩
  | 5 => ⟨S10000, .i32⟩
  | 6 => ⟨S10000, .i32⟩
  | 7 => ⟨S625x6400, .i32⟩
  | 8 => ⟨S625x6400, .f32⟩
  | 9 => ⟨S625x6400, .i32⟩
  | 10 => ⟨S625x6400, .i32⟩
  | 11 => ⟨S625x6400, .f32⟩
  | 12 => ⟨S625x6400, .f32⟩
  | 13 => ⟨S4000000, .i32⟩
  | 14 => ⟨S4000000, .f32⟩
  | 15 => ⟨S4000000, .f32⟩
  | 16 => ⟨S_, .f32⟩
  | 17 => ⟨S10001, .f32⟩
  | 18 => ⟨S4000000x1, .i32⟩
  | 19 => ⟨S10001, .f32⟩
  | 20 => ⟨S_, .f32⟩
  | 21 => ⟨S10001, .f32⟩
  | 22 => ⟨S4000000x1, .i32⟩
  | 23 => ⟨S10001, .f32⟩
  | 24 => ⟨S_, .i32⟩
  | 25 => ⟨S10000, .i32⟩
  | 26 => ⟨S10000, .i32⟩
  | 27 => ⟨S_, .i32⟩
  | 28 => ⟨S10000, .i32⟩
  | 29 => ⟨S10000, .i1⟩
  | 30 => ⟨S_, .i32⟩
  | 31 => ⟨S10000, .i32⟩
  | 32 => ⟨S10000, .i32⟩
  | 33 => ⟨S10000, .i32⟩
  | 34 => ⟨S_, .i32⟩
  | 35 => ⟨S10000, .i32⟩
  | 36 => ⟨S10000, .i32⟩
  | 37 => ⟨S10000x1, .i32⟩
  | 38 => ⟨S10000x1, .i32⟩
  | 39 => ⟨S10000x2, .i32⟩
  | 40 => ⟨S10000, .i32⟩
  | 41 => ⟨S_, .i32⟩
  | 42 => ⟨S10000, .i32⟩
  | 43 => ⟨S10000, .i1⟩
  | 44 => ⟨S_, .i32⟩
  | 45 => ⟨S10000, .i32⟩
  | 46 => ⟨S10000, .i32⟩
  | 47 => ⟨S10000, .i32⟩
  | 48 => ⟨S_, .i32⟩
  | 49 => ⟨S10000, .i32⟩
  | 50 => ⟨S10000, .i32⟩
  | 51 => ⟨S10000x1, .i32⟩
  | 52 => ⟨S10000x1, .i32⟩
  | 53 => ⟨S10000x2, .i32⟩
  | 54 => ⟨S10000, .f32⟩
  | 55 => ⟨S_, .i32⟩
  | 56 => ⟨S10000, .i32⟩
  | 57 => ⟨S10000, .i1⟩
  | 58 => ⟨S_, .i32⟩
  | 59 => ⟨S10000, .i32⟩
  | 60 => ⟨S10000, .i1⟩
  | 61 => ⟨S10000, .i1⟩
  | 62 => ⟨S_, .f32⟩
  | 63 => ⟨S_, .f32⟩
  | 64 => ⟨S10000, .f32⟩
  | 65 => ⟨S10000, .f32⟩
  | 66 => ⟨S_, .f32⟩
  | 67 => ⟨S1, .f32⟩
  | 68 => ⟨S10001, .f32⟩
  | 69 => ⟨S_, .i32⟩
  | 70 => ⟨S10000, .i32⟩
  | 71 => ⟨S10000, .i32⟩
  | 72 => ⟨S_, .i32⟩
  | 73 => ⟨S10000, .i32⟩
  | 74 => ⟨S10000, .i1⟩
  | 75 => ⟨S_, .i32⟩
  | 76 => ⟨S10000, .i32⟩
  | 77 => ⟨S10000, .i32⟩
  | 78 => ⟨S10000, .i32⟩
  | 79 => ⟨S_, .i32⟩
  | 80 => ⟨S10000, .i32⟩
  | 81 => ⟨S10000, .i32⟩
  | 82 => ⟨S10000x1, .i32⟩
  | 83 => ⟨S10000x1, .i32⟩
  | 84 => ⟨S10000x2, .i32⟩
  | 85 => ⟨S10000, .i32⟩
  | 86 => ⟨S_, .i32⟩
  | 87 => ⟨S10000, .i32⟩
  | 88 => ⟨S10000, .i1⟩
  | 89 => ⟨S_, .i32⟩
  | 90 => ⟨S10000, .i32⟩
  | 91 => ⟨S10000, .i32⟩
  | 92 => ⟨S10000, .i32⟩
  | 93 => ⟨S_, .i32⟩
  | 94 => ⟨S10000, .i32⟩
  | 95 => ⟨S10000, .i32⟩
  | 96 => ⟨S10000x1, .i32⟩
  | 97 => ⟨S10000x1, .i32⟩
  | 98 => ⟨S10000x2, .i32⟩
  | 99 => ⟨S10000, .f32⟩
  | 100 => ⟨S_, .i32⟩
  | 101 => ⟨S10000, .i32⟩
  | 102 => ⟨S10000, .i1⟩
  | 103 => ⟨S_, .i32⟩
  | 104 => ⟨S10000, .i32⟩
  | 105 => ⟨S10000, .i1⟩
  | 106 => ⟨S10000, .i1⟩
  | 107 => ⟨S_, .f32⟩
  | 108 => ⟨S_, .f32⟩
  | 109 => ⟨S10000, .f32⟩
  | 110 => ⟨S10000, .f32⟩
  | 111 => ⟨S_, .f32⟩
  | 112 => ⟨S1, .f32⟩
  | 113 => ⟨S10001, .f32⟩
  | 114 => ⟨S10001, .f32⟩
  | 115 => ⟨S10001, .f32⟩
  | 116 => ⟨S10001x1, .f32⟩
  | 117 => ⟨S10001x1, .f32⟩
  | 118 => ⟨S10001x1, .f32⟩
  | 119 => ⟨S10001x1, .f32⟩
  | 120 => ⟨S10001x4, .f32⟩
  | 121 => ⟨S_, .i32⟩
  | 122 => ⟨S4000000, .i32⟩
  | 123 => ⟨S4000000, .i1⟩
  | 124 => ⟨S_, .i32⟩
  | 125 => ⟨S4000000, .i32⟩
  | 126 => ⟨S4000000, .i32⟩
  | 127 => ⟨S4000000, .i32⟩
  | _ => ⟨S4000000x1, .i32⟩

abbrev hbmTy0_1 (i : Nat) : BufTy := match i % 128 with
  | 0 => ⟨S4000000x1, .i32⟩
  | 1 => ⟨S4000000x4, .f32⟩
  | 2 => ⟨S4000000x1, .f32⟩
  | 3 => ⟨S4000000x1, .f32⟩
  | 4 => ⟨S4000000x1, .f32⟩
  | 5 => ⟨S4000000x1, .f32⟩
  | _ => ⟨S4000000x1, .i32⟩

abbrev hbmTy (i : Nat) : BufTy := match i / 128 with
  | 0 => hbmTy0_0 i
  | 1 => hbmTy0_1 i
  | _ => ⟨S4000000x1, .i32⟩

abbrev bufTy : (tb : Table) → Fin (tcTables nBuf tb) → BufTy
  | .hbm, ⟨i, _⟩ => hbmTy i
  | .local _ .vmem, ⟨0, _⟩ => ⟨S625x1280, .i32⟩
  | .local _ .vmem, ⟨1, _⟩ => ⟨S625x1280, .i32⟩
  | .local _ .vmem, ⟨2, _⟩ => ⟨S625x1280, .f32⟩
  | .local _ .vmem, ⟨3, _⟩ => ⟨S625x1280, .f32⟩
  | .local _ .vmem, ⟨4, _⟩ => ⟨S625x1280, .i32⟩
  | .local _ .vmem, ⟨5, _⟩ => ⟨S625x1280, .i32⟩
  | .local _ .vmem, ⟨6, _⟩ => ⟨S625x1280, .i32⟩
  | .local _ .vmem, ⟨7, _⟩ => ⟨S625x1280, .i32⟩
  | .local _ .vmem, ⟨8, _⟩ => ⟨S625x1280, .f32⟩
  | .local _ .vmem, ⟨9, _⟩ => ⟨S625x1280, .f32⟩
  | .local _ .vmem, ⟨10, _⟩ => ⟨S625x1280, .f32⟩
  | .local _ .vmem, ⟨11, _⟩ => ⟨S625x1280, .f32⟩
  | _, _ => ⟨S4000000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_call0_v0 : Ref sig .tc := ⟨.hbm, 63, rfl⟩
abbrev main_call0_v1 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_c_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_15 : Ref sig .tc := ⟨.hbm, 86, rfl⟩
abbrev main_v58 : Ref sig .tc := ⟨.hbm, 87, rfl⟩
abbrev main_v59 : Ref sig .tc := ⟨.hbm, 88, rfl⟩
abbrev main_c_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_17 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_c_19 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_20 : Ref sig .tc := ⟨.hbm, 107, rfl⟩
abbrev main_call1_v0 : Ref sig .tc := ⟨.hbm, 108, rfl⟩
abbrev main_call1_v1 : Ref sig .tc := ⟨.hbm, 109, rfl⟩
abbrev main_v74 : Ref sig .tc := ⟨.hbm, 110, rfl⟩
abbrev main_cst_21 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_c_23 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S625x1280 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S625x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S625x1280 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S625x1280 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S625x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S625x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4000000x1_S625x6400 : S4000000x1.ShapeCasts S625x6400
  inb_S625x1280_S625x1280_0_0 : ∀ a, (![0, 0] : Fin 2 → Nat) a + S625x1280.size a ≤ S625x1280.size a
  h_S625x1280 : 0 < S625x1280.numel
  shapeCasts_S625x1280_S625x1280 : S625x1280.ShapeCasts S625x1280
  shapeCasts_S625x6400_S4000000 : S625x6400.ShapeCasts S4000000
  bcast_S_S10001 : S_.BroadcastsInDim S10001 (![] : Fin 0 → Fin S10001.rank)
  bcast_S4000000_S4000000x1_0 : S4000000.BroadcastsInDim S4000000x1 (![0] : Fin 1 → Fin S4000000x1.rank)
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  bcast_S_S1 : S_.BroadcastsInDim S1 (![] : Fin 0 → Fin S1.rank)
  concatenates_S1_S10000_S10001_d0 : Shape.Concatenates [S1, S10000] S10001 0
  bcast_S10001_S10001x1_0 : S10001.BroadcastsInDim S10001x1 (![0] : Fin 1 → Fin S10001x1.rank)
  concatenates_S10001x1_S10001x1_S10001x1_S10001x1_S10001x4_d1 : Shape.Concatenates [S10001x1, S10001x1, S10001x1, S10001x1] S10001x4 1
  bcast_S_S4000000 : S_.BroadcastsInDim S4000000 (![] : Fin 0 → Fin S4000000.rank)
  slices_S4000000x4_S4000000x1_0_0 : S4000000x4.Slices ![0, 0] S4000000x1
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  scatter_S10001_S4000000x1_S4000000_n_0_0_1_wf : ScatterDims.WF S10001 S4000000x1 S4000000 [] [0] [0] 1
  gather_S4000000x1_S10000x2_S10000_n_01_n_n_01_1_11_wf : GatherDims.WF S4000000x1 S10000x2 S10000 [] [0, 1] [] [0, 1] [] 1 ![1, 1]
  gather_S10001x4_S4000000x1_S4000000x4_1_0_n_n_0_1_14_wf : GatherDims.WF S10001x4 S4000000x1 S4000000x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S625x1280.size a ≤ S625x6400.size a
  hwx0_0 : ∀ i : grid0.Coords, EltTy.bits .i32 = 32 ∨ (Rect.block (s := S625x6400) S625x1280.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S625x1280.size a ≤ S625x6400.size a
  hwx0_1 : ∀ i : grid0.Coords, EltTy.bits .f32 = 32 ∨ (Rect.block (s := S625x6400) S625x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S625x1280.size a ≤ S625x6400.size a
  hwx0_2 : ∀ i : grid0.Coords, EltTy.bits .i32 = 32 ∨ (Rect.block (s := S625x6400) S625x1280.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S625x1280.size a ≤ S625x6400.size a
  hwx0_3 : ∀ i : grid0.Coords, EltTy.bits .i32 = 32 ∨ (Rect.block (s := S625x6400) S625x1280.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S625x1280.size a ≤ S625x6400.size a
  hwx0_4 : ∀ i : grid0.Coords, EltTy.bits .f32 = 32 ∨ (Rect.block (s := S625x6400) S625x1280.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S625x1280.size a ≤ S625x6400.size a
  hwx0_5 : ∀ i : grid0.Coords, EltTy.bits .f32 = 32 ∨ (Rect.block (s := S625x6400) S625x1280.size (cc0_transform_5 i) (hinb0_5 i)).WholeWords (EltTy.packing .f32)

variable [Facts₀]

def scatter_S10001_S4000000x1_S4000000_n_0_0_1 : ScatterDims S10001 S4000000x1 S4000000 where
  updateWindowDims := []
  insertedWindowDims := [0]
  scatterDimsToOperandDims := [0]
  indexVectorDim := 1
  wf := scatter_S10001_S4000000x1_S4000000_n_0_0_1_wf
def gather_S4000000x1_S10000x2_S10000_n_01_n_n_01_1_11 : GatherDims S4000000x1 S10000x2 S10000 where
  offsetDims := []
  collapsedSliceDims := [0, 1]
  operandBatchingDims := []
  startIndicesBatchingDims := []
  startIndexMap := [0, 1]
  indexVectorDim := 1
  sliceSizes := ![1, 1]
  wf := gather_S4000000x1_S10000x2_S10000_n_01_n_n_01_1_11_wf
def gather_S10001x4_S4000000x1_S4000000x4_1_0_n_n_0_1_14 : GatherDims S10001x4 S4000000x1 S4000000x4 where
  offsetDims := [1]
  collapsedSliceDims := [0]
  operandBatchingDims := []
  startIndicesBatchingDims := []
  startIndexMap := [0]
  indexVectorDim := 1
  sliceSizes := ![1, 4]
  wf := gather_S10001x4_S4000000x1_S4000000x4_1_0_n_n_0_1_14_wf

abbrev win0_0 : Pipeline.Window sig grid0 :=
  Pipeline.Window.ofSpec (Memref.whole main_v0) S625x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S625x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S625x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S625x1280.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S625x1280.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S625x1280.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4000000x1 : Shape := ⟨2, ![4000000, 1]⟩
abbrev S10000 : Shape := ⟨1, ![10000]⟩
abbrev S4000000 : Shape := ⟨1, ![4000000]⟩
abbrev S_ : Shape := ⟨0, ![]⟩
abbrev S10001 : Shape := ⟨1, ![10001]⟩
abbrev S1x1 : Shape := ⟨2, ![1, 1]⟩
abbrev S4000001x1 : Shape := ⟨2, ![4000001, 1]⟩
abbrev S1 : Shape := ⟨1, ![1]⟩
abbrev S10000x1 : Shape := ⟨2, ![10000, 1]⟩
abbrev S10000x2 : Shape := ⟨2, ![10000, 2]⟩

abbrev nBuf : Space → Nat
  | .hbm => 125
  | .vmem => 0
  | .smem => 0
  | _ => 0

abbrev bufTy : (tb : Table) → Fin (tcTables nBuf tb) → BufTy
  | .hbm, ⟨0, _⟩ => ⟨S4000000x1, .i32⟩
  | .hbm, ⟨1, _⟩ => ⟨S4000000x1, .f32⟩
  | .hbm, ⟨2, _⟩ => ⟨S4000000x1, .f32⟩
  | .hbm, ⟨3, _⟩ => ⟨S4000000x1, .i32⟩
  | .hbm, ⟨4, _⟩ => ⟨S4000000x1, .f32⟩
  | .hbm, ⟨5, _⟩ => ⟨S10000, .i32⟩
  | .hbm, ⟨6, _⟩ => ⟨S10000, .i32⟩
  | .hbm, ⟨7, _⟩ => ⟨S4000000, .i32⟩
  | .hbm, ⟨8, _⟩ => ⟨S_, .i32⟩
  | .hbm, ⟨9, _⟩ => ⟨S4000000, .i32⟩
  | .hbm, ⟨10, _⟩ => ⟨S4000000, .i32⟩
  | .hbm, ⟨11, _⟩ => ⟨S_, .i32⟩
  | .hbm, ⟨12, _⟩ => ⟨S4000000x1, .i32⟩
  | .hbm, ⟨13, _⟩ => ⟨S4000000x1, .i1⟩
  | .hbm, ⟨14, _⟩ => ⟨S_, .f32⟩
  | .hbm, ⟨15, _⟩ => ⟨S_, .f32⟩
  | .hbm, ⟨16, _⟩ => ⟨S4000000x1, .f32⟩
  | .hbm, ⟨17, _⟩ => ⟨S4000000x1, .f32⟩
  | .hbm, ⟨18, _⟩ => ⟨S_, .f32⟩
  | .hbm, ⟨19, _⟩ => ⟨S_, .f32⟩
  | .hbm, ⟨20, _⟩ => ⟨S4000000x1, .f32⟩
  | .hbm, ⟨21, _⟩ => ⟨S4000000x1, .f32⟩
  | .hbm, ⟨22, _⟩ => ⟨S_, .i32⟩
  | .hbm, ⟨23, _⟩ => ⟨S4000000x1, .i32⟩
  | .hbm, ⟨24, _⟩ => ⟨S4000000x1, .i1⟩
  | .hbm, ⟨25, _⟩ => ⟨S_, .f32⟩
  | .hbm, ⟨26, _⟩ => ⟨S_, .f32⟩
  | .hbm, ⟨27, _⟩ => ⟨S4000000x1, .f32⟩
  | .hbm, ⟨28, _⟩ => ⟨S4000000x1, .f32⟩
  | .hbm, ⟨29, _⟩ => ⟨S4000000, .f32⟩
  | .hbm, ⟨30, _⟩ => ⟨S_, .i32⟩
  | .hbm, ⟨31, _⟩ => ⟨S4000000x1, .i32⟩
  | .hbm, ⟨32, _⟩ => ⟨S4000000x1, .i1⟩
  | .hbm, ⟨33, _⟩ => ⟨S_, .f32⟩
  | .hbm, ⟨34, _⟩ => ⟨S_, .f32⟩
  | .hbm, ⟨35, _⟩ => ⟨S4000000x1, .f32⟩
  | .hbm, ⟨36, _⟩ => ⟨S4000000x1, .f32⟩
  | .hbm, ⟨37, _⟩ => ⟨S4000000, .f32⟩
  | .hbm, ⟨38, _⟩ => ⟨S_, .f32⟩
  | .hbm, ⟨39, _⟩ => ⟨S10001, .f32⟩
  | .hbm, ⟨40, _⟩ => ⟨S4000000x1, .i32⟩
  | .hbm, ⟨41, _⟩ => ⟨S10001, .f32⟩
  | .hbm, ⟨42, _⟩ => ⟨S_, .f32⟩
  | .hbm, ⟨43, _⟩ => ⟨S10001, .f32⟩
  | .hbm, ⟨44, _⟩ => ⟨S4000000x1, .i32⟩
  | .hbm, ⟨45, _⟩ => ⟨S10001, .f32⟩
  | .hbm, ⟨46, _⟩ => ⟨S_, .f32⟩
  | .hbm, ⟨47, _⟩ => ⟨S1x1, .f32⟩
  | .hbm, ⟨48, _⟩ => ⟨S4000001x1, .f32⟩
  | .hbm, ⟨49, _⟩ => ⟨S_, .f32⟩
  | .hbm, ⟨50, _⟩ => ⟨S1, .f32⟩
  | .hbm, ⟨51, _⟩ => ⟨S_, .i32⟩
  | .hbm, ⟨52, _⟩ => ⟨S10000, .i32⟩
  | .hbm, ⟨53, _⟩ => ⟨S10000, .i1⟩
  | .hbm, ⟨54, _⟩ => ⟨S_, .i32⟩
  | .hbm, ⟨55, _⟩ => ⟨S10000, .i32⟩
  | .hbm, ⟨56, _⟩ => ⟨S10000, .i32⟩
  | .hbm, ⟨57, _⟩ => ⟨S10000, .i32⟩
  | .hbm, ⟨58, _⟩ => ⟨S_, .i32⟩
  | .hbm, ⟨59, _⟩ => ⟨S10000, .i32⟩
  | .hbm, ⟨60, _⟩ => ⟨S10000, .i32⟩
  | .hbm, ⟨61, _⟩ => ⟨S10000x1, .i32⟩
  | .hbm, ⟨62, _⟩ => ⟨S10000x1, .i32⟩
  | .hbm, ⟨63, _⟩ => ⟨S10000x2, .i32⟩
  | .hbm, ⟨64, _⟩ => ⟨S10000, .f32⟩
  | .hbm, ⟨65, _⟩ => ⟨S10001, .f32⟩
  | .hbm, ⟨66, _⟩ => ⟨S_, .f32⟩
  | .hbm, ⟨67, _⟩ => ⟨S1, .f32⟩
  | .hbm, ⟨68, _⟩ => ⟨S_, .i32⟩
  | .hbm, ⟨69, _⟩ => ⟨S10000, .i32⟩
  | .hbm, ⟨70, _⟩ => ⟨S10000, .i1⟩
  | .hbm, ⟨71, _⟩ => ⟨S_, .i32⟩
  | .hbm, ⟨72, _⟩ => ⟨S10000, .i32⟩
  | .hbm, ⟨73, _⟩ => ⟨S10000, .i32⟩
  | .hbm, ⟨74, _⟩ => ⟨S10000, .i32⟩
  | .hbm, ⟨75, _⟩ => ⟨S_, .i32⟩
  | .hbm, ⟨76, _⟩ => ⟨S10000, .i32⟩
  | .hbm, ⟨77, _⟩ => ⟨S10000, .i32⟩
  | .hbm, ⟨78, _⟩ => ⟨S10000x1, .i32⟩
  | .hbm, ⟨79, _⟩ => ⟨S10000x1, .i32⟩
  | .hbm, ⟨80, _⟩ => ⟨S10000x2, .i32⟩
  | .hbm, ⟨81, _⟩ => ⟨S10000, .f32⟩
  | .hbm, ⟨82, _⟩ => ⟨S10001, .f32⟩
  | .hbm, ⟨83, _⟩ => ⟨S10001, .f32⟩
  | .hbm, ⟨84, _⟩ => ⟨S10001, .f32⟩
  | .hbm, ⟨85, _⟩ => ⟨S_, .i32⟩
  | .hbm, ⟨86, _⟩ => ⟨S4000000, .i32⟩
  | .hbm, ⟨87, _⟩ => ⟨S4000000, .i1⟩
  | .hbm, ⟨88, _⟩ => ⟨S_, .i32⟩
  | .hbm, ⟨89, _⟩ => ⟨S4000000, .i32⟩
  | .hbm, ⟨90, _⟩ => ⟨S4000000, .i32⟩
  | .hbm, ⟨91, _⟩ => ⟨S4000000, .i32⟩
  | .hbm, ⟨92, _⟩ => ⟨S4000000x1, .i32⟩
  | .hbm, ⟨93, _⟩ => ⟨S4000000, .f32⟩
  | .hbm, ⟨94, _⟩ => ⟨S4000000x1, .f32⟩
  | .hbm, ⟨95, _⟩ => ⟨S_, .i32⟩
  | .hbm, ⟨96, _⟩ => ⟨S4000000, .i32⟩
  | .hbm, ⟨97, _⟩ => ⟨S4000000, .i1⟩
  | .hbm, ⟨98, _⟩ => ⟨S_, .i32⟩
  | .hbm, ⟨99, _⟩ => ⟨S4000000, .i32⟩
  | .hbm, ⟨100, _⟩ => ⟨S4000000, .i32⟩
  | .hbm, ⟨101, _⟩ => ⟨S4000000, .i32⟩
  | .hbm, ⟨102, _⟩ => ⟨S4000000x1, .i32⟩
  | .hbm, ⟨103, _⟩ => ⟨S4000000, .f32⟩
  | .hbm, ⟨104, _⟩ => ⟨S4000000x1, .f32⟩
  | .hbm, ⟨105, _⟩ => ⟨S_, .i32⟩
  | .hbm, ⟨106, _⟩ => ⟨S4000000, .i32⟩
  | .hbm, ⟨107, _⟩ => ⟨S4000000, .i1⟩
  | .hbm, ⟨108, _⟩ => ⟨S_, .i32⟩
  | .hbm, ⟨109, _⟩ => ⟨S4000000, .i32⟩
  | .hbm, ⟨110, _⟩ => ⟨S4000000, .i32⟩
  | .hbm, ⟨111, _⟩ => ⟨S4000000, .i32⟩
  | .hbm, ⟨112, _⟩ => ⟨S4000000x1, .i32⟩
  | .hbm, ⟨113, _⟩ => ⟨S4000000, .f32⟩
  | .hbm, ⟨114, _⟩ => ⟨S4000000x1, .f32⟩
  | .hbm, ⟨115, _⟩ => ⟨S_, .i32⟩
  | .hbm, ⟨116, _⟩ => ⟨S4000000, .i32⟩
  | .hbm, ⟨117, _⟩ => ⟨S4000000, .i1⟩
  | .hbm, ⟨118, _⟩ => ⟨S_, .i32⟩
  | .hbm, ⟨119, _⟩ => ⟨S4000000, .i32⟩
  | .hbm, ⟨120, _⟩ => ⟨S4000000, .i32⟩
  | .hbm, ⟨121, _⟩ => ⟨S4000000, .i32⟩
  | .hbm, ⟨122, _⟩ => ⟨S4000000x1, .i32⟩
  | .hbm, ⟨123, _⟩ => ⟨S4000000, .f32⟩
  | .hbm, ⟨124, _⟩ => ⟨S4000000x1, .f32⟩
  | _, _ => ⟨S4000000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_call2_v0 : Ref sig .tc := ⟨.hbm, 26, rfl⟩
abbrev main_call2_v1 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_v11 : Ref sig .tc := ⟨.hbm, 31, rfl⟩
abbrev main_v12 : Ref sig .tc := ⟨.hbm, 32, rfl⟩
abbrev main_cst_5 : Ref sig .tc := ⟨.hbm, 33, rfl⟩
abbrev main_call3_v0 : Ref sig .tc := ⟨.hbm, 34, rfl⟩
abbrev main_call3_v1 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_7 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_8 : Ref sig .tc := ⟨.hbm, 46, rfl⟩
abbrev main_v21 : Ref sig .tc := ⟨.hbm, 47, rfl⟩
abbrev main_v22 : Ref sig .tc := ⟨.hbm, 48, rfl⟩
abbrev main_cst_9 : Ref sig .tc := ⟨.hbm, 49, rfl⟩
abbrev main_v23 : Ref sig .tc := ⟨.hbm, 50, rfl⟩
abbrev main_c_10 : Ref sig .tc := ⟨.hbm, 51, rfl⟩
abbrev main_v24 : Ref sig .tc := ⟨.hbm, 52, rfl⟩
abbrev main_v25 : Ref sig .tc := ⟨.hbm, 53, rfl⟩
abbrev main_c_11 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_12 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_c_14 : Ref sig .tc := ⟨.hbm, 68, rfl⟩
abbrev main_v37 : Ref sig .tc := ⟨.hbm, 69, rfl⟩
abbrev main_v38 : Ref sig .tc := ⟨.hbm, 70, rfl⟩
abbrev main_c_15 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_16 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_17 : Ref sig .tc := ⟨.hbm, 85, rfl⟩
abbrev main_v51 : Ref sig .tc := ⟨.hbm, 86, rfl⟩
abbrev main_v52 : Ref sig .tc := ⟨.hbm, 87, rfl⟩
abbrev main_c_18 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_19 : Ref sig .tc := ⟨.hbm, 95, rfl⟩
abbrev main_v59 : Ref sig .tc := ⟨.hbm, 96, rfl⟩
abbrev main_v60 : Ref sig .tc := ⟨.hbm, 97, rfl⟩
abbrev main_c_20 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_21 : Ref sig .tc := ⟨.hbm, 105, rfl⟩
abbrev main_v67 : Ref sig .tc := ⟨.hbm, 106, rfl⟩
abbrev main_v68 : Ref sig .tc := ⟨.hbm, 107, rfl⟩
abbrev main_c_22 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_c_23 : Ref sig .tc := ⟨.hbm, 115, rfl⟩
abbrev main_v75 : Ref sig .tc := ⟨.hbm, 116, rfl⟩
abbrev main_v76 : Ref sig .tc := ⟨.hbm, 117, rfl⟩
abbrev main_c_24 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  shapeCasts_S4000000x1_S4000000 : S4000000x1.ShapeCasts S4000000
  bcast_S_S4000000 : S_.BroadcastsInDim S4000000 (![] : Fin 0 → Fin S4000000.rank)
  bcast_S_S4000000x1 : S_.BroadcastsInDim S4000000x1 (![] : Fin 0 → Fin S4000000x1.rank)
  bcast_S_S10001 : S_.BroadcastsInDim S10001 (![] : Fin 0 → Fin S10001.rank)
  bcast_S4000000_S4000000x1_0 : S4000000.BroadcastsInDim S4000000x1 (![0] : Fin 1 → Fin S4000000x1.rank)
  bcast_S_S1x1 : S_.BroadcastsInDim S1x1 (![] : Fin 0 → Fin S1x1.rank)
  concatenates_S4000000x1_S1x1_S4000001x1_d0 : Shape.Concatenates [S4000000x1, S1x1] S4000001x1 0
  bcast_S_S1 : S_.BroadcastsInDim S1 (![] : Fin 0 → Fin S1.rank)
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  concatenates_S1_S10000_S10001_d0 : Shape.Concatenates [S1, S10000] S10001 0
  scatter_S10001_S4000000x1_S4000000_n_0_0_1_wf : ScatterDims.WF S10001 S4000000x1 S4000000 [] [0] [0] 1
  gather_S4000001x1_S10000x2_S10000_n_01_n_n_01_1_11_wf : GatherDims.WF S4000001x1 S10000x2 S10000 [] [0, 1] [] [0, 1] [] 1 ![1, 1]
  gather_S10001_S4000000x1_S4000000_n_0_n_n_0_1_1_wf : GatherDims.WF S10001 S4000000x1 S4000000 [] [0] [] [0] [] 1 ![1]

variable [Facts₀]

def scatter_S10001_S4000000x1_S4000000_n_0_0_1 : ScatterDims S10001 S4000000x1 S4000000 where
  updateWindowDims := []
  insertedWindowDims := [0]
  scatterDimsToOperandDims := [0]
  indexVectorDim := 1
  wf := scatter_S10001_S4000000x1_S4000000_n_0_0_1_wf
def gather_S4000001x1_S10000x2_S10000_n_01_n_n_01_1_11 : GatherDims S4000001x1 S10000x2 S10000 where
  offsetDims := []
  collapsedSliceDims := [0, 1]
  operandBatchingDims := []
  startIndicesBatchingDims := []
  startIndexMap := [0, 1]
  indexVectorDim := 1
  sliceSizes := ![1, 1]
  wf := gather_S4000001x1_S10000x2_S10000_n_01_n_n_01_1_11_wf
def gather_S10001_S4000000x1_S4000000_n_0_n_n_0_1_1 : GatherDims S10001 S4000000x1 S4000000 where
  offsetDims := []
  collapsedSliceDims := [0]
  operandBatchingDims := []
  startIndicesBatchingDims := []
  startIndexMap := [0]
  indexVectorDim := 1
  sliceSizes := ![1]
  wf := gather_S10001_S4000000x1_S4000000_n_0_n_n_0_1_1_wf

class Facts : Prop extends Facts₀ where

variable [Facts]
-- ==== Proof.BitsHost.lean ====
/-
  The word-level kernel's host program around its one region.

  @main is three reshapes of the hit arrays [4000000, 1] → [625, 6400] (the index array, the energies, the
  hit/track flags), the region that masks them tile by tile, and then 121 further host lines: the three results
  flattened, two segment sums, the two correction tables, the four-column table and its gather back to the hits.
  Here: the buffer contents the region finds (the fold of the three reshapes over the launch contents), the
  statement that @main is those reshapes, the region, and the later lines in their five stretches; and what the
  later lines may touch: they allocate nothing, stay inside the unscoped buffers, and every buffer they write is
  one of the 121 listed results — none of them a window's array, none an argument. So each argument array is found
  by the region, and left at the end, exactly as launched.
-/
import proofs.«423578_j61237643706562_3_alg».proof.Proof.Gen.Kernel.Launch
import Idealize.ShloMosaic.Lib.Pipeline.FrameSuffix

set_option maxRecDepth 16384

noncomputable section

namespace Cert.Kernel.Host

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ)

/-- The host lines after the region, in the five stretches @main's chain has them (the two `where`s are stretches of
    their own). -/
abbrev later : List (List (HloOp τ sig (Elt F))) := [hostOps1, hostOps1_1, hostOps1_2, hostOps1_3, hostOps1_4]

/-- What core `c`'s buffers hold when the region is entered: the three reshapes applied to the launch contents. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-! ## Nothing is allocated -/

theorem early_fresh : (hostOps0 : List (HloOp τ sig (Elt F))).Forall fun op => op.fresh = ∅ := by
  simp only [List.Forall]; repeat' constructor
theorem later1_fresh : (hostOps1 : List (HloOp τ sig (Elt F))).Forall fun op => op.fresh = ∅ := by
  simp only [List.Forall]; repeat' constructor
theorem later2_fresh : (hostOps1_1 : List (HloOp τ sig (Elt F))).Forall fun op => op.fresh = ∅ := by
  simp only [List.Forall]; repeat' constructor
theorem later3_fresh : (hostOps1_2 : List (HloOp τ sig (Elt F))).Forall fun op => op.fresh = ∅ := by
  simp only [List.Forall]; repeat' constructor
theorem later4_fresh : (hostOps1_3 : List (HloOp τ sig (Elt F))).Forall fun op => op.fresh = ∅ := by
  simp only [List.Forall]; repeat' constructor
theorem later5_fresh : (hostOps1_4 : List (HloOp τ sig (Elt F))).Forall fun op => op.fresh = ∅ := by
  simp only [List.Forall]; repeat' constructor

/-! ## @main is the reshapes, the region, the later lines -/

theorem main_around (𝒱₀ : Variants) :
    Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact early_fresh) main_chain

/-! ## What the later lines touch -/

theorem later_within : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp later1_fresh) op hop
  · exact (List.forall_iff_forall_mem.mp later2_fresh) op hop
  · exact (List.forall_iff_forall_mem.mp later3_fresh) op hop
  · exact (List.forall_iff_forall_mem.mp later4_fresh) op hop
  · exact (List.forall_iff_forall_mem.mp later5_fresh) op hop

/-- The buffers the three reshapes before the region write. -/
def reshaped : List (Ref sig .tc) := [main_v0, main_v1, main_v2]

/-- Every buffer a later line writes: each line's one result, in program order. -/
def written1 : List (Ref sig .tc) :=
  [main_v4, main_v5, main_v6, main_cst, main_v7, main_v8, main_v9, main_cst_0, main_v10, main_v11, main_v12, main_c,
   main_v13, main_v14, main_c_1, main_v15, main_v16, main_c_2, main_v17, main_v18, main_v19, main_c_3, main_v20,
   main_v21, main_v22, main_v23, main_v24, main_v25, main_c_4, main_v26, main_v27, main_c_5, main_v28, main_v29,
   main_v30, main_c_6, main_v31, main_v32, main_v33, main_v34, main_v35, main_v36, main_c_7, main_v37, main_v38,
   main_c_8, main_v39, main_v40, main_v41, main_cst_9]
def written2 : List (Ref sig .tc) := [main_call0_v0, main_call0_v1, main_v42]
def written3 : List (Ref sig .tc) :=
  [main_cst_10, main_v43, main_v44, main_c_11, main_v45, main_v46, main_c_12, main_v47, main_v48, main_c_13,
   main_v49, main_v50, main_v51, main_c_14, main_v52, main_v53, main_v54, main_v55, main_v56, main_v57, main_c_15,
   main_v58, main_v59, main_c_16, main_v60, main_v61, main_v62, main_c_17, main_v63, main_v64, main_v65, main_v66,
   main_v67, main_v68, main_c_18, main_v69, main_v70, main_c_19, main_v71, main_v72, main_v73, main_cst_20]
def written4 : List (Ref sig .tc) := [main_call1_v0, main_call1_v1, main_v74]
def written5 : List (Ref sig .tc) :=
  [main_cst_21, main_v75, main_v76, main_v77, main_v78, main_v79, main_v80, main_v81, main_v82, main_v83, main_c_22,
   main_v84, main_v85, main_c_23, main_v86, main_v87, main_v88, main_v89, main_v90, main_v91, main_v92, main_v93,
   main_v94]
/-- All 121 of them. -/
def written : List (Ref sig .tc) := written1 ++ written2 ++ written3 ++ written4 ++ written5

theorem reshaped_covers : (hostOps0 : List (HloOp τ sig (Elt F))).Forall fun op =>
    op.writes ⊆ (reshaped.map (Proc.devRef (τ := τ) .tc)).toFinset := by
  simp only [hostOps0, List.Forall, StableHlo.reshape_writes, Finset.singleton_subset_iff, List.mem_toFinset]
  repeat' apply And.intro
  all_goals exact List.mem_map_of_mem (by decide)

theorem written1_covers : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)
theorem written2_covers : (hostOps1_1 : List (HloOp τ sig (Elt F))).Forall fun op =>
    op.writes ⊆ (written2.map (Proc.devRef (τ := τ) .tc)).toFinset := by
  simp only [hostOps1_1, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)
theorem written3_covers : (hostOps1_2 : List (HloOp τ sig (Elt F))).Forall fun op =>
    op.writes ⊆ (written3.map (Proc.devRef (τ := τ) .tc)).toFinset := by
  simp only [hostOps1_2, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)
theorem written4_covers : (hostOps1_3 : List (HloOp τ sig (Elt F))).Forall fun op =>
    op.writes ⊆ (written4.map (Proc.devRef (τ := τ) .tc)).toFinset := by
  simp only [hostOps1_3, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)
theorem written5_covers : (hostOps1_4 : List (HloOp τ sig (Elt F))).Forall fun op =>
    op.writes ⊆ (written5.map (Proc.devRef (τ := τ) .tc)).toFinset := by
  simp only [hostOps1_4, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)

/-- A line of a stretch writes only buffers of that stretch's list, hence of the whole list. -/
theorem writes_sub_written : ∀ ops ∈ (later : List (List (HloOp τ sig (Elt F)))), ∀ op ∈ ops,
    op.writes ⊆ (written.map (Proc.devRef (τ := τ) .tc)).toFinset := by
  intro ops hops op hop b hb
  simp only [List.mem_cons, List.mem_nil_iff, or_false] at hops
  have key : ∀ (W : List (Ref sig .tc)), (∀ r ∈ W, r ∈ written) →
      b ∈ (W.map (Proc.devRef (τ := τ) .tc)).toFinset → b ∈ (written.map (Proc.devRef (τ := τ) .tc)).toFinset := by
    intro W hW h
    obtain ⟨y, hy, he⟩ := List.mem_map.mp (List.mem_toFinset.mp h)
    exact List.mem_toFinset.mpr (List.mem_map.mpr ⟨y, hW y hy, he⟩)
  rcases hops with rfl | rfl | rfl | rfl | rfl
  · exact key written1 (fun r hr => by simp only [written, List.mem_append]; tauto)
      ((List.forall_iff_forall_mem.mp written1_covers) op hop hb)
  · exact key written2 (fun r hr => by simp only [written, List.mem_append]; tauto)
      ((List.forall_iff_forall_mem.mp written2_covers) op hop hb)
  · exact key written3 (fun r hr => by simp only [written, List.mem_append]; tauto)
      ((List.forall_iff_forall_mem.mp written3_covers) op hop hb)
  · exact key written4 (fun r hr => by simp only [written, List.mem_append]; tauto)
      ((List.forall_iff_forall_mem.mp written4_covers) op hop hb)
  · exact key written5 (fun r hr => by simp only [written, List.mem_append]; tauto)
      ((List.forall_iff_forall_mem.mp written5_covers) op hop hb)

/-- A buffer outside the list is written by no later line. -/
theorem not_written {r : Ref sig .tc} (hr : r ∉ written) : ∀ ops ∈ (later : List (List (HloOp τ sig (Elt F)))), ∀ op ∈ ops,
    Proc.devRef (τ := τ) .tc r ∉ op.writes := by
  intro ops hops op hop hb
  obtain ⟨y, hy, he⟩ := List.mem_map.mp (List.mem_toFinset.mp (writes_sub_written ops hops op hop hb))
  exact hr (Proc.devRef_injective _ he ▸ hy)

/-- So the later lines leave it as they found it. -/
theorem after_later_of_not_written {r : Ref sig .tc} (hr : r ∉ written) (X : Valuation τ sig (Elt F)) :
    StableHlo.after (later (F := F)).flatten X (Proc.devRef .tc r) = X (Proc.devRef .tc r) :=
  StableHlo.after_of_forall_not_mem _ X fun op hop => by
    obtain ⟨ops, hops, hop'⟩ := List.mem_flatten.mp hop
    exact not_written hr ops hops op hop'

/-- No window's array is among the written buffers: the later lines keep the region's arrays. -/
theorem later_keeps : ∀ ops ∈ (later : List (List (HloOp τ sig (Elt F)))), ∀ op ∈ ops,
    ∀ w, Proc.devRef .tc (Pipeline.arrRef spec0 w) ∉ op.writes := fun ops hops op hop w =>
  not_written ((by decide : ∀ w, Pipeline.arrRef spec0 w ∉ written) w) ops hops op hop

/-! ## The argument arrays, at the region's entry and at the end -/

/-- The reshapes write none of a buffer outside their three results. -/
theorem entry_of_not_reshaped {r : Ref sig .tc} (hr : r ∉ reshaped) (X : Valuation τ sig (Elt F)) :
    StableHlo.after (List.flatten [hostOps0]) X (Proc.devRef .tc r) = X (Proc.devRef .tc r) :=
  StableHlo.after_of_writes_sub (W := reshaped) _ X
    (by simp only [List.flatten_cons, List.flatten_nil, List.append_nil]; exact reshaped_covers) hr

theorem V_arg0 (c : Dev nD) : V m c main_arg0 = m ((c : Thread nD τ).loc main_arg0) := entry_of_not_reshaped (by decide) _
theorem V_arg1 (c : Dev nD) : V m c main_arg1 = m ((c : Thread nD τ).loc main_arg1) := entry_of_not_reshaped (by decide) _
theorem V_arg2 (c : Dev nD) : V m c main_arg2 = m ((c : Thread nD τ).loc main_arg2) := entry_of_not_reshaped (by decide) _
theorem V_arg3 (c : Dev nD) : V m c main_arg3 = m ((c : Thread nD τ).loc main_arg3) := entry_of_not_reshaped (by decide) _
theorem V_arg4 (c : Dev nD) : V m c main_arg4 = m ((c : Thread nD τ).loc main_arg4) := entry_of_not_reshaped (by decide) _
theorem V_arg5 (c : Dev nD) : V m c main_arg5 = m ((c : Thread nD τ).loc main_arg5) := entry_of_not_reshaped (by decide) _
theorem V_arg6 (c : Dev nD) : V m c main_arg6 = m ((c : Thread nD τ).loc main_arg6) := entry_of_not_reshaped (by decide) _

/-- A buffer that is no window's array and that no later line writes ends at its region-entry contents, whatever the
    region's proof data. -/
theorem end_of_bypass (dats : (p : Fin 1) → (c : Dev nD) → Dat τ (Elt F) Unit ℕ (UR sig nD τ) ℕ (cfgs p) c) (c : Dev nD)
    {r : Ref sig .tc} (hw : r ∉ written) (ha : ∀ w, Pipeline.arrRef spec0 w ≠ r) :
    Pipeline.afterTail₀ cfgs dats 0 (V0 m) later c r = V m c r := by
  unfold Pipeline.afterTail₀
  rw [after_later_of_not_written hw, Pipeline.withArrays_of_ne _ c (V0 m c) _ r ha]

theorem W_arg0 (dats : (p : Fin 1) → (c : Dev nD) → Dat τ (Elt F) Unit ℕ (UR sig nD τ) ℕ (cfgs p) c) (c : Dev nD) : Pipeline.afterTail₀ cfgs dats 0 (V0 m) later c main_arg0 = m ((c : Thread nD τ).loc main_arg0) :=
  (end_of_bypass m dats c (by decide) (by decide)).trans (V_arg0 m c)
theorem W_arg1 (dats : (p : Fin 1) → (c : Dev nD) → Dat τ (Elt F) Unit ℕ (UR sig nD τ) ℕ (cfgs p) c) (c : Dev nD) : Pipeline.afterTail₀ cfgs dats 0 (V0 m) later c main_arg1 = m ((c : Thread nD τ).loc main_arg1) :=
  (end_of_bypass m dats c (by decide) (by decide)).trans (V_arg1 m c)
theorem W_arg2 (dats : (p : Fin 1) → (c : Dev nD) → Dat τ (Elt F) Unit ℕ (UR sig nD τ) ℕ (cfgs p) c) (c : Dev nD) : Pipeline.afterTail₀ cfgs dats 0 (V0 m) later c main_arg2 = m ((c : Thread nD τ).loc main_arg2) :=
  (end_of_bypass m dats c (by decide) (by decide)).trans (V_arg2 m c)
theorem W_arg3 (dats : (p : Fin 1) → (c : Dev nD) → Dat τ (Elt F) Unit ℕ (UR sig nD τ) ℕ (cfgs p) c) (c : Dev nD) : Pipeline.afterTail₀ cfgs dats 0 (V0 m) later c main_arg3 = m ((c : Thread nD τ).loc main_arg3) :=
  (end_of_bypass m dats c (by decide) (by decide)).trans (V_arg3 m c)
theorem W_arg4 (dats : (p : Fin 1) → (c : Dev nD) → Dat τ (Elt F) Unit ℕ (UR sig nD τ) ℕ (cfgs p) c) (c : Dev nD) : Pipeline.afterTail₀ cfgs dats 0 (V0 m) later c main_arg4 = m ((c : Thread nD τ).loc main_arg4) :=
  (end_of_bypass m dats c (by decide) (by decide)).trans (V_arg4 m c)
theorem W_arg5 (dats : (p : Fin 1) → (c : Dev nD) → Dat τ (Elt F) Unit ℕ (UR sig nD τ) ℕ (cfgs p) c) (c : Dev nD) : Pipeline.afterTail₀ cfgs dats 0 (V0 m) later c main_arg5 = m ((c : Thread nD τ).loc main_arg5) :=
  (end_of_bypass m dats c (by decide) (by decide)).trans (V_arg5 m c)
theorem W_arg6 (dats : (p : Fin 1) → (c : Dev nD) → Dat τ (Elt F) Unit ℕ (UR sig nD τ) ℕ (cfgs p) c) (c : Dev nD) : Pipeline.afterTail₀ cfgs dats 0 (V0 m) later c main_arg6 = m ((c : Thread nD τ).loc main_arg6) :=
  (end_of_bypass m dats c (by decide) (by decide)).trans (V_arg6 m c)

/-! ## The frame claim from a run to the library's frame post -/

/-- A run of @main whose final state has every buffer the region bypasses at the later lines' result is a run in which
    the seven argument arrays end as launched: each is such a buffer, found and left untouched. -/
theorem frame_of (ρ : Dev nD → PrngReg) (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (V0 m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_arg0 m dats c),
     ((h c).2 main_arg1 (Pipeline.mem_restRefs_of main_arg1 (by decide) (by decide))).trans (W_arg1 m dats c),
     ((h c).2 main_arg2 (Pipeline.mem_restRefs_of main_arg2 (by decide) (by decide))).trans (W_arg2 m dats c),
     ((h c).2 main_arg3 (Pipeline.mem_restRefs_of main_arg3 (by decide) (by decide))).trans (W_arg3 m dats c),
     ((h c).2 main_arg4 (Pipeline.mem_restRefs_of main_arg4 (by decide) (by decide))).trans (W_arg4 m dats c),
     ((h c).2 main_arg5 (Pipeline.mem_restRefs_of main_arg5 (by decide) (by decide))).trans (W_arg5 m dats c),
     ((h c).2 main_arg6 (Pipeline.mem_restRefs_of main_arg6 (by decide) (by decide))).trans (W_arg6 m dats c)⟩) h

end Cert.Kernel.Host

end
-- ==== Proof.BitsRegion.lean ====
/-
  The word-level kernel's region: the masking body at each of the five grid points, and the run of @main.

  The grid cuts the [625, 6400] arrays into five column tiles [625, 1280]. At a point the body reads the tiles of the
  segment ids, the energies and the hit/track flags, and writes three tiles whole: the ids plus one; the energy where
  the id is not -1 and the flag is 0, else zero; the same where the flag is 1. (It also loads each result tile before
  overwriting it; those values are never used.) So what the body leaves in a result tile is a function of the three
  input tiles alone, the single whole-tile store read back. With that as the proof data — every input tile found at its
  block of the array, every result tile left at that function of them, nothing carried from point to point — the
  library's launch theorem for a region followed by host lines gives the run of @main: it terminates, faults nowhere,
  ends with each result array assembled from what the points left and every bypassing buffer at the later lines'
  result. The frame claim is that run read at the seven argument arrays.
-/
import proofs.«423578_j61237643706562_3_alg».proof.Proof.BitsHost
import proofs.«423578_j61237643706562_3_alg».proof.Proof.Gen.Kernel.Skeleton
import proofs.«423578_j61237643706562_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Host

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Tiles -/

/-- Window `w`'s tile at point `t`: its block of the array the region finds. -/
def tileOf (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole tile as a rectangle: every load and store of the body goes through it. -/
abbrev whole : Rect S625x1280 := Rect.unit (s := S625x1280) ![0, 0] S625x1280.size inb_S625x1280_S625x1280_0_0

/-- The tile of ids plus one, from the ids' tile. -/
def tileSeg (x0 : Vec F S625x1280 .i32) : Vec F S625x1280 .i32 :=
  View.canon [⟨whole, k0_pay2 (View.ld x0 whole)⟩]
/-- The tile of hit energies, from the ids', the energies' and the flags' tiles. -/
def tileHit (x0 : Vec F S625x1280 .i32) (x1 : Vec F S625x1280 .f32) (x2 : Vec F S625x1280 .i32) : Vec F S625x1280 .f32 :=
  View.canon [⟨whole, k0_pay5 (View.ld x0 whole) (View.ld x1 whole) (View.ld x2 whole)⟩]
/-- The tile of track energies, from the same three. -/
def tileTrk (x0 : Vec F S625x1280 .i32) (x1 : Vec F S625x1280 .f32) (x2 : Vec F S625x1280 .i32) : Vec F S625x1280 .f32 :=
  View.canon [⟨whole, k0_pay6 (View.ld x0 whole) (View.ld x1 whole) (View.ld x2 whole)⟩]

/-- One whole-tile store covers the tile. -/
theorem whole_covers_i (p0 : Vec F S625x1280 .i32) (y : S625x1280.Idx) :
    ∃ pc ∈ ([⟨whole, p0⟩] : List (View.Piece (Elt F) S625x1280 .i32)), y ∈ pc.1.set :=
  View.cover_of_tiled [⟨whole, p0⟩] S625x1280.size (by rfl) y
theorem whole_covers_f (p0 : Vec F S625x1280 .f32) (y : S625x1280.Idx) :
    ∃ pc ∈ ([⟨whole, p0⟩] : List (View.Piece (Elt F) S625x1280 .f32)), y ∈ pc.1.set :=
  View.cover_of_tiled [⟨whole, p0⟩] S625x1280.size (by rfl) y

/-! ## The inputs' staging buffers hold their tiles -/

/-- An input window's current staging buffer holds its tile at every point, fetched there or not, for any proof data
    over the region-entry arrays whose body leaves the tile in place. -/
theorem found0 {c : Dev nD} (dat : Dat τ (Elt F) Unit ℕ (UR sig nD τ) ℕ cfg0 c) (hA : dat.A 0 = V m c (Pipeline.arrRef spec0 0))
    (hafter : ∀ t, dat.after 0 t = tileOf m c 0 t) (t : Fin cfg0.N) (d) : dat.before 0 t d = tileOf m c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = tileOf m c 1 t) (t : Fin cfg0.N) (d) : dat.before 1 t d = tileOf m c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = tileOf m c 2 t) (t : Fin cfg0.N) (d) : dat.before 2 t d = tileOf m c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-! ## The body's triple -/

set_option maxHeartbeats 4000000 in
/-- The body on six whole staging memrefs — the inputs' holding `x0`, `x1`, `x2`, the results' anything — runs to a
    continuation that holds the inputs' as they were and the results' at the three tiles computed from them. -/
theorem body_sound (c : Dev nD) (E : Set ℕ) (i : grid0.Coords)
    (a1 : Memref sig .tc .vmem S625x1280 .i32) (h1 : a1.IsWhole) (a2 : Memref sig .tc .vmem S625x1280 .f32) (h2 : a2.IsWhole)
    (a3 : Memref sig .tc .vmem S625x1280 .i32) (h3 : a3.IsWhole) (a4 : Memref sig .tc .vmem S625x1280 .i32) (h4 : a4.IsWhole)
    (a5 : Memref sig .tc .vmem S625x1280 .f32) (h5 : a5.IsWhole) (a6 : Memref sig .tc .vmem S625x1280 .f32) (h6 : a6.IsWhole)
    (x0 : Vec F S625x1280 .i32) (x1 : Vec F S625x1280 .f32) (x2 : Vec F S625x1280 .i32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (tileSeg x0) ∗ owns (c : Thread nD τ) a5 fullShare (tileHit x0 x1 x2)
            ∗ owns (c : Thread nD τ) a6 fullShare (tileTrk x0 x1 x2)) -∗ K ⟨⟩))
      ⊢ wp frame (wpE (defs₀ (F := F)) Variants.none c none) E (cc0__mask_kernel i a1 h1 a2 h2 a3 h3 a4 h4 a5 h5 a6 h6) K := by
  simp only [cc0__mask_kernel_eq_skeleton]; unfold cc0__mask_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole_covers_i _)
  isplitl [H4]
  · iexists _; isplitr
    swap; · iexact H4
    ipureintro
    exact View.read_writes_eq_canon _ _ _ (whole_covers_f _)
  iexists _; isplitr
  swap; · iexact H5
  ipureintro
  exact View.read_writes_eq_canon _ _ _ (whole_covers_f _)

/-! ## The proof data -/

/-- On core `c`: the arrays as the region finds them; after the body at point `t` each input's buffer at its tile and
    each result's at the tile computed from the three input tiles; the invariant only what the body never touches;
    nothing owed, full shares. -/
def dats (_ : Fin 1) (c : Dev nD) : Dat τ (Elt F) Unit ℕ (UR sig nD τ) ℕ cfg0 c where
  A w := V m c (Pipeline.arrRef spec0 w)
  after w t := match w with
    | ⟨0, _⟩ => tileOf m c 0 t
    | ⟨1, _⟩ => tileOf m c 1 t
    | ⟨2, _⟩ => tileOf m c 2 t
    | ⟨3, _⟩ => tileSeg (tileOf m c 0 t)
    | ⟨4, _⟩ => tileHit (tileOf m c 0 t) (tileOf m c 1 t) (tileOf m c 2 t)
    | ⟨5, _⟩ => tileTrk (tileOf m c 0 t) (tileOf m c 1 t) (tileOf m c 2 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem left0 (c : Dev nD) (t : Fin cfg0.N) : (dats m 0 c).after 0 t = tileOf m c 0 t := by dsimp only [dats]
theorem left1 (c : Dev nD) (t : Fin cfg0.N) : (dats m 0 c).after 1 t = tileOf m c 1 t := by dsimp only [dats]
theorem left2 (c : Dev nD) (t : Fin cfg0.N) : (dats m 0 c).after 2 t = tileOf m c 2 t := by dsimp only [dats]
theorem left3 (c : Dev nD) (t : Fin cfg0.N) : (dats m 0 c).after 3 t = tileSeg (tileOf m c 0 t) := by dsimp only [dats]
theorem left4 (c : Dev nD) (t : Fin cfg0.N) :
    (dats m 0 c).after 4 t = tileHit (tileOf m c 0 t) (tileOf m c 1 t) (tileOf m c 2 t) := by dsimp only [dats]
theorem left5 (c : Dev nD) (t : Fin cfg0.N) :
    (dats m 0 c).after 5 t = tileTrk (tileOf m c 0 t) (tileOf m c 1 t) (tileOf m c 2 t) := by dsimp only [dats]

theorem held0 (c : Dev nD) (t : Fin cfg0.N) (d) : (dats m 0 c).before 0 t d = tileOf m c 0 t :=
  found0 m (dats m 0 c) (arrays_eq m c 0) (left0 m c) t d
theorem held1 (c : Dev nD) (t : Fin cfg0.N) (d) : (dats m 0 c).before 1 t d = tileOf m c 1 t :=
  found1 m (dats m 0 c) (arrays_eq m c 1) (left1 m c) t d
theorem held2 (c : Dev nD) (t : Fin cfg0.N) (d) : (dats m 0 c).before 2 t d = tileOf m c 2 t :=
  found2 m (dats m 0 c) (arrays_eq m c 2) (left2 m c) t d

/-! ## The body obligation at a generic point -/

/-- What the body is called with at point `t`, window by window, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their tiles, so the triple applies; the invariant and the core's
    dues pass through unread. -/
theorem point_sound (c : Dev nD) (t : Fin cfg0.N) :
    handed m c t ⊢ wp frame (wpE (defs₀ (F := F)) Variants.none c none) Set.univ (bodyAt0 t) (fun _ => returned m c t) := by
  unfold handed returned bodyAt0
  simp only [held0, held1, held2]
  rw [show (dats m 0 c).Φ t.succ = (dats m 0 c).Φ t.castSucc from rfl,
    show (dats m 0 c).owesAt () t.succ = (dats m 0 c).owesAt () t.castSucc from rfl,
    left0, left1, left2, left3, left4, left5]
  iintro ⟨HΦ, Ho, ⟨%d0, H0⟩, ⟨%d1, H1⟩, ⟨%d2, H2⟩, ⟨%d3, H3⟩, ⟨%d4, H4⟩, ⟨%d5, H5⟩⟩
  iapply (body_sound c Set.univ (grid0.coords t) _ _ _ _ _ _ _ _ _ _ _ _ (tileOf m c 0 t) (tileOf m c 1 t) (tileOf m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact point_sound m c t

/-! ## The run and the frame -/

set_option backward.isDefEq.respectTransparency.types false in
/-- Every weakly fair execution of @main terminates without a fault; at the end every array of the region is what the
    library assembles from the proof data and every other unscoped buffer is as the later lines leave it. -/
theorem run_main : θ_run defs (onTc (τ := τ) (main (F := F))) (s₀ m ρ)
    (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_within) (hfresh := later_fresh) (hkeep := later_keeps)
    (hmain := main_around m Variants.none) (hA := arrays_eq m) (hΦ := fun _ _ => rfl)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.Region

end
-- ==== Proof.IdealHost.lean ====
/-
  The idealized kernel's host program around its one region.

  @main is three reshapes of the hit arrays [4000000, 1] → [625, 6400] (the index array, the energies, the
  hit/track flags), the region that masks them tile by tile, and then 121 further host lines: the three results
  flattened, two segment sums, the two correction tables, the four-column table and its gather back to the hits.
  Here: the buffer contents the region finds (the fold of the three reshapes over the launch contents), the
  statement that @main is those reshapes, the region, and the later lines in their five stretches; and what the
  later lines may touch: they allocate nothing, stay inside the unscoped buffers, and every buffer they write is
  one of the 121 listed results — none of them a window's array, none an argument. So each argument array is found
  by the region, and left at the end, exactly as launched.
-/
import proofs.«423578_j61237643706562_3_alg».proof.Proof.Gen.KernelIdeal.Launch
import Idealize.ShloMosaic.Lib.Pipeline.FrameSuffix

set_option maxRecDepth 16384

noncomputable section

namespace Cert.KernelIdeal.Host

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ)

/-- The host lines after the region, in the five stretches @main's chain has them (the two `where`s are stretches of
    their own). -/
abbrev later : List (List (HloOp τ sig (Elt F))) := [hostOps1, hostOps1_1, hostOps1_2, hostOps1_3, hostOps1_4]

/-- What core `c`'s buffers hold when the region is entered: the three reshapes applied to the launch contents. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-! ## Nothing is allocated -/

theorem early_fresh : (hostOps0 : List (HloOp τ sig (Elt F))).Forall fun op => op.fresh = ∅ := by
  simp only [List.Forall]; repeat' constructor
theorem later1_fresh : (hostOps1 : List (HloOp τ sig (Elt F))).Forall fun op => op.fresh = ∅ := by
  simp only [List.Forall]; repeat' constructor
theorem later2_fresh : (hostOps1_1 : List (HloOp τ sig (Elt F))).Forall fun op => op.fresh = ∅ := by
  simp only [List.Forall]; repeat' constructor
theorem later3_fresh : (hostOps1_2 : List (HloOp τ sig (Elt F))).Forall fun op => op.fresh = ∅ := by
  simp only [List.Forall]; repeat' constructor
theorem later4_fresh : (hostOps1_3 : List (HloOp τ sig (Elt F))).Forall fun op => op.fresh = ∅ := by
  simp only [List.Forall]; repeat' constructor
theorem later5_fresh : (hostOps1_4 : List (HloOp τ sig (Elt F))).Forall fun op => op.fresh = ∅ := by
  simp only [List.Forall]; repeat' constructor

/-! ## @main is the reshapes, the region, the later lines -/

theorem main_around (𝒱₀ : Variants) :
    Pipeline.HMainK (Ix := Unit) (Name := ℕ) (U := UR sig nD τ) (Lvl := ℕ) cfgs 0 defs₀ 𝒱₀ m (main (F := F)) (V m)
      (fun _ => Pipeline.chain ((later (F := F)).map StableHlo.seq)) :=
  Pipeline.hmain_around cfgs 0 defs₀ 𝒱₀ m main [hostOps0] later (by simp only [List.Forall]; exact hostOps0_sub)
    (by simp only [List.Forall]; exact early_fresh) main_chain

/-! ## What the later lines touch -/

theorem later_within : ∀ ops ∈ (later : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem later_fresh : ∀ ops ∈ (later : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp later1_fresh) op hop
  · exact (List.forall_iff_forall_mem.mp later2_fresh) op hop
  · exact (List.forall_iff_forall_mem.mp later3_fresh) op hop
  · exact (List.forall_iff_forall_mem.mp later4_fresh) op hop
  · exact (List.forall_iff_forall_mem.mp later5_fresh) op hop

/-- The buffers the three reshapes before the region write. -/
def reshaped : List (Ref sig .tc) := [main_v0, main_v1, main_v2]

/-- Every buffer a later line writes: each line's one result, in program order. -/
def written1 : List (Ref sig .tc) :=
  [main_v4, main_v5, main_v6, main_cst, main_v7, main_v8, main_v9, main_cst_0, main_v10, main_v11, main_v12, main_c,
   main_v13, main_v14, main_c_1, main_v15, main_v16, main_c_2, main_v17, main_v18, main_v19, main_c_3, main_v20,
   main_v21, main_v22, main_v23, main_v24, main_v25, main_c_4, main_v26, main_v27, main_c_5, main_v28, main_v29,
   main_v30, main_c_6, main_v31, main_v32, main_v33, main_v34, main_v35, main_v36, main_c_7, main_v37, main_v38,
   main_c_8, main_v39, main_v40, main_v41, main_cst_9]
def written2 : List (Ref sig .tc) := [main_call0_v0, main_call0_v1, main_v42]
def written3 : List (Ref sig .tc) :=
  [main_cst_10, main_v43, main_v44, main_c_11, main_v45, main_v46, main_c_12, main_v47, main_v48, main_c_13,
   main_v49, main_v50, main_v51, main_c_14, main_v52, main_v53, main_v54, main_v55, main_v56, main_v57, main_c_15,
   main_v58, main_v59, main_c_16, main_v60, main_v61, main_v62, main_c_17, main_v63, main_v64, main_v65, main_v66,
   main_v67, main_v68, main_c_18, main_v69, main_v70, main_c_19, main_v71, main_v72, main_v73, main_cst_20]
def written4 : List (Ref sig .tc) := [main_call1_v0, main_call1_v1, main_v74]
def written5 : List (Ref sig .tc) :=
  [main_cst_21, main_v75, main_v76, main_v77, main_v78, main_v79, main_v80, main_v81, main_v82, main_v83, main_c_22,
   main_v84, main_v85, main_c_23, main_v86, main_v87, main_v88, main_v89, main_v90, main_v91, main_v92, main_v93,
   main_v94]
/-- All 121 of them. -/
def written : List (Ref sig .tc) := written1 ++ written2 ++ written3 ++ written4 ++ written5

theorem reshaped_covers : (hostOps0 : List (HloOp τ sig (Elt F))).Forall fun op =>
    op.writes ⊆ (reshaped.map (Proc.devRef (τ := τ) .tc)).toFinset := by
  simp only [hostOps0, List.Forall, StableHlo.reshape_writes, Finset.singleton_subset_iff, List.mem_toFinset]
  repeat' apply And.intro
  all_goals exact List.mem_map_of_mem (by decide)

theorem written1_covers : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)
theorem written2_covers : (hostOps1_1 : List (HloOp τ sig (Elt F))).Forall fun op =>
    op.writes ⊆ (written2.map (Proc.devRef (τ := τ) .tc)).toFinset := by
  simp only [hostOps1_1, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)
theorem written3_covers : (hostOps1_2 : List (HloOp τ sig (Elt F))).Forall fun op =>
    op.writes ⊆ (written3.map (Proc.devRef (τ := τ) .tc)).toFinset := by
  simp only [hostOps1_2, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)
theorem written4_covers : (hostOps1_3 : List (HloOp τ sig (Elt F))).Forall fun op =>
    op.writes ⊆ (written4.map (Proc.devRef (τ := τ) .tc)).toFinset := by
  simp only [hostOps1_3, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)
theorem written5_covers : (hostOps1_4 : List (HloOp τ sig (Elt F))).Forall fun op =>
    op.writes ⊆ (written5.map (Proc.devRef (τ := τ) .tc)).toFinset := by
  simp only [hostOps1_4, List.Forall, StableHlo.nullary_writes, StableHlo.unary_writes, StableHlo.binary_writes,
    StableHlo.ternary_writes, StableHlo.reshape_writes, StableHlo.nary_writes, Finset.singleton_subset_iff, List.mem_toFinset]
  repeat' apply And.intro
  all_goals exact List.mem_map_of_mem (by decide)

/-- A line of a stretch writes only buffers of that stretch's list, hence of the whole list. -/
theorem writes_sub_written : ∀ ops ∈ (later : List (List (HloOp τ sig (Elt F)))), ∀ op ∈ ops,
    op.writes ⊆ (written.map (Proc.devRef (τ := τ) .tc)).toFinset := by
  intro ops hops op hop b hb
  simp only [List.mem_cons, List.mem_nil_iff, or_false] at hops
  have key : ∀ (W : List (Ref sig .tc)), (∀ r ∈ W, r ∈ written) →
      b ∈ (W.map (Proc.devRef (τ := τ) .tc)).toFinset → b ∈ (written.map (Proc.devRef (τ := τ) .tc)).toFinset := by
    intro W hW h
    obtain ⟨y, hy, he⟩ := List.mem_map.mp (List.mem_toFinset.mp h)
    exact List.mem_toFinset.mpr (List.mem_map.mpr ⟨y, hW y hy, he⟩)
  rcases hops with rfl | rfl | rfl | rfl | rfl
  · exact key written1 (fun r hr => by simp only [written, List.mem_append]; tauto)
      ((List.forall_iff_forall_mem.mp written1_covers) op hop hb)
  · exact key written2 (fun r hr => by simp only [written, List.mem_append]; tauto)
      ((List.forall_iff_forall_mem.mp written2_covers) op hop hb)
  · exact key written3 (fun r hr => by simp only [written, List.mem_append]; tauto)
      ((List.forall_iff_forall_mem.mp written3_covers) op hop hb)
  · exact key written4 (fun r hr => by simp only [written, List.mem_append]; tauto)
      ((List.forall_iff_forall_mem.mp written4_covers) op hop hb)
  · exact key written5 (fun r hr => by simp only [written, List.mem_append]; tauto)
      ((List.forall_iff_forall_mem.mp written5_covers) op hop hb)

/-- A buffer outside the list is written by no later line. -/
theorem not_written {r : Ref sig .tc} (hr : r ∉ written) : ∀ ops ∈ (later : List (List (HloOp τ sig (Elt F)))), ∀ op ∈ ops,
    Proc.devRef (τ := τ) .tc r ∉ op.writes := by
  intro ops hops op hop hb
  obtain ⟨y, hy, he⟩ := List.mem_map.mp (List.mem_toFinset.mp (writes_sub_written ops hops op hop hb))
  exact hr (Proc.devRef_injective _ he ▸ hy)

/-- So the later lines leave it as they found it. -/
theorem after_later_of_not_written {r : Ref sig .tc} (hr : r ∉ written) (X : Valuation τ sig (Elt F)) :
    StableHlo.after (later (F := F)).flatten X (Proc.devRef .tc r) = X (Proc.devRef .tc r) :=
  StableHlo.after_of_forall_not_mem _ X fun op hop => by
    obtain ⟨ops, hops, hop'⟩ := List.mem_flatten.mp hop
    exact not_written hr ops hops op hop'

/-- No window's array is among the written buffers: the later lines keep the region's arrays. -/
theorem later_keeps : ∀ ops ∈ (later : List (List (HloOp τ sig (Elt F)))), ∀ op ∈ ops,
    ∀ w, Proc.devRef .tc (Pipeline.arrRef spec0 w) ∉ op.writes := fun ops hops op hop w =>
  not_written ((by decide : ∀ w, Pipeline.arrRef spec0 w ∉ written) w) ops hops op hop

/-! ## The argument arrays, at the region's entry and at the end -/

/-- The reshapes write none of a buffer outside their three results. -/
theorem entry_of_not_reshaped {r : Ref sig .tc} (hr : r ∉ reshaped) (X : Valuation τ sig (Elt F)) :
    StableHlo.after (List.flatten [hostOps0]) X (Proc.devRef .tc r) = X (Proc.devRef .tc r) :=
  StableHlo.after_of_writes_sub (W := reshaped) _ X
    (by simp only [List.flatten_cons, List.flatten_nil, List.append_nil]; exact reshaped_covers) hr

theorem V_arg0 (c : Dev nD) : V m c main_arg0 = m ((c : Thread nD τ).loc main_arg0) := entry_of_not_reshaped (by decide) _
theorem V_arg1 (c : Dev nD) : V m c main_arg1 = m ((c : Thread nD τ).loc main_arg1) := entry_of_not_reshaped (by decide) _
theorem V_arg2 (c : Dev nD) : V m c main_arg2 = m ((c : Thread nD τ).loc main_arg2) := entry_of_not_reshaped (by decide) _
theorem V_arg3 (c : Dev nD) : V m c main_arg3 = m ((c : Thread nD τ).loc main_arg3) := entry_of_not_reshaped (by decide) _
theorem V_arg4 (c : Dev nD) : V m c main_arg4 = m ((c : Thread nD τ).loc main_arg4) := entry_of_not_reshaped (by decide) _
theorem V_arg5 (c : Dev nD) : V m c main_arg5 = m ((c : Thread nD τ).loc main_arg5) := entry_of_not_reshaped (by decide) _
theorem V_arg6 (c : Dev nD) : V m c main_arg6 = m ((c : Thread nD τ).loc main_arg6) := entry_of_not_reshaped (by decide) _

/-- A buffer that is no window's array and that no later line writes ends at its region-entry contents, whatever the
    region's proof data. -/
theorem end_of_bypass (dats : (p : Fin 1) → (c : Dev nD) → Dat τ (Elt F) Unit ℕ (UR sig nD τ) ℕ (cfgs p) c) (c : Dev nD)
    {r : Ref sig .tc} (hw : r ∉ written) (ha : ∀ w, Pipeline.arrRef spec0 w ≠ r) :
    Pipeline.afterTail₀ cfgs dats 0 (V0 m) later c r = V m c r := by
  unfold Pipeline.afterTail₀
  rw [after_later_of_not_written hw, Pipeline.withArrays_of_ne _ c (V0 m c) _ r ha]

theorem W_arg0 (dats : (p : Fin 1) → (c : Dev nD) → Dat τ (Elt F) Unit ℕ (UR sig nD τ) ℕ (cfgs p) c) (c : Dev nD) : Pipeline.afterTail₀ cfgs dats 0 (V0 m) later c main_arg0 = m ((c : Thread nD τ).loc main_arg0) :=
  (end_of_bypass m dats c (by decide) (by decide)).trans (V_arg0 m c)
theorem W_arg1 (dats : (p : Fin 1) → (c : Dev nD) → Dat τ (Elt F) Unit ℕ (UR sig nD τ) ℕ (cfgs p) c) (c : Dev nD) : Pipeline.afterTail₀ cfgs dats 0 (V0 m) later c main_arg1 = m ((c : Thread nD τ).loc main_arg1) :=
  (end_of_bypass m dats c (by decide) (by decide)).trans (V_arg1 m c)
theorem W_arg2 (dats : (p : Fin 1) → (c : Dev nD) → Dat τ (Elt F) Unit ℕ (UR sig nD τ) ℕ (cfgs p) c) (c : Dev nD) : Pipeline.afterTail₀ cfgs dats 0 (V0 m) later c main_arg2 = m ((c : Thread nD τ).loc main_arg2) :=
  (end_of_bypass m dats c (by decide) (by decide)).trans (V_arg2 m c)
theorem W_arg3 (dats : (p : Fin 1) → (c : Dev nD) → Dat τ (Elt F) Unit ℕ (UR sig nD τ) ℕ (cfgs p) c) (c : Dev nD) : Pipeline.afterTail₀ cfgs dats 0 (V0 m) later c main_arg3 = m ((c : Thread nD τ).loc main_arg3) :=
  (end_of_bypass m dats c (by decide) (by decide)).trans (V_arg3 m c)
theorem W_arg4 (dats : (p : Fin 1) → (c : Dev nD) → Dat τ (Elt F) Unit ℕ (UR sig nD τ) ℕ (cfgs p) c) (c : Dev nD) : Pipeline.afterTail₀ cfgs dats 0 (V0 m) later c main_arg4 = m ((c : Thread nD τ).loc main_arg4) :=
  (end_of_bypass m dats c (by decide) (by decide)).trans (V_arg4 m c)
theorem W_arg5 (dats : (p : Fin 1) → (c : Dev nD) → Dat τ (Elt F) Unit ℕ (UR sig nD τ) ℕ (cfgs p) c) (c : Dev nD) : Pipeline.afterTail₀ cfgs dats 0 (V0 m) later c main_arg5 = m ((c : Thread nD τ).loc main_arg5) :=
  (end_of_bypass m dats c (by decide) (by decide)).trans (V_arg5 m c)
theorem W_arg6 (dats : (p : Fin 1) → (c : Dev nD) → Dat τ (Elt F) Unit ℕ (UR sig nD τ) ℕ (cfgs p) c) (c : Dev nD) : Pipeline.afterTail₀ cfgs dats 0 (V0 m) later c main_arg6 = m ((c : Thread nD τ).loc main_arg6) :=
  (end_of_bypass m dats c (by decide) (by decide)).trans (V_arg6 m c)

/-! ## The frame claim from a run to the library's frame post -/

/-- A run of @main whose final state has every buffer the region bypasses at the later lines' result is a run in which
    the seven argument arrays end as launched: each is such a buffer, found and left untouched. -/
theorem frame_of (ρ : Dev nD → PrngReg) (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (V0 m) later))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_arg0 m dats c),
     ((h c).2 main_arg1 (Pipeline.mem_restRefs_of main_arg1 (by decide) (by decide))).trans (W_arg1 m dats c),
     ((h c).2 main_arg2 (Pipeline.mem_restRefs_of main_arg2 (by decide) (by decide))).trans (W_arg2 m dats c),
     ((h c).2 main_arg3 (Pipeline.mem_restRefs_of main_arg3 (by decide) (by decide))).trans (W_arg3 m dats c),
     ((h c).2 main_arg4 (Pipeline.mem_restRefs_of main_arg4 (by decide) (by decide))).trans (W_arg4 m dats c),
     ((h c).2 main_arg5 (Pipeline.mem_restRefs_of main_arg5 (by decide) (by decide))).trans (W_arg5 m dats c),
     ((h c).2 main_arg6 (Pipeline.mem_restRefs_of main_arg6 (by decide) (by decide))).trans (W_arg6 m dats c)⟩) h

end Cert.KernelIdeal.Host

end
-- ==== Proof.IdealRegion.lean ====
/-
  The idealized kernel's region: the masking body at each of the five grid points, and the run of @main.

  The grid cuts the [625, 6400] arrays into five column tiles [625, 1280]. At a point the body reads the tiles of the
  segment ids, the energies and the hit/track flags, and writes three tiles whole: the ids plus one; the energy where
  the id is not -1 and the flag is 0, else zero; the same where the flag is 1. (It also loads each result tile before
  overwriting it; those values are never used.) So what the body leaves in a result tile is a function of the three
  input tiles alone, the single whole-tile store read back. With that as the proof data — every input tile found at its
  block of the array, every result tile left at that function of them, nothing carried from point to point — the
  library's launch theorem for a region followed by host lines gives the run of @main: it terminates, faults nowhere,
  ends with each result array assembled from what the points left and every bypassing buffer at the later lines'
  result. The frame claim is that run read at the seven argument arrays.
-/
import proofs.«423578_j61237643706562_3_alg».proof.Proof.IdealHost
import proofs.«423578_j61237643706562_3_alg».proof.Proof.Gen.KernelIdeal.Skeleton
import proofs.«423578_j61237643706562_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Host

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Tiles -/

/-- Window `w`'s tile at point `t`: its block of the array the region finds. -/
def tileOf (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole tile as a rectangle: every load and store of the body goes through it. -/
abbrev whole : Rect S625x1280 := Rect.unit (s := S625x1280) ![0, 0] S625x1280.size inb_S625x1280_S625x1280_0_0

/-- The tile of ids plus one, from the ids' tile. -/
def tileSeg (x0 : Vec F S625x1280 .i32) : Vec F S625x1280 .i32 :=
  View.canon [⟨whole, k0_pay2 (View.ld x0 whole)⟩]
/-- The tile of hit energies, from the ids', the energies' and the flags' tiles. -/
def tileHit (x0 : Vec F S625x1280 .i32) (x1 : Vec F S625x1280 .f32) (x2 : Vec F S625x1280 .i32) : Vec F S625x1280 .f32 :=
  View.canon [⟨whole, k0_pay5 (View.ld x0 whole) (View.ld x1 whole) (View.ld x2 whole)⟩]
/-- The tile of track energies, from the same three. -/
def tileTrk (x0 : Vec F S625x1280 .i32) (x1 : Vec F S625x1280 .f32) (x2 : Vec F S625x1280 .i32) : Vec F S625x1280 .f32 :=
  View.canon [⟨whole, k0_pay6 (View.ld x0 whole) (View.ld x1 whole) (View.ld x2 whole)⟩]

/-- One whole-tile store covers the tile. -/
theorem whole_covers_i (p0 : Vec F S625x1280 .i32) (y : S625x1280.Idx) :
    ∃ pc ∈ ([⟨whole, p0⟩] : List (View.Piece (Elt F) S625x1280 .i32)), y ∈ pc.1.set :=
  View.cover_of_tiled [⟨whole, p0⟩] S625x1280.size (by rfl) y
theorem whole_covers_f (p0 : Vec F S625x1280 .f32) (y : S625x1280.Idx) :
    ∃ pc ∈ ([⟨whole, p0⟩] : List (View.Piece (Elt F) S625x1280 .f32)), y ∈ pc.1.set :=
  View.cover_of_tiled [⟨whole, p0⟩] S625x1280.size (by rfl) y

/-! ## The inputs' staging buffers hold their tiles -/

/-- An input window's current staging buffer holds its tile at every point, fetched there or not, for any proof data
    over the region-entry arrays whose body leaves the tile in place. -/
theorem found0 {c : Dev nD} (dat : Dat τ (Elt F) Unit ℕ (UR sig nD τ) ℕ cfg0 c) (hA : dat.A 0 = V m c (Pipeline.arrRef spec0 0))
    (hafter : ∀ t, dat.after 0 t = tileOf m c 0 t) (t : Fin cfg0.N) (d) : dat.before 0 t d = tileOf m c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
theorem found1 {c : Dev nD} (dat : Dat τ (Elt F) Unit ℕ (UR sig nD τ) ℕ cfg0 c) (hA : dat.A 1 = V m c (Pipeline.arrRef spec0 1))
    (hafter : ∀ t, dat.after 1 t = tileOf m c 1 t) (t : Fin cfg0.N) (d) : dat.before 1 t d = tileOf m c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
theorem found2 {c : Dev nD} (dat : Dat τ (Elt F) Unit ℕ (UR sig nD τ) ℕ cfg0 c) (hA : dat.A 2 = V m c (Pipeline.arrRef spec0 2))
    (hafter : ∀ t, dat.after 2 t = tileOf m c 2 t) (t : Fin cfg0.N) (d) : dat.before 2 t d = tileOf m c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)

/-! ## The body's triple -/

set_option maxHeartbeats 4000000 in
/-- The body on six whole staging memrefs — the inputs' holding `x0`, `x1`, `x2`, the results' anything — runs to a
    continuation that holds the inputs' as they were and the results' at the three tiles computed from them. -/
theorem body_sound (c : Dev nD) (E : Set ℕ) (i : grid0.Coords)
    (a1 : Memref sig .tc .vmem S625x1280 .i32) (h1 : a1.IsWhole) (a2 : Memref sig .tc .vmem S625x1280 .f32) (h2 : a2.IsWhole)
    (a3 : Memref sig .tc .vmem S625x1280 .i32) (h3 : a3.IsWhole) (a4 : Memref sig .tc .vmem S625x1280 .i32) (h4 : a4.IsWhole)
    (a5 : Memref sig .tc .vmem S625x1280 .f32) (h5 : a5.IsWhole) (a6 : Memref sig .tc .vmem S625x1280 .f32) (h6 : a6.IsWhole)
    (x0 : Vec F S625x1280 .i32) (x1 : Vec F S625x1280 .f32) (x2 : Vec F S625x1280 .i32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare (tileSeg x0) ∗ owns (c : Thread nD τ) a5 fullShare (tileHit x0 x1 x2)
            ∗ owns (c : Thread nD τ) a6 fullShare (tileTrk x0 x1 x2)) -∗ K ⟨⟩))
      ⊢ wp frame (wpE (defs₀ (F := F)) Variants.none c none) E (cc0__mask_kernel i a1 h1 a2 h2 a3 h3 a4 h4 a5 h5 a6 h6) K := by
  simp only [cc0__mask_kernel_eq_skeleton]; unfold cc0__mask_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (whole_covers_i _)
  isplitl [H4]
  · iexists _; isplitr
    swap; · iexact H4
    ipureintro
    exact View.read_writes_eq_canon _ _ _ (whole_covers_f _)
  iexists _; isplitr
  swap; · iexact H5
  ipureintro
  exact View.read_writes_eq_canon _ _ _ (whole_covers_f _)

/-! ## The proof data -/

/-- On core `c`: the arrays as the region finds them; after the body at point `t` each input's buffer at its tile and
    each result's at the tile computed from the three input tiles; the invariant only what the body never touches;
    nothing owed, full shares. -/
def dats (_ : Fin 1) (c : Dev nD) : Dat τ (Elt F) Unit ℕ (UR sig nD τ) ℕ cfg0 c where
  A w := V m c (Pipeline.arrRef spec0 w)
  after w t := match w with
    | ⟨0, _⟩ => tileOf m c 0 t
    | ⟨1, _⟩ => tileOf m c 1 t
    | ⟨2, _⟩ => tileOf m c 2 t
    | ⟨3, _⟩ => tileSeg (tileOf m c 0 t)
    | ⟨4, _⟩ => tileHit (tileOf m c 0 t) (tileOf m c 1 t) (tileOf m c 2 t)
    | ⟨5, _⟩ => tileTrk (tileOf m c 0 t) (tileOf m c 1 t) (tileOf m c 2 t)
  Φ _ := Pipeline.ΦA spec0 c
  q _ := fullShare
  owed _ := 0

theorem arrays_eq (c : Dev nD) (w : Fin cfg0.W) : (dats m 0 c).A w = V m c (Pipeline.arrRef spec0 w) := by
  dsimp only [dats]

theorem left0 (c : Dev nD) (t : Fin cfg0.N) : (dats m 0 c).after 0 t = tileOf m c 0 t := by dsimp only [dats]
theorem left1 (c : Dev nD) (t : Fin cfg0.N) : (dats m 0 c).after 1 t = tileOf m c 1 t := by dsimp only [dats]
theorem left2 (c : Dev nD) (t : Fin cfg0.N) : (dats m 0 c).after 2 t = tileOf m c 2 t := by dsimp only [dats]
theorem left3 (c : Dev nD) (t : Fin cfg0.N) : (dats m 0 c).after 3 t = tileSeg (tileOf m c 0 t) := by dsimp only [dats]
theorem left4 (c : Dev nD) (t : Fin cfg0.N) :
    (dats m 0 c).after 4 t = tileHit (tileOf m c 0 t) (tileOf m c 1 t) (tileOf m c 2 t) := by dsimp only [dats]
theorem left5 (c : Dev nD) (t : Fin cfg0.N) :
    (dats m 0 c).after 5 t = tileTrk (tileOf m c 0 t) (tileOf m c 1 t) (tileOf m c 2 t) := by dsimp only [dats]

theorem held0 (c : Dev nD) (t : Fin cfg0.N) (d) : (dats m 0 c).before 0 t d = tileOf m c 0 t :=
  found0 m (dats m 0 c) (arrays_eq m c 0) (left0 m c) t d
theorem held1 (c : Dev nD) (t : Fin cfg0.N) (d) : (dats m 0 c).before 1 t d = tileOf m c 1 t :=
  found1 m (dats m 0 c) (arrays_eq m c 1) (left1 m c) t d
theorem held2 (c : Dev nD) (t : Fin cfg0.N) (d) : (dats m 0 c).before 2 t d = tileOf m c 2 t :=
  found2 m (dats m 0 c) (arrays_eq m c 2) (left2 m c) t d

/-! ## The body obligation at a generic point -/

/-- What the body is called with at point `t`, window by window, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their tiles, so the triple applies; the invariant and the core's
    dues pass through unread. -/
theorem point_sound (c : Dev nD) (t : Fin cfg0.N) :
    handed m c t ⊢ wp frame (wpE (defs₀ (F := F)) Variants.none c none) Set.univ (bodyAt0 t) (fun _ => returned m c t) := by
  unfold handed returned bodyAt0
  simp only [held0, held1, held2]
  rw [show (dats m 0 c).Φ t.succ = (dats m 0 c).Φ t.castSucc from rfl,
    show (dats m 0 c).owesAt () t.succ = (dats m 0 c).owesAt () t.castSucc from rfl,
    left0, left1, left2, left3, left4, left5]
  iintro ⟨HΦ, Ho, ⟨%d0, H0⟩, ⟨%d1, H1⟩, ⟨%d2, H2⟩, ⟨%d3, H3⟩, ⟨%d4, H4⟩, ⟨%d5, H5⟩⟩
  iapply (body_sound c Set.univ (grid0.coords t) _ _ _ _ _ _ _ _ _ _ _ _ (tileOf m c 0 t) (tileOf m c 1 t) (tileOf m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact point_sound m c t

/-! ## The run and the frame -/

set_option backward.isDefEq.respectTransparency.types false in
/-- Every weakly fair execution of @main terminates without a fault; at the end every array of the region is what the
    library assembles from the proof data and every other unscoped buffer is as the later lines leave it. -/
theorem run_main : θ_run defs (onTc (τ := τ) (main (F := F))) (s₀ m ρ)
    (Pipeline.FramePost cfgs (dats m) 0 (Pipeline.afterTail₀ cfgs (dats m) 0 (V0 m) later)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := later) (hsub := later_within) (hfresh := later_fresh) (hkeep := later_keeps)
    (hmain := main_around m Variants.none) (hA := arrays_eq m) (hΦ := fun _ _ => rfl)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.Region

end
-- ==== Proof.LibGatherRead.lean ====
/-
  Reading a `stablehlo.gather` at one result index, for two shapes of dimension numbers the take-shaped
  read does not cover:

  * a single-column table [N, 1] gathered at FULL two-component start indices (row, column), both operand
    axes collapsed, one result axis (`gather_cell`);
  * a table [N, C] gathered BY ROWS: axis 0 collapsed and start-indexed, axis 1 an offset axis kept whole
    (`gather_rows`).

  In both, the row read is the start index's row component read signed and clamped into [0, N − 1]
  (StableHLO clamps every start so that the slice fits; the slice has extent 1 on a collapsed axis).
-/
import Idealize.ShloMosaic.PureOps
import Idealize.ShloMosaic.Lib.SortFacts

namespace Idealize.ShloMosaic.GatherRead

open Idealize.ShloMosaic

/-- Row `p`, column `q` of a two-axis array. -/
abbrev rc {n k : Nat} (p : Fin n) (q : Fin k) : (⟨2, ![n, k]⟩ : Shape).Idx := fun | ⟨0, _⟩ => p | ⟨1, _⟩ => q

/-- A one-element list read at any admissible position is its element. -/
private theorem getElem_of_eq_singleton {β : Type} {l : List β} {a : β} (h : l = [a]) (i : Nat) (hi : i < l.length) :
    l[i] = a := by
  subst h
  have h0 : i = 0 := by simpa using hi
  subst h0
  rfl

/-- On an operand axis `a` that is collapsed, start-indexed and not batching, the operand index a gather reads
    is the start index's component for `a`, read signed and clamped into `[0, size a − 1]`: the batching and the
    offset coordinates vanish there, and the slice has extent 1. -/
private theorem operandIdx_collapsed {s si t : Shape} {w : Nat} (d : GatherDims s si t) (j : t.Idx) (idx : IVec si w)
    (a : Fin s.rank) (hc : a ∈ d.collapsedSliceDims) (hb : a ∉ d.operandBatchingDims) (hm : a ∈ d.startIndexMap) :
    (d.operandIdx j idx a).val
      = min (idx (d.siIdx j ⟨d.startIndexMap.idxOf a, List.idxOf_lt_length_iff.2 hm⟩)).toInt.toNat (s.size a - 1) := by
  have hk : a ∉ d.sKept := fun h => ((d.mem_sKept a).1 h).1 hc
  show d.start j idx a + d.batchCoord j a + d.offCoord j a = _
  rw [d.batchCoord_eq_zero j a hb, d.offCoord_eq_zero j a hk]
  simp only [Nat.add_zero]
  unfold GatherDims.start
  rw [dif_pos hm, d.slice_collapsed a hc]

/-- READ OF A SINGLE-COLUMN TABLE AT (ROW, COLUMN) START INDICES. The operand is [N, 1]; the start indices are
    [n, 2], row `p` holding the pair (row, column) along axis 1 (the index vector's axis); both operand axes are
    collapsed and start-indexed, there are no batching axes, and the result is [n]. Result position `p` reads the
    table at row = the row component of start index `p`, read SIGNED and CLAMPED into [0, N − 1], and at column 0:
    the column axis has extent 1, so its coordinate is 0 whatever the column component says. -/
theorem gather_cell {α : Type} {N n w : Nat} (d : GatherDims ⟨2, ![N, 1]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, 1]⟩ : Shape).Idx → α) (idx : IVec ⟨2, ![n, 2]⟩ w) (p : Fin n) (hN : 0 < N) :
    Host.gather d x idx (Shape.Idx.ofFin p)
      = x (rc ⟨min (idx (rc p (0 : Fin 2))).toInt.toNat (N - 1), by omega⟩ (0 : Fin 1)) := by
  unfold Host.gather
  congr 1
  funext a
  apply Fin.ext
  match a with
  | ⟨0, h0⟩ =>
    have hc : (⟨0, h0⟩ : Fin 2) ∈ d.collapsedSliceDims := by rw [hcoll]; exact List.mem_cons_self
    have hb : (⟨0, h0⟩ : Fin 2) ∉ d.operandBatchingDims := by rw [hob]; exact List.not_mem_nil
    have hm : (⟨0, h0⟩ : Fin 2) ∈ d.startIndexMap := by rw [hsim]; exact List.mem_cons_self
    rw [operandIdx_collapsed d _ idx _ hc hb hm]
    show min _ (N - 1) = min (idx (rc p (0 : Fin 2))).toInt.toNat (N - 1)
    congr 3
    congr 1
    -- the start-indices index read: the result's one axis is its batch axis, reading the start indices' axis 0;
    -- the component is the row's position in the start index map, 0
    funext b
    apply Fin.ext
    match b with
    | ⟨0, _⟩ =>
      unfold GatherDims.siIdx
      rw [dif_neg (by rw [hivd]; simp)]
      unfold GatherDims.siCoord
      simp only [Fin.val_cast]
      have e : ∀ X : Fin 1, ((Shape.Idx.ofFin p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      show List.idxOf (⟨0, h0⟩ : Fin 2) d.startIndexMap = 0
      rw [hsim]; rfl
  | ⟨1, h1⟩ =>
    -- an axis of extent 1 has the one coordinate 0
    have hlt : (d.operandIdx (Shape.Idx.ofFin p) idx ⟨1, h1⟩).val < 1 :=
      (d.operandIdx (Shape.Idx.ofFin p) idx ⟨1, h1⟩).isLt
    show (d.operandIdx (Shape.Idx.ofFin p) idx ⟨1, h1⟩).val = 0
    omega

/-- READ OF A TABLE GATHERED BY ROWS. The operand is [N, C]; the start indices are the [n, 1] column of row
    positions (index vector on axis 1); operand axis 0 is collapsed and start-indexed, axis 1 is an offset axis
    kept whole (the result's axis 1), there are no batching axes, and the result is [n, C]. Result element
    `(p, q)` reads the table at row = start index `p` read SIGNED and CLAMPED into [0, N − 1], column `q`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (rc p q)
      = x (rc ⟨min (idx (rc p (0 : Fin 1))).toInt.toNat (N - 1), by omega⟩ q) := by
  unfold Host.gather
  congr 1
  funext a
  apply Fin.ext
  match a with
  | ⟨0, h0⟩ =>
    have hc : (⟨0, h0⟩ : Fin 2) ∈ d.collapsedSliceDims := by rw [hcoll]; exact List.mem_cons_self
    have hb : (⟨0, h0⟩ : Fin 2) ∉ d.operandBatchingDims := by rw [hob]; exact List.not_mem_nil
    have hm : (⟨0, h0⟩ : Fin 2) ∈ d.startIndexMap := by rw [hsim]; exact List.mem_cons_self
    rw [operandIdx_collapsed d _ idx _ hc hb hm]
    show min _ (N - 1) = min (idx (rc p (0 : Fin 1))).toInt.toNat (N - 1)
    congr 3
    congr 1
    funext b
    apply Fin.ext
    match b with
    | ⟨0, _⟩ =>
      -- the result's batch axes are the ones that are not offset axes: axis 0 alone, whose coordinate is `p`
      have hbd : d.batchDims = [0] := by
        show (⟨2, ![n, C]⟩ : Shape).kept d.offsetDims = [0]
        rw [hoff]; rfl
      unfold GatherDims.siIdx
      rw [dif_neg (by rw [hivd]; simp)]
      unfold GatherDims.siCoord
      simp only [Fin.val_cast]
      have e : ∀ X : Fin 2, X = 0 → ((rc p q : (⟨2, ![n, C]⟩ : Shape).Idx) X).val = p.val := fun X hX => by
        subst hX; rfl
      exact e _ (getElem_of_eq_singleton hbd _ _)
    | ⟨1, _⟩ =>
      unfold GatherDims.siIdx
      rw [dif_pos (by rw [hivd])]
      show List.idxOf (⟨0, h0⟩ : Fin 2) d.startIndexMap = 0
      rw [hsim]; rfl
  | ⟨1, h1⟩ =>
    -- axis 1 is not start-indexed (start 0), not batching, and is the one kept axis: its coordinate is the
    -- result's coordinate on the one offset axis, `q`
    have hne : (⟨1, h1⟩ : Fin 2) ∉ [(0 : Fin 2)] := fun h =>
      Nat.one_ne_zero (congrArg Fin.val (List.mem_singleton.1 h))
    have hm : (⟨1, h1⟩ : Fin 2) ∉ d.startIndexMap := by rw [hsim]; exact hne
    have hb : (⟨1, h1⟩ : Fin 2) ∉ d.operandBatchingDims := by rw [hob]; exact List.not_mem_nil
    have hk : (⟨1, h1⟩ : Fin 2) ∈ d.sKept := (d.mem_sKept _).2 ⟨by rw [hcoll]; exact hne, hb⟩
    show d.start (rc p q) idx ⟨1, h1⟩ + d.batchCoord (rc p q) ⟨1, h1⟩ + d.offCoord (rc p q) ⟨1, h1⟩ = q.val
    rw [d.batchCoord_eq_zero _ _ hb, Nat.add_zero]
    unfold GatherDims.start GatherDims.offCoord
    rw [dif_neg hm, dif_pos hk, Nat.zero_add]
    have e : ∀ X : Fin 2, X = 1 → ((rc p q : (⟨2, ![n, C]⟩ : Shape).Idx) X).val = q.val := fun X hX => by
      subst hX; rfl
    exact e _ (getElem_of_eq_singleton hoff _ _)

end Idealize.ShloMosaic.GatherRead
-- ==== Proof.CorrBridge.lean ====
/-
  The one place where the two programs differ: the table of per-position factors, [10001] floats.

  There are N = 4000000 hits with an id column and a factor column, both [N, 1], and 10000 position words, each
  at most N (N itself is the sentinel: "no hit"). Both programs build a table whose entry 0 is zero and whose entry
  k + 1 is the factor at position k's row, zero if that row's id is -1, zero at the sentinel.

  * One program caps the position at N − 1, gathers the id and the factor at that row, and selects zero where the
    position is the sentinel or the gathered id is -1.
  * The other zeroes the rows of the factor column whose id is -1, appends one zero row, and gathers at the position
    itself: the sentinel reads the appended row.

  `corrK` and `corrR` are the two computations, operation by operation; `corr_agree` says they are the same table
  when every position is at most N. Only selects and reads are involved, so it holds for any float model.
-/
import proofs.«423578_j61237643706562_3_alg».proof.Proof.Gen.KernelIdeal
import proofs.«423578_j61237643706562_3_alg».proof.Proof.Gen.ReferenceIdeal
import proofs.«423578_j61237643706562_3_alg».proof.Proof.LibGatherRead
import Idealize.ShloMosaic.Lib.Pipeline.Value
import Idealize.ShloMosaic.Lib.ValueIdx
import Idealize.ShloMosaic.Lib.StableHlo.Predicate

noncomputable section

namespace Cert.CorrBridge

open Idealize.ShloMosaic

variable {F : FTy → Type} [FloatOps F]

section
open Cert.KernelIdeal Cert.KernelIdeal.Facts₀

/-- The kernel side's table of per-cluster factors: entry 0 zero, entry `k + 1` the factor gathered at position
    `alpha k` capped to the last row, zero where `alpha k` is the sentinel or the gathered id is `-1`. -/
def corrK (sid : IVec S4000000x1 32) (pcf : FVec F S4000000x1 .f32) (alpha : IVec S10000 32) : FVec F S10001 .f32 :=
  let capped : IVec S10000 32 := minsi alpha (broadcastInDim S10000 ![] bcast_S_S10000 (constantI S_ 32 3999999#32))
  let pos : IVec S10000 32 := select (cmpi .slt capped (broadcastInDim S10000 ![] bcast_S_S10000 (constantI S_ 32 0#32))) (addi capped (broadcastInDim S10000 ![] bcast_S_S10000 (constantI S_ 32 4000000#32))) capped
  let starts : IVec S10000x2 32 := concatenate S10000x2 1 [⟨S10000x1, broadcastInDim S10000x1 ![0] bcast_S10000_S10000x1_0 pos⟩, ⟨S10000x1, broadcastInDim S10000x1 ![0] bcast_S10000_S10000x1_0 (id (broadcastInDim S10000 ![] bcast_S_S10000 (constantI S_ 32 0#32)))⟩] concatenates_S10000x1_S10000x1_S10000x2_d1
  let sidAt : IVec S10000 32 := Host.gather gather_S4000000x1_S10000x2_S10000_n_01_n_n_01_1_11 sid starts
  let pcfAt : FVec F S10000 .f32 := Host.gather gather_S4000000x1_S10000x2_S10000_n_01_n_n_01_1_11 pcf starts
  let drop : IVec S10000 1 := ori (cmpi .eq alpha (broadcastInDim S10000 ![] bcast_S_S10000 (constantI S_ 32 4000000#32))) (cmpi .eq sidAt (broadcastInDim S10000 ![] bcast_S_S10000 (constantI S_ 32 4294967295#32)))
  concatenate S10001 0 [⟨S1, broadcastInDim S1 ![] bcast_S_S1 (constant S_ .f32 0x00000000#32)⟩, ⟨S10000, select drop (broadcastInDim S10000 ![] bcast_S_S10000 (id (constant S_ .f32 0x00000000#32))) pcfAt⟩] concatenates_S1_S10000_S10001_d0

end

section
open Cert.ReferenceIdeal Cert.ReferenceIdeal.Facts₀

/-- The reference side's table: entry 0 zero, entry `k + 1` row `alpha k` of the factor column with its noise rows
    (id `-1`) zeroed and one zero row appended. -/
def corrR (sid : IVec S4000000x1 32) (pcf : FVec F S4000000x1 .f32) (alpha : IVec S10000 32) : FVec F S10001 .f32 :=
  concatenate S10001 0 [⟨S1, (broadcastInDim S1 ![] bcast_S_S1 (constant S_ .f32 0x00000000#32))⟩, ⟨S10000, (Host.gather gather_S4000001x1_S10000x2_S10000_n_01_n_n_01_1_11 (concatenate S4000001x1 0 [⟨S4000000x1, (select (cmpi .eq sid (broadcastInDim S4000000x1 ![] bcast_S_S4000000x1 (constantI S_ 32 4294967295#32))) (broadcastInDim S4000000x1 ![] bcast_S_S4000000x1 (id (constant S_ .f32 0x00000000#32))) pcf)⟩, ⟨S1x1, (broadcastInDim S1x1 ![] bcast_S_S1x1 (constant S_ .f32 0x00000000#32))⟩] concatenates_S4000000x1_S1x1_S4000001x1_d0) (concatenate S10000x2 1 [⟨S10000x1, (broadcastInDim S10000x1 ![0] bcast_S10000_S10000x1_0 (select (cmpi .slt alpha (broadcastInDim S10000 ![] bcast_S_S10000 (constantI S_ 32 0#32))) (addi alpha (broadcastInDim S10000 ![] bcast_S_S10000 (constantI S_ 32 4000001#32))) alpha))⟩, ⟨S10000x1, (broadcastInDim S10000x1 ![0] bcast_S10000_S10000x1_0 (id (broadcastInDim S10000 ![] bcast_S_S10000 (constantI S_ 32 0#32))))⟩] concatenates_S10000x1_S10000x1_S10000x2_d1))⟩] concatenates_S1_S10000_S10001_d0

end

open Idealize.ShloMosaic.GatherRead Idealize.ShloMosaic.StableHlo.Predicate Idealize.ShloMosaic.ValueIdx

/-! ## Words -/

/-- A select whose condition bit is not set is its second operand. -/
private theorem select_of_ne_one {α : Type} {c : BitVec 1} (h : c ≠ 1#1) (a b : α) : Scalar.select c a b = b := if_neg h

/-- A position at most 4000000, capped at 3999999 by the signed minimum. -/
private theorem minsi_cap (a : BitVec 32) (ha : a.toNat ≤ 4000000) :
    (IntOp.minsi a 3999999#32).toNat = min a.toNat 3999999 := by
  have hti : a.toInt = (a.toNat : Int) := toInt_eq_toNat_of_lt (by omega)
  have hc : (3999999#32 : BitVec 32).toInt = ((3999999#32 : BitVec 32).toNat : Int) := toInt_eq_toNat_of_lt (by decide)
  have hcn : (3999999#32 : BitVec 32).toNat = 3999999 := rfl
  unfold IntOp.minsi
  by_cases h : a.slt 3999999#32 = true
  · rw [if_pos h]
    simp only [BitVec.slt, hti, hc, hcn, decide_eq_true_eq] at h
    omega
  · rw [if_neg h]
    simp only [BitVec.slt, hti, hc, hcn, decide_eq_true_eq] at h
    omega

/-- The kernel's row word: the capped position is not negative, so the wrap-around select keeps it, and read signed
    it is the position capped at the last row. -/
private theorem posK_word (a : BitVec 32) (ha : a.toNat ≤ 4000000) :
    (Scalar.select (IntOp.cmpi .slt (IntOp.minsi a 3999999#32) 0#32) (IntOp.addi (IntOp.minsi a 3999999#32) 4000000#32)
      (IntOp.minsi a 3999999#32)).toInt.toNat = min a.toNat 3999999 := by
  have hcap := minsi_cap a ha
  have hneg : IntOp.cmpi .slt (IntOp.minsi a 3999999#32) 0#32 ≠ 1#1 := by
    intro h
    have h' := (slt_iff_toNat (by omega) (by decide)).1 h
    exact absurd h' (Nat.not_lt_zero _)
  rw [select_of_ne_one hneg, toInt_eq_toNat_of_lt (by omega), Int.toNat_natCast, hcap]

/-- The reference's row word: the position is not negative, so the wrap-around select keeps it. -/
private theorem posR_word (a : BitVec 32) (ha : a.toNat ≤ 4000000) :
    (Scalar.select (IntOp.cmpi .slt a 0#32) (IntOp.addi a 4000001#32) a).toInt.toNat = a.toNat := by
  have hneg : IntOp.cmpi .slt a 0#32 ≠ 1#1 := by
    intro h
    have h' := (slt_iff_toNat (by omega) (by decide)).1 h
    exact absurd h' (Nat.not_lt_zero _)
  rw [select_of_ne_one hneg, toInt_eq_toNat_of_lt (by omega), Int.toNat_natCast]

/-! ## Reads -/

/-- The start-index table of either program — the column of positions beside a second column — read at `(p, 0)` is
    the position at `p`. -/
private theorem starts_read {n w : Nat} (hbc : (⟨1, ![n]⟩ : Shape).BroadcastsInDim ⟨2, ![n, 1]⟩ ![0])
    (hcat : Shape.Concatenates [(⟨2, ![n, 1]⟩ : Shape), ⟨2, ![n, 1]⟩] ⟨2, ![n, 2]⟩ 1)
    (u v : IVec ⟨1, ![n]⟩ w) (p : Fin n) :
    concatenate ⟨2, ![n, 2]⟩ 1 [⟨⟨2, ![n, 1]⟩, broadcastInDim ⟨2, ![n, 1]⟩ ![0] hbc u⟩,
        ⟨⟨2, ![n, 1]⟩, broadcastInDim ⟨2, ![n, 1]⟩ ![0] hbc v⟩] hcat (rc p (0 : Fin 2))
      = u (Shape.Idx.ofFin p) := by
  rw [concatenate_pair_apply_left (t := ⟨2, ![n, 2]⟩) (s₁ := ⟨2, ![n, 1]⟩) (s₂ := ⟨2, ![n, 1]⟩) (1 : Fin 2) _ _ hcat
    (rc p (0 : Fin 2)) rfl (ixP p) (fun b => match b with | ⟨0, _⟩ => rfl | ⟨1, _⟩ => rfl)]
  exact bcast_col1 hbc u p

/-- A column with one row appended, read at a row of the column: the column there. -/
private theorem ext_read_lt {α : Type} {N M : Nat}
    (hcat : Shape.Concatenates [(⟨2, ![N, 1]⟩ : Shape), ⟨2, ![1, 1]⟩] ⟨2, ![M, 1]⟩ 0)
    (x : (⟨2, ![N, 1]⟩ : Shape).Idx → α) (z : (⟨2, ![1, 1]⟩ : Shape).Idx → α) (r : Fin M) (hr : r.val < N) :
    concatenate ⟨2, ![M, 1]⟩ 0 [⟨⟨2, ![N, 1]⟩, x⟩, ⟨⟨2, ![1, 1]⟩, z⟩] hcat (rc r (0 : Fin 1))
      = x (rc ⟨r.val, hr⟩ (0 : Fin 1)) :=
  concatenate_pair_apply_left (t := ⟨2, ![M, 1]⟩) (s₁ := ⟨2, ![N, 1]⟩) (s₂ := ⟨2, ![1, 1]⟩) (0 : Fin 2) x z hcat
    (rc r (0 : Fin 1)) rfl (rc ⟨r.val, hr⟩ (0 : Fin 1))
    (fun b => match b with | ⟨0, _⟩ => rfl | ⟨1, _⟩ => rfl)

/-- A column of `N` rows with one row appended, read at row `N`: the appended row. -/
private theorem ext_read_eq {α : Type} {N M : Nat}
    (hcat : Shape.Concatenates [(⟨2, ![N, 1]⟩ : Shape), ⟨2, ![1, 1]⟩] ⟨2, ![M, 1]⟩ 0)
    (x : (⟨2, ![N, 1]⟩ : Shape).Idx → α) (z : (⟨2, ![1, 1]⟩ : Shape).Idx → α) (r : Fin M) (hr : r.val = N) :
    concatenate ⟨2, ![M, 1]⟩ 0 [⟨⟨2, ![N, 1]⟩, x⟩, ⟨⟨2, ![1, 1]⟩, z⟩] hcat (rc r (0 : Fin 1))
      = z (rc (0 : Fin 1) (0 : Fin 1)) :=
  concatenate_pair_apply_right (t := ⟨2, ![M, 1]⟩) (s₁ := ⟨2, ![N, 1]⟩) (s₂ := ⟨2, ![1, 1]⟩) (0 : Fin 2) x z hcat
    (rc r (0 : Fin 1)) rfl rfl (rc (0 : Fin 1) (0 : Fin 1))
    (fun b => match b with | ⟨0, _⟩ => fun h => absurd rfl h | ⟨1, _⟩ => fun _ => rfl)
    (by show 0 + N = r.val; omega)

/-- Two-piece concatenations with the same first piece agree when their second pieces do. -/
private theorem concat_tail_congr {α : Type} {t s₁ s₂ : Shape} (a : Fin t.rank) (z : s₁.Idx → α) (A B : s₂.Idx → α)
    (h : Shape.Concatenates [s₁, s₂] t a) (h' : Shape.Concatenates [s₁, s₂] t a) (e : A = B) :
    concatenate t a [⟨s₁, z⟩, ⟨s₂, A⟩] h = concatenate t a [⟨s₁, z⟩, ⟨s₂, B⟩] h' := by
  subst e; rfl

/-- On one bit, `or` with a set bit is set … -/
private theorem ori_one_left (x : BitVec 1) : IntOp.ori 1#1 x = 1#1 := by
  rcases BitVec.eq_zero_or_eq_one x with rfl | rfl <;> decide

/-- … and `or` with a clear bit is the other operand. -/
private theorem ori_zero_left (x : BitVec 1) : IntOp.ori 0#1 x = x := by
  rcases BitVec.eq_zero_or_eq_one x with rfl | rfl <;> decide

/-- The single-column gather read at a row given beforehand: it suffices that the row is the start index's row
    component read signed and clamped. -/
private theorem gather_cell_at {α : Type} {N n w : Nat} (d : GatherDims ⟨2, ![N, 1]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![N, 1]⟩ : Shape).Idx → α) (idx : IVec ⟨2, ![n, 2]⟩ w) (p : Fin n) (r : Fin N)
    (hr : r.val = min (idx (rc p (0 : Fin 2))).toInt.toNat (N - 1)) :
    Host.gather d x idx (Shape.Idx.ofFin p) = x (rc r (0 : Fin 1)) := by
  rw [gather_cell d hcoll hob hsim hivd x idx p (Fin.pos r)]
  exact congrArg (fun r' : Fin N => x (rc r' (0 : Fin 1))) (Fin.ext hr.symm)

/-- THE KERNEL'S ENTRY at a position word `a ≤ 4000000`, once its start table's row component reads as `a` capped at
    the last row: below the sentinel it is the factor at row `a`, zeroed where the id there is `-1`; at the sentinel
    it is zero. -/
private theorem tailK_read {β : Type} {n : Nat} (g : GatherDims ⟨2, ![4000000, 1]⟩ ⟨2, ![n, 2]⟩ ⟨1, ![n]⟩)
    (hcoll : g.collapsedSliceDims = [0, 1]) (hob : g.operandBatchingDims = [])
    (hsim : g.startIndexMap = [0, 1]) (hivd : g.indexVectorDim = 1)
    (sid : IVec ⟨2, ![4000000, 1]⟩ 32) (pcf : (⟨2, ![4000000, 1]⟩ : Shape).Idx → β) (starts : IVec ⟨2, ![n, 2]⟩ 32)
    (p : Fin n) (a : BitVec 32) (ha : a.toNat ≤ 4000000)
    (hs : (starts (rc p (0 : Fin 2))).toInt.toNat = min a.toNat 3999999) (zero : β) :
    Scalar.select (IntOp.ori (IntOp.cmpi .eq a 4000000#32)
        (IntOp.cmpi .eq (Host.gather g sid starts (Shape.Idx.ofFin p)) 4294967295#32)) zero
        (Host.gather g pcf starts (Shape.Idx.ofFin p))
      = if h : a.toNat < 4000000 then
          Scalar.select (IntOp.cmpi .eq (sid (rc ⟨a.toNat, h⟩ (0 : Fin 1))) 4294967295#32) zero (pcf (rc ⟨a.toNat, h⟩ (0 : Fin 1)))
        else zero := by
  by_cases h : a.toNat < 4000000
  · rw [dif_pos h]
    have hrow : (⟨a.toNat, h⟩ : Fin 4000000).val = min (starts (rc p (0 : Fin 2))).toInt.toNat (4000000 - 1) := by
      rw [hs]; show a.toNat = _; omega
    rw [gather_cell_at g hcoll hob hsim hivd sid starts p ⟨a.toNat, h⟩ hrow,
      gather_cell_at g hcoll hob hsim hivd pcf starts p ⟨a.toNat, h⟩ hrow]
    have hne : IntOp.cmpi .eq a 4000000#32 = 0#1 := eq_zero_of_ne_one fun h1 => by
      have e := congrArg BitVec.toNat (cmpi_eq_iff.1 h1)
      have e' : (4000000#32 : BitVec 32).toNat = 4000000 := rfl
      omega
    rw [hne, ori_zero_left]
  · rw [dif_neg h]
    have heq : a = 4000000#32 := BitVec.eq_of_toNat_eq (by
      have e' : (4000000#32 : BitVec 32).toNat = 4000000 := rfl
      omega)
    rw [cmpi_eq_iff.2 heq, ori_one_left, select_one]

/-- THE REFERENCE'S ENTRY at a position word `a ≤ 4000000`, once its start table's row component reads as `a`: the
    column with one row appended, at row `a` — the column there below the sentinel, the appended row at it. -/
private theorem tailR_read {β : Type} {n : Nat} (g : GatherDims ⟨2, ![4000001, 1]⟩ ⟨2, ![n, 2]⟩ ⟨1, ![n]⟩)
    (hcoll : g.collapsedSliceDims = [0, 1]) (hob : g.operandBatchingDims = [])
    (hsim : g.startIndexMap = [0, 1]) (hivd : g.indexVectorDim = 1)
    (hcat : Shape.Concatenates [(⟨2, ![4000000, 1]⟩ : Shape), ⟨2, ![1, 1]⟩] ⟨2, ![4000001, 1]⟩ 0)
    (x : (⟨2, ![4000000, 1]⟩ : Shape).Idx → β) (z : (⟨2, ![1, 1]⟩ : Shape).Idx → β) (starts : IVec ⟨2, ![n, 2]⟩ 32)
    (p : Fin n) (a : BitVec 32) (ha : a.toNat ≤ 4000000)
    (hs : (starts (rc p (0 : Fin 2))).toInt.toNat = a.toNat) :
    Host.gather g (concatenate ⟨2, ![4000001, 1]⟩ 0 [⟨⟨2, ![4000000, 1]⟩, x⟩, ⟨⟨2, ![1, 1]⟩, z⟩] hcat) starts (Shape.Idx.ofFin p)
      = if h : a.toNat < 4000000 then x (rc ⟨a.toNat, h⟩ (0 : Fin 1)) else z (rc (0 : Fin 1) (0 : Fin 1)) := by
  have hrow : (⟨a.toNat, by omega⟩ : Fin 4000001).val = min (starts (rc p (0 : Fin 2))).toInt.toNat (4000001 - 1) := by
    rw [hs]; show a.toNat = _; omega
  rw [gather_cell_at g hcoll hob hsim hivd _ starts p ⟨a.toNat, by omega⟩ hrow]
  by_cases h : a.toNat < 4000000
  · rw [dif_pos h]
    exact ext_read_lt hcat x z ⟨a.toNat, by omega⟩ h
  · rw [dif_neg h]
    exact ext_read_eq hcat x z ⟨a.toNat, by omega⟩ (by show a.toNat = 4000000; omega)

/-- THE TWO TABLES AGREE when every position is at most the sentinel 4000000. Both are a zero entry followed by one
    entry per position; at a position below the sentinel both read the factor column at that row with the noise rows
    (id `-1`) zeroed — the kernel by gathering id and factor and selecting, the reference by masking the column first —,
    and at the sentinel both give zero — the kernel by its test, the reference by reading the appended zero row. Only
    selects are involved: no float arithmetic. -/
theorem corr_agree (sid : IVec Cert.KernelIdeal.S4000000x1 32) (pcf : FVec F Cert.KernelIdeal.S4000000x1 .f32) (alpha : IVec Cert.KernelIdeal.S10000 32)
    (hb : ∀ k : Cert.KernelIdeal.S10000.Idx, (alpha k).toNat ≤ 4000000) : corrK sid pcf alpha = corrR sid pcf alpha := by
  unfold corrK corrR
  apply concat_tail_congr
  funext k
  obtain ⟨p, rfl⟩ : ∃ p : Fin 10000, k = Shape.Idx.ofFin p := ⟨k 0, Shape.Idx.eq_ofFin k⟩
  have ha := hb (Shape.Idx.ofFin p)
  refine (tailK_read Cert.KernelIdeal.gather_S4000000x1_S10000x2_S10000_n_01_n_n_01_1_11 rfl rfl rfl rfl sid pcf _ p
    (alpha (Shape.Idx.ofFin p)) ha ?hsK _).trans ?rest
  case hsK =>
    rw [starts_read]
    exact posK_word (alpha (Shape.Idx.ofFin p)) ha
  refine Eq.trans ?mid (tailR_read Cert.ReferenceIdeal.gather_S4000001x1_S10000x2_S10000_n_01_n_n_01_1_11 rfl rfl rfl rfl _ _ _ _ p
    (alpha (Shape.Idx.ofFin p)) ha ?hsR).symm
  case hsR =>
    rw [starts_read]
    exact posR_word (alpha (Shape.Idx.ofFin p)) ha
  by_cases h : (alpha (Shape.Idx.ofFin p)).toNat < 4000000
  · rw [dif_pos h, dif_pos h]; rfl
  · rw [dif_neg h, dif_neg h]; rfl

end Cert.CorrBridge

end
-- ==== Proof.Readback.lean ====
/-
  The per-segment tables read back at every hit: one stacked row gather, or four single-table gathers.

  Four [10001] tables T0..T3 hold one value per segment; SID is the [4000000] array of the hits' segment
  indices. Write norm s for s + 10001 when s is negative (signed) and s otherwise, and row s for norm s read as a
  signed integer and clamped into [0, 10000].

  One program stacks the four tables as the columns of a [10001, 4] table, gathers whole ROWS of it at the start
  indices norm SID into a [4000000, 4] array, and slices column k out as a [4000000, 1] column. The other
  gathers table T_k alone at the same start indices into a [4000000] vector and lays it out as a [4000000, 1]
  column. A gather clamps every start index so that the slice it takes fits: the row read is the start index read
  signed and clamped into [0, 10000] in both. So entry (n, 0) of either column is

      T_k (row (SID n)).

  Nothing here depends on the values held; it is index reading only.
-/
import proofs.«423578_j61237643706562_3_alg».proof.Proof.Gen.KernelIdeal
import proofs.«423578_j61237643706562_3_alg».proof.Proof.Gen.ReferenceIdeal
import proofs.«423578_j61237643706562_3_alg».proof.Proof.LibGatherRead
import Idealize.ShloMosaic.Lib.Pipeline.Value
import Idealize.ShloMosaic.Lib.ValueIdx
import Idealize.ShloMosaic.Lib.StableHlo.Predicate

noncomputable section

namespace Cert.Readback

open Idealize.ShloMosaic Idealize.ShloMosaic.GatherRead Idealize.ShloMosaic.StableHlo.Predicate

/-! ## Indices and single reads, at literal shapes -/

section Reads
variable {α : Type}

/-- The index (p, 0) of a one-column array, written either way. -/
theorem rc_zero {m : Nat} (p : Fin m) : rc p (0 : Fin 1) = ixP p := by
  funext a
  match a with
  | ⟨0, _⟩ => rfl
  | ⟨1, _⟩ => rfl

/-- Every index of a one-column array is (its row, 0): the column axis has extent 1. -/
theorem col_idx {m : Nat} (i : (⟨2, ![m, 1]⟩ : Shape).Idx) : i = rc (i 0) (0 : Fin 1) := by
  funext a
  match a with
  | ⟨0, _⟩ => rfl
  | ⟨1, _⟩ =>
    apply Fin.ext
    have h : (i 1).val < 1 := (i 1).isLt
    show (i 1).val = 0
    omega

/-- A vector laid out as a one-column array reads, at (p, 0), the vector at p. -/
theorem column_apply {m : Nat} (h : (⟨1, ![m]⟩ : Shape).BroadcastsInDim ⟨2, ![m, 1]⟩ ![0])
    (v : (⟨1, ![m]⟩ : Shape).Idx → α) (p : Fin m) :
    broadcastInDim ⟨2, ![m, 1]⟩ ![0] h v (rc p (0 : Fin 1)) = v (Shape.Idx.ofFin p) := by
  rw [rc_zero]
  exact bcast_col1 h v p

/-- Column c sliced out of a four-column array reads, at (n, 0), the array at (n, c): 0 + n = n, c + 0 = c. -/
theorem sliceCol_apply (c : Nat) (hc : c < 4) (G : (⟨2, ![4000000, 4]⟩ : Shape).Idx → α)
    (h : (⟨2, ![4000000, 4]⟩ : Shape).Slices ![0, c] ⟨2, ![4000000, 1]⟩) (n : Fin 4000000) :
    extractStridedSlice ⟨2, ![4000000, 1]⟩ ![0, c] G h (rc n (0 : Fin 1)) = G (rc n (⟨c, hc⟩ : Fin 4)) :=
  extractStridedSlice_apply _ G h _ (rc n (⟨c, hc⟩ : Fin 4)) fun a =>
    match a with
    | ⟨0, _⟩ => by show n.val = 0 + n.val; omega
    | ⟨1, _⟩ => by show c = c + 0; omega

/-- Four one-column pieces stacked side by side read, at (r, c), piece c at (r, 0): each piece has extent 1 along
    the stacking axis, so the c pieces before piece c span columns 0 .. c − 1 and piece c spans column c alone. -/
theorem stack4_apply (x0 x1 x2 x3 : (⟨2, ![10001, 1]⟩ : Shape).Idx → α)
    (h : Shape.Concatenates [(⟨2, ![10001, 1]⟩ : Shape), ⟨2, ![10001, 1]⟩, ⟨2, ![10001, 1]⟩, ⟨2, ![10001, 1]⟩]
      ⟨2, ![10001, 4]⟩ 1)
    (r : Fin 10001) (c : Nat) (hc : c < 4) (xc : (⟨2, ![10001, 1]⟩ : Shape).Idx → α)
    (hxc : ([⟨⟨2, ![10001, 1]⟩, x0⟩, ⟨⟨2, ![10001, 1]⟩, x1⟩, ⟨⟨2, ![10001, 1]⟩, x2⟩, ⟨⟨2, ![10001, 1]⟩, x3⟩] :
        List ((s : Shape) × (s.Idx → α)))[c]'hc = ⟨⟨2, ![10001, 1]⟩, xc⟩) :
    concatenate ⟨2, ![10001, 4]⟩ 1
        [⟨⟨2, ![10001, 1]⟩, x0⟩, ⟨⟨2, ![10001, 1]⟩, x1⟩, ⟨⟨2, ![10001, 1]⟩, x2⟩, ⟨⟨2, ![10001, 1]⟩, x3⟩] h
        (rc r (⟨c, hc⟩ : Fin 4))
      = xc (rc r (0 : Fin 1)) :=
  concatenate_apply_piece (t := ⟨2, ![10001, 4]⟩) 1
    [⟨⟨2, ![10001, 1]⟩, x0⟩, ⟨⟨2, ![10001, 1]⟩, x1⟩, ⟨⟨2, ![10001, 1]⟩, x2⟩, ⟨⟨2, ![10001, 1]⟩, x3⟩] h
    (rc r (⟨c, hc⟩ : Fin 4)) c hc ⟨2, ![10001, 1]⟩ xc hxc rfl c
    (by interval_cases c <;> rfl)
    (rc r (0 : Fin 1))
    (fun (b : Fin 2) hb => match b, hb with
      | ⟨0, _⟩, _ => rfl
      | ⟨1, _⟩, hb => absurd (Fin.ext rfl) hb)
    rfl

/-- The row a start index names: read signed, clamped into [0, 10000]. -/
def rowOf (s : BitVec 32) : Fin 10001 := ⟨min s.toInt.toNat (10001 - 1), by omega⟩

/-- A start index made from a segment index: a negative one wraps by the table length. -/
def norm (s : BitVec 32) : BitVec 32 := Scalar.select (IntOp.cmpi .slt s 0#32) (IntOp.addi s 10001#32) s

end Reads

variable {F : FTy → Type} [FloatOps F]

/-! ## The stacked row gather -/

section Kernel
open Cert.KernelIdeal Cert.KernelIdeal.Facts₀

/-- The start indices: a negative segment index wraps by the table length. -/
def normK (SID : IVec S4000000 32) : IVec S4000000 32 :=
  select (cmpi .slt SID (broadcastInDim S4000000 ![] bcast_S_S4000000 (constantI S_ 32 0#32))) (addi SID (broadcastInDim S4000000 ![] bcast_S_S4000000 (constantI S_ 32 10001#32))) SID

/-- The four tables as the columns of one [10001, 4] table. -/
def tableK (T0 T1 T2 T3 : FVec F S10001 .f32) : FVec F S10001x4 .f32 :=
  concatenate S10001x4 1 [⟨S10001x1, broadcastInDim S10001x1 ![0] bcast_S10001_S10001x1_0 T0⟩, ⟨S10001x1, broadcastInDim S10001x1 ![0] bcast_S10001_S10001x1_0 T1⟩, ⟨S10001x1, broadcastInDim S10001x1 ![0] bcast_S10001_S10001x1_0 T2⟩, ⟨S10001x1, broadcastInDim S10001x1 ![0] bcast_S10001_S10001x1_0 T3⟩] concatenates_S10001x1_S10001x1_S10001x1_S10001x1_S10001x4_d1

/-- Rows of the stacked table gathered at the start indices. -/
def rowsK (TBL : FVec F S10001x4 .f32) (SID : IVec S4000000 32) : FVec F S4000000x4 .f32 :=
  Host.gather gather_S10001x4_S4000000x1_S4000000x4_1_0_n_n_0_1_14 TBL (broadcastInDim S4000000x1 ![0] bcast_S4000000_S4000000x1_0 (normK SID))

/-- Column 0 of the gathered rows. -/
def col0 (G : FVec F S4000000x4 .f32) : FVec F S4000000x1 .f32 := extractStridedSlice S4000000x1 ![0, 0] G slices_S4000000x4_S4000000x1_0_0
/-- Column 1 of the gathered rows. -/
def col1 (G : FVec F S4000000x4 .f32) : FVec F S4000000x1 .f32 := extractStridedSlice S4000000x1 ![0, 1] G slices_S4000000x4_S4000000x1_0_1
/-- Column 2 of the gathered rows. -/
def col2 (G : FVec F S4000000x4 .f32) : FVec F S4000000x1 .f32 := extractStridedSlice S4000000x1 ![0, 2] G slices_S4000000x4_S4000000x1_0_2
/-- Column 3 of the gathered rows. -/
def col3 (G : FVec F S4000000x4 .f32) : FVec F S4000000x1 .f32 := extractStridedSlice S4000000x1 ![0, 3] G slices_S4000000x4_S4000000x1_0_3

/-- The start index of hit n. -/
theorem normK_apply (SID : IVec S4000000 32) (j : S4000000.Idx) : normK SID j = norm (SID j) := rfl

/-- The gathered rows at (n, q): the table at (row of start index n, q). -/
theorem rowsK_apply (TBL : FVec F S10001x4 .f32) (SID : IVec S4000000 32) (n : Fin 4000000) (q : Fin 4) :
    rowsK TBL SID (rc n q) = TBL (rc (rowOf (norm (SID (Shape.Idx.ofFin n)))) q) := by
  unfold rowsK
  refine (gather_rows (N := 10001) (C := 4) (n := 4000000) gather_S10001x4_S4000000x1_S4000000x4_1_0_n_n_0_1_14
    rfl rfl rfl rfl rfl TBL _ n q (by decide)).trans ?_
  exact congrArg (fun s => TBL (rc (rowOf s) q)) (column_apply bcast_S4000000_S4000000x1_0 (normK SID) n)

/-- The stacked table at (r, c) is table c at r, for whichever table the list holds at place c. -/
theorem tableK_apply (T0 T1 T2 T3 : FVec F S10001 .f32) (r : Fin 10001) (c : Nat) (hc : c < 4) (Tc : FVec F S10001 .f32)
    (hTc : ([T0, T1, T2, T3] : List (FVec F S10001 .f32))[c]'hc = Tc) :
    tableK T0 T1 T2 T3 (rc r (⟨c, hc⟩ : Fin 4)) = Tc (Shape.Idx.ofFin r) := by
  unfold tableK
  refine (stack4_apply _ _ _ _ concatenates_S10001x1_S10001x1_S10001x1_S10001x1_S10001x4_d1 r c hc
    (broadcastInDim S10001x1 ![0] bcast_S10001_S10001x1_0 Tc) ?_).trans (column_apply bcast_S10001_S10001x1_0 Tc r)
  subst hTc
  interval_cases c <;> rfl

/-- COLUMN c OF THE GATHERED ROWS at (n, 0): table c at the row of start index n. -/
theorem colK_apply (T0 T1 T2 T3 : FVec F S10001 .f32) (SID : IVec S4000000 32) (c : Nat) (hc : c < 4)
    (h : S4000000x4.Slices ![0, c] S4000000x1) (Tc : FVec F S10001 .f32)
    (hTc : ([T0, T1, T2, T3] : List (FVec F S10001 .f32))[c]'hc = Tc) (n : Fin 4000000) :
    extractStridedSlice S4000000x1 ![0, c] (rowsK (tableK T0 T1 T2 T3) SID) h (rc n (0 : Fin 1))
      = Tc (Shape.Idx.ofFin (rowOf (norm (SID (Shape.Idx.ofFin n))))) :=
  (sliceCol_apply c hc _ h n).trans
    ((rowsK_apply _ SID n _).trans (tableK_apply T0 T1 T2 T3 _ c hc Tc hTc))

end Kernel

/-! ## The single-table gather -/

section Reference
open Cert.ReferenceIdeal Cert.ReferenceIdeal.Facts₀

/-- One table gathered at the start indices, as a column. -/
def readbackR (T : FVec F S10001 .f32) (SID : IVec S4000000 32) : FVec F S4000000x1 .f32 :=
  broadcastInDim S4000000x1 ![0] bcast_S4000000_S4000000x1_0 (Host.gather gather_S10001_S4000000x1_S4000000_n_0_n_n_0_1_1 T (broadcastInDim S4000000x1 ![0] bcast_S4000000_S4000000x1_0 (select (cmpi .slt SID (broadcastInDim S4000000 ![] bcast_S_S4000000 (constantI S_ 32 0#32))) (addi SID (broadcastInDim S4000000 ![] bcast_S_S4000000 (constantI S_ 32 10001#32))) SID)))

/-- THE SINGLE-TABLE READBACK at (n, 0): the table at the row of start index n. -/
theorem readbackR_apply (T : FVec F S10001 .f32) (SID : IVec S4000000 32) (n : Fin 4000000) :
    readbackR T SID (rc n (0 : Fin 1)) = T (Shape.Idx.ofFin (rowOf (norm (SID (Shape.Idx.ofFin n))))) := by
  unfold readbackR
  refine (column_apply bcast_S4000000_S4000000x1_0 _ n).trans ?_
  refine (gather_take (N := 10001) (n := 4000000) gather_S10001_S4000000x1_S4000000_n_0_n_n_0_1_1
    rfl rfl rfl rfl T _ n (by decide)).trans ?_
  exact congrArg (fun s => T (Shape.Idx.ofFin (rowOf s))) (bcast_col1 bcast_S4000000_S4000000x1_0 _ n)

end Reference

/-! ## The two agree, column by column -/

theorem col0_eq (T0 T1 T2 T3 : FVec F Cert.KernelIdeal.S10001 .f32) (SID : IVec Cert.KernelIdeal.S4000000 32) :
    col0 (rowsK (tableK T0 T1 T2 T3) SID) = readbackR T0 SID := by
  funext i
  obtain ⟨n, rfl⟩ : ∃ n : Fin 4000000, i = rc n (0 : Fin 1) := ⟨i 0, col_idx i⟩
  exact (colK_apply T0 T1 T2 T3 SID 0 (by decide) _ T0 rfl n).trans (readbackR_apply T0 SID n).symm

theorem col1_eq (T0 T1 T2 T3 : FVec F Cert.KernelIdeal.S10001 .f32) (SID : IVec Cert.KernelIdeal.S4000000 32) :
    col1 (rowsK (tableK T0 T1 T2 T3) SID) = readbackR T1 SID := by
  funext i
  obtain ⟨n, rfl⟩ : ∃ n : Fin 4000000, i = rc n (0 : Fin 1) := ⟨i 0, col_idx i⟩
  exact (colK_apply T0 T1 T2 T3 SID 1 (by decide) _ T1 rfl n).trans (readbackR_apply T1 SID n).symm

theorem col2_eq (T0 T1 T2 T3 : FVec F Cert.KernelIdeal.S10001 .f32) (SID : IVec Cert.KernelIdeal.S4000000 32) :
    col2 (rowsK (tableK T0 T1 T2 T3) SID) = readbackR T2 SID := by
  funext i
  obtain ⟨n, rfl⟩ : ∃ n : Fin 4000000, i = rc n (0 : Fin 1) := ⟨i 0, col_idx i⟩
  exact (colK_apply T0 T1 T2 T3 SID 2 (by decide) _ T2 rfl n).trans (readbackR_apply T2 SID n).symm

theorem col3_eq (T0 T1 T2 T3 : FVec F Cert.KernelIdeal.S10001 .f32) (SID : IVec Cert.KernelIdeal.S4000000 32) :
    col3 (rowsK (tableK T0 T1 T2 T3) SID) = readbackR T3 SID := by
  funext i
  obtain ⟨n, rfl⟩ : ∃ n : Fin 4000000, i = rc n (0 : Fin 1) := ⟨i 0, col_idx i⟩
  exact (colK_apply T0 T1 T2 T3 SID 3 (by decide) _ T3 rfl n).trans (readbackR_apply T3 SID n).symm

end Cert.Readback

end
-- ==== Proof.KernelTail.lean ====
/-
  What the host lines after the region compute, at the idealized kernel's four results.

  After the region the program flattens its three results (segment indices, hit energies, track energies) to
  [4000000], sums the energies per segment (two scatter-adds into [10001] zeros), builds the two [10001] correction
  tables from the argument arrays, multiplies, stacks the four [10001] tables — track sums, corrected track sums, hit
  sums, corrected hit sums — as the columns of a [10001, 4] table, gathers its rows back at every hit's segment and
  returns the four columns. The 121 lines run in five stretches; each stretch is read on its own, from ANY buffer
  contents it may start from, at the few buffers a later stretch or a result needs (what it computes for them, and
  that it leaves every buffer it does not write as it found it). Composing the five gives each result buffer at the
  end of @main as its column of one composition (`rows`) of the region's assembled results and the argument arrays
  as launched. The three reshaped arrays the region finds are the reshapes of the arguments.
-/
import proofs.«423578_j61237643706562_3_alg».proof.Proof.IdealRegion
import proofs.«423578_j61237643706562_3_alg».proof.Proof.CorrBridge
import proofs.«423578_j61237643706562_3_alg».proof.Proof.Readback
import Idealize.ShloMosaic.Lib.StableHlo.Run

set_option maxRecDepth 16384
set_option maxHeartbeats 8000000

noncomputable section

namespace Cert.KernelIdeal.Tail

open Idealize.ShloMosaic Idealize.ShloMosaic.TcCoe Idealize.ShloMosaic.StableHlo
open Idealize.SL Idealize.SL.Sem
open Cert.KernelIdeal Cert.KernelIdeal.Facts₀ Cert.KernelIdeal.Host Cert.KernelIdeal.Region
open Cert.KernelIdeal.Gen (hostOps0 hostOps1 hostOps1_1 hostOps1_2 hostOps1_3 hostOps1_4 launch0)

variable {F : FTy → Type} [FloatOps F]

/-! ## The pieces -/

/-- Energies summed per segment: a scatter-add of the flat energies at the flat segment indices into zeros. -/
def showerK (SID : IVec S4000000 32) (E : FVec F S4000000 .f32) : FVec F S10001 .f32 :=
  Host.scatterAdd scatter_S10001_S4000000x1_S4000000_n_0_0_1 (broadcastInDim S10001 ![] bcast_S_S10001 (constant S_ .f32 0x00000000#32))
    (broadcastInDim S4000000x1 ![0] bcast_S4000000_S4000000x1_0 SID) E

/-- The (row, column) start indices of a correction gather: the position capped at 3999999, 4000000 added if
    negative, beside a column of zeros. -/
def startsK (alpha : IVec S10000 32) : IVec S10000x2 32 :=
  concatenate S10000x2 1 [⟨S10000x1, broadcastInDim S10000x1 ![0] bcast_S10000_S10000x1_0
      (select (cmpi .slt (minsi alpha (broadcastInDim S10000 ![] bcast_S_S10000 (constantI S_ 32 3999999#32))) (broadcastInDim S10000 ![] bcast_S_S10000 (constantI S_ 32 0#32)))
        (addi (minsi alpha (broadcastInDim S10000 ![] bcast_S_S10000 (constantI S_ 32 3999999#32))) (broadcastInDim S10000 ![] bcast_S_S10000 (constantI S_ 32 4000000#32))) (minsi alpha (broadcastInDim S10000 ![] bcast_S_S10000 (constantI S_ 32 3999999#32))))⟩,
    ⟨S10000x1, broadcastInDim S10000x1 ![0] bcast_S10000_S10000x1_0 (id (broadcastInDim S10000 ![] bcast_S_S10000 (constantI S_ 32 0#32)))⟩]
    concatenates_S10000x1_S10000x1_S10000x2_d1

/-- Where a correction entry is dropped: the position is the sentinel 4000000, or the hit there is noise. -/
def dropK (sid : IVec S4000000x1 32) (alpha : IVec S10000 32) : IVec S10000 1 :=
  ori (cmpi .eq alpha (broadcastInDim S10000 ![] bcast_S_S10000 (constantI S_ 32 4000000#32)))
    (cmpi .eq (Host.gather gather_S4000000x1_S10000x2_S10000_n_01_n_n_01_1_11 sid (startsK alpha)) (broadcastInDim S10000 ![] bcast_S_S10000 (constantI S_ 32 4294967295#32)))

/-- A zero in front of a [10000] table. -/
def zeroFirst (v : FVec F S10000 .f32) : FVec F S10001 .f32 :=
  concatenate S10001 0 [⟨S1, broadcastInDim S1 ![] bcast_S_S1 (constant S_ .f32 0x00000000#32)⟩, ⟨S10000, v⟩] concatenates_S1_S10000_S10001_d0

/-- The correction table, from its pieces. -/
theorem corrK_pieces (sid : IVec S4000000x1 32) (pcf : FVec F S4000000x1 .f32) (alpha : IVec S10000 32) :
    zeroFirst (select (dropK sid alpha) (broadcastInDim S10000 ![] bcast_S_S10000 (id (constant S_ .f32 0x00000000#32)))
        (Host.gather gather_S4000000x1_S10000x2_S10000_n_01_n_n_01_1_11 pcf (startsK alpha)))
      = Cert.CorrBridge.corrK sid pcf alpha := rfl

/-- The [4000000, 4] rows gathered back to the hits, from the region's three result arrays, the id and factor
    columns and the two position tables (tracks', hits'). -/
def rows (A3 : IVec S625x6400 32) (A4 A5 : FVec F S625x6400 .f32) (sid : IVec S4000000x1 32) (pcf : FVec F S4000000x1 .f32)
    (aT aH : IVec S10000 32) : FVec F S4000000x4 .f32 :=
  Cert.Readback.rowsK
    (Cert.Readback.tableK
      (showerK (shapeCast S4000000 A3 shapeCasts_S625x6400_S4000000) (shapeCast S4000000 A5 shapeCasts_S625x6400_S4000000))
      (mulf (showerK (shapeCast S4000000 A3 shapeCasts_S625x6400_S4000000) (shapeCast S4000000 A5 shapeCasts_S625x6400_S4000000))
        (Cert.CorrBridge.corrK sid pcf aT))
      (showerK (shapeCast S4000000 A3 shapeCasts_S625x6400_S4000000) (shapeCast S4000000 A4 shapeCasts_S625x6400_S4000000))
      (mulf (showerK (shapeCast S4000000 A3 shapeCasts_S625x6400_S4000000) (shapeCast S4000000 A4 shapeCasts_S625x6400_S4000000))
        (Cert.CorrBridge.corrK sid pcf aH)))
    (shapeCast S4000000 A3 shapeCasts_S625x6400_S4000000)

/-! ## Each stretch leaves what it does not write -/

theorem keep1 {r : Ref sig .tc} (hr : r ∉ written1) (Y : Valuation τ sig (Elt F)) :
    StableHlo.after hostOps1 Y (Proc.devRef .tc r) = Y (Proc.devRef .tc r) := StableHlo.after_of_writes_sub _ Y written1_covers hr
theorem keep2 {r : Ref sig .tc} (hr : r ∉ written2) (Y : Valuation τ sig (Elt F)) :
    StableHlo.after hostOps1_1 Y (Proc.devRef .tc r) = Y (Proc.devRef .tc r) := StableHlo.after_of_writes_sub _ Y written2_covers hr
theorem keep3 {r : Ref sig .tc} (hr : r ∉ written3) (Y : Valuation τ sig (Elt F)) :
    StableHlo.after hostOps1_2 Y (Proc.devRef .tc r) = Y (Proc.devRef .tc r) := StableHlo.after_of_writes_sub _ Y written3_covers hr
theorem keep4 {r : Ref sig .tc} (hr : r ∉ written4) (Y : Valuation τ sig (Elt F)) :
    StableHlo.after hostOps1_3 Y (Proc.devRef .tc r) = Y (Proc.devRef .tc r) := StableHlo.after_of_writes_sub _ Y written4_covers hr

/-! ## The first stretch: flattening, the two sums, the hits' correction gathers -/

section Stretch1
variable (Y : Valuation τ sig (Elt F))

theorem s1_seg : StableHlo.after hostOps1 Y (Proc.devRef .tc main_v4)
    = shapeCast S4000000 (Y (Proc.devRef .tc main_v3_0)) shapeCasts_S625x6400_S4000000 := by
  simp only [hostOps1]; after_results <;> (try rfl)
theorem s1_hit : StableHlo.after hostOps1 Y (Proc.devRef .tc main_v9)
    = showerK (shapeCast S4000000 (Y (Proc.devRef .tc main_v3_0)) shapeCasts_S625x6400_S4000000)
        (shapeCast S4000000 (Y (Proc.devRef .tc main_v3_1)) shapeCasts_S625x6400_S4000000) := by
  simp only [hostOps1]; after_results <;> (try rfl)
theorem s1_trk : StableHlo.after hostOps1 Y (Proc.devRef .tc main_v12)
    = showerK (shapeCast S4000000 (Y (Proc.devRef .tc main_v3_0)) shapeCasts_S625x6400_S4000000)
        (shapeCast S4000000 (Y (Proc.devRef .tc main_v3_2)) shapeCasts_S625x6400_S4000000) := by
  simp only [hostOps1]; after_results <;> (try rfl)
theorem s1_factor : StableHlo.after hostOps1 Y (Proc.devRef .tc main_v36)
    = Host.gather gather_S4000000x1_S10000x2_S10000_n_01_n_n_01_1_11 (Y (Proc.devRef .tc main_arg1)) (startsK (Y (Proc.devRef .tc main_arg6))) := by
  simp only [hostOps1]; after_results <;> (try rfl)
theorem s1_drop : StableHlo.after hostOps1 Y (Proc.devRef .tc main_v41)
    = dropK (Y (Proc.devRef .tc main_arg0)) (Y (Proc.devRef .tc main_arg6)) := by
  simp only [hostOps1]; after_results <;> (try rfl)
theorem s1_zero : StableHlo.after hostOps1 Y (Proc.devRef .tc main_cst_9) = (constant S_ .f32 0x00000000#32) := by
  simp only [hostOps1]; after_results <;> (try rfl)

end Stretch1

/-! ## The second and fourth stretches: the two selects -/

theorem s2_val (Y : Valuation τ sig (Elt F)) : StableHlo.after hostOps1_1 Y (Proc.devRef .tc main_v42)
    = select (Y (Proc.devRef .tc main_v41)) (broadcastInDim S10000 ![] bcast_S_S10000 (id (Y (Proc.devRef .tc main_cst_9))))
        (Y (Proc.devRef .tc main_v36)) := by
  simp only [hostOps1_1]; after_results <;> (try rfl)
theorem s4_val (Y : Valuation τ sig (Elt F)) : StableHlo.after hostOps1_3 Y (Proc.devRef .tc main_v74)
    = select (Y (Proc.devRef .tc main_v73)) (broadcastInDim S10000 ![] bcast_S_S10000 (id (Y (Proc.devRef .tc main_cst_20))))
        (Y (Proc.devRef .tc main_v68)) := by
  simp only [hostOps1_3]; after_results <;> (try rfl)

/-! ## The third stretch: the hits' table closed, the tracks' correction gathers -/

section Stretch3
variable (Y : Valuation τ sig (Elt F))

theorem s3_hits : StableHlo.after hostOps1_2 Y (Proc.devRef .tc main_v44) = zeroFirst (Y (Proc.devRef .tc main_v42)) := by
  simp only [hostOps1_2]; after_results <;> (try rfl)
theorem s3_factor : StableHlo.after hostOps1_2 Y (Proc.devRef .tc main_v68)
    = Host.gather gather_S4000000x1_S10000x2_S10000_n_01_n_n_01_1_11 (Y (Proc.devRef .tc main_arg1)) (startsK (Y (Proc.devRef .tc main_arg5))) := by
  simp only [hostOps1_2]; after_results <;> (try rfl)
theorem s3_drop : StableHlo.after hostOps1_2 Y (Proc.devRef .tc main_v73)
    = dropK (Y (Proc.devRef .tc main_arg0)) (Y (Proc.devRef .tc main_arg5)) := by
  simp only [hostOps1_2]; after_results <;> (try rfl)
theorem s3_zero : StableHlo.after hostOps1_2 Y (Proc.devRef .tc main_cst_20) = (constant S_ .f32 0x00000000#32) := by
  simp only [hostOps1_2]; after_results <;> (try rfl)

end Stretch3

/-! ## The last stretch: the tracks' table closed, the products, the stacked table, the rows, the columns -/

section Stretch5
variable (Y : Valuation τ sig (Elt F))

/-- The rows the last stretch gathers, from the buffers it starts from. -/
abbrev rows5 : FVec F S4000000x4 .f32 :=
  Cert.Readback.rowsK
    (Cert.Readback.tableK (Y (Proc.devRef .tc main_v12))
      (mulf (Y (Proc.devRef .tc main_v12)) (zeroFirst (Y (Proc.devRef .tc main_v74))))
      (Y (Proc.devRef .tc main_v9))
      (mulf (Y (Proc.devRef .tc main_v9)) (Y (Proc.devRef .tc main_v44))))
    (Y (Proc.devRef .tc main_v4))

theorem s5_v91 : StableHlo.after hostOps1_4 Y (Proc.devRef .tc main_v91) = Cert.Readback.col0 (rows5 Y) := by
  simp only [hostOps1_4]; after_results <;> (try rfl)
theorem s5_v92 : StableHlo.after hostOps1_4 Y (Proc.devRef .tc main_v92) = Cert.Readback.col1 (rows5 Y) := by
  simp only [hostOps1_4]; after_results <;> (try rfl)
theorem s5_v93 : StableHlo.after hostOps1_4 Y (Proc.devRef .tc main_v93) = Cert.Readback.col2 (rows5 Y) := by
  simp only [hostOps1_4]; after_results <;> (try rfl)
theorem s5_v94 : StableHlo.after hostOps1_4 Y (Proc.devRef .tc main_v94) = Cert.Readback.col3 (rows5 Y) := by
  simp only [hostOps1_4]; after_results <;> (try rfl)

end Stretch5

/-! ## The first four stretches composed, at the five buffers the last one reads -/

section Composed
variable (X : Valuation τ sig (Elt F))

/-- The buffer contents the last stretch starts from. -/
abbrev before5 : Valuation τ sig (Elt F) :=
  StableHlo.after hostOps1_3 (StableHlo.after hostOps1_2 (StableHlo.after hostOps1_1 (StableHlo.after hostOps1 X)))

theorem at5_seg : before5 X (Proc.devRef .tc main_v4)
    = shapeCast S4000000 (X (Proc.devRef .tc main_v3_0)) shapeCasts_S625x6400_S4000000 := by
  simp only [before5]
  rw [keep4 (by decide), keep3 (by decide), keep2 (by decide), s1_seg]
theorem at5_hit : before5 X (Proc.devRef .tc main_v9)
    = showerK (shapeCast S4000000 (X (Proc.devRef .tc main_v3_0)) shapeCasts_S625x6400_S4000000)
        (shapeCast S4000000 (X (Proc.devRef .tc main_v3_1)) shapeCasts_S625x6400_S4000000) := by
  simp only [before5]
  rw [keep4 (by decide), keep3 (by decide), keep2 (by decide), s1_hit]
theorem at5_trk : before5 X (Proc.devRef .tc main_v12)
    = showerK (shapeCast S4000000 (X (Proc.devRef .tc main_v3_0)) shapeCasts_S625x6400_S4000000)
        (shapeCast S4000000 (X (Proc.devRef .tc main_v3_2)) shapeCasts_S625x6400_S4000000) := by
  simp only [before5]
  rw [keep4 (by decide), keep3 (by decide), keep2 (by decide), s1_trk]
/-- The hits' correction table. -/
theorem at5_hits : before5 X (Proc.devRef .tc main_v44)
    = Cert.CorrBridge.corrK (X (Proc.devRef .tc main_arg0)) (X (Proc.devRef .tc main_arg1)) (X (Proc.devRef .tc main_arg6)) := by
  simp only [before5]
  rw [keep4 (by decide), s3_hits, s2_val, s1_drop, s1_zero, s1_factor]
  exact corrK_pieces _ _ _
/-- The tracks' correction entries (the zero in front is put by the last stretch). -/
theorem at5_tracks : zeroFirst (before5 X (Proc.devRef .tc main_v74))
    = Cert.CorrBridge.corrK (X (Proc.devRef .tc main_arg0)) (X (Proc.devRef .tc main_arg1)) (X (Proc.devRef .tc main_arg5)) := by
  simp only [before5]
  rw [s4_val, s3_drop, s3_zero, s3_factor, keep2 (r := main_arg0) (by decide), keep2 (r := main_arg1) (by decide), keep2 (r := main_arg5) (by decide),
    keep1 (r := main_arg0) (by decide), keep1 (r := main_arg1) (by decide), keep1 (r := main_arg5) (by decide)]
  exact corrK_pieces _ _ _

/-- The rows the last stretch gathers, over the contents the first stretch starts from. -/
theorem rows5_eq : rows5 (before5 X)
    = rows (X (Proc.devRef .tc main_v3_0)) (X (Proc.devRef .tc main_v3_1)) (X (Proc.devRef .tc main_v3_2))
        (X (Proc.devRef .tc main_arg0)) (X (Proc.devRef .tc main_arg1)) (X (Proc.devRef .tc main_arg5)) (X (Proc.devRef .tc main_arg6)) := by
  unfold rows5 rows
  rw [at5_tracks, at5_hits, at5_trk, at5_hit, at5_seg]

/-- The five stretches in a row are the last after the first four. -/
theorem later_split : StableHlo.after (later (F := F)).flatten X = StableHlo.after hostOps1_4 (before5 X) := by
  simp only [later, List.flatten_cons, List.flatten_nil, List.append_nil]
  rw [StableHlo.after_append, StableHlo.after_append, StableHlo.after_append, StableHlo.after_append]

end Composed

/-! ## The arrays the region finds -/

variable (m : (ℓ : Loc nD τ sig) → Buf (Elt F) ℓ)

theorem found_ids (c : Dev nD) :
    V m c main_v0 = shapeCast S625x6400 (m ((c : Thread nD τ).loc main_arg0)) shapeCasts_S4000000x1_S625x6400 := by
  show StableHlo.after (List.flatten [hostOps0]) (fun b => m (c, b)) (Proc.devRef .tc main_v0) = _
  simp only [hostOps0, List.flatten_cons, List.flatten_nil, List.append_nil]
  after_results <;> (try rfl)
theorem found_energies (c : Dev nD) :
    V m c main_v1 = shapeCast S625x6400 (m ((c : Thread nD τ).loc main_arg2)) shapeCasts_S4000000x1_S625x6400 := by
  show StableHlo.after (List.flatten [hostOps0]) (fun b => m (c, b)) (Proc.devRef .tc main_v1) = _
  simp only [hostOps0, List.flatten_cons, List.flatten_nil, List.append_nil]
  after_results <;> (try rfl)
theorem found_flags (c : Dev nD) :
    V m c main_v2 = shapeCast S625x6400 (m ((c : Thread nD τ).loc main_arg3)) shapeCasts_S4000000x1_S625x6400 := by
  show StableHlo.after (List.flatten [hostOps0]) (fun b => m (c, b)) (Proc.devRef .tc main_v2) = _
  simp only [hostOps0, List.flatten_cons, List.flatten_nil, List.append_nil]
  after_results <;> (try rfl)

/-! ## The region's exit contents, read where the later lines read them -/

/-- The buffer contents the later lines start from: the region's arrays at what the points left, the rest as found. -/
abbrev exitV (c : Dev nD) : Valuation τ sig (Elt F) :=
  Pipeline.withArrays (cfgs 0).spec c (V0 m c) fun w => (dats m 0 c).arrAt w (cfgs 0).N

theorem exit_seg (c : Dev nD) : exitV m c (Proc.devRef .tc main_v3_0) = (dats m 0 c).arrAt 3 cfg0.N :=
  Pipeline.withArrays_arr spec0 launch0.win.arr_inj c _ _ 3
theorem exit_hit (c : Dev nD) : exitV m c (Proc.devRef .tc main_v3_1) = (dats m 0 c).arrAt 4 cfg0.N :=
  Pipeline.withArrays_arr spec0 launch0.win.arr_inj c _ _ 4
theorem exit_trk (c : Dev nD) : exitV m c (Proc.devRef .tc main_v3_2) = (dats m 0 c).arrAt 5 cfg0.N :=
  Pipeline.withArrays_arr spec0 launch0.win.arr_inj c _ _ 5
theorem exit_arg0 (c : Dev nD) : exitV m c (Proc.devRef .tc main_arg0) = m ((c : Thread nD τ).loc main_arg0) :=
  (Pipeline.withArrays_of_ne _ c (V0 m c) _ main_arg0 (by decide)).trans (V_arg0 m c)
theorem exit_arg1 (c : Dev nD) : exitV m c (Proc.devRef .tc main_arg1) = m ((c : Thread nD τ).loc main_arg1) :=
  (Pipeline.withArrays_of_ne _ c (V0 m c) _ main_arg1 (by decide)).trans (V_arg1 m c)
theorem exit_arg5 (c : Dev nD) : exitV m c (Proc.devRef .tc main_arg5) = m ((c : Thread nD τ).loc main_arg5) :=
  (Pipeline.withArrays_of_ne _ c (V0 m c) _ main_arg5 (by decide)).trans (V_arg5 m c)
theorem exit_arg6 (c : Dev nD) : exitV m c (Proc.devRef .tc main_arg6) = m ((c : Thread nD τ).loc main_arg6) :=
  (Pipeline.withArrays_of_ne _ c (V0 m c) _ main_arg6 (by decide)).trans (V_arg6 m c)

/-! ## The four results -/

/-- The gathered rows over the region's assembled results and the arguments as launched. -/
abbrev rowsAt (c : Dev nD) : FVec F S4000000x4 .f32 :=
  rows ((dats m 0 c).arrAt 3 cfg0.N) ((dats m 0 c).arrAt 4 cfg0.N) ((dats m 0 c).arrAt 5 cfg0.N)
    (m ((c : Thread nD τ).loc main_arg0)) (m ((c : Thread nD τ).loc main_arg1))
    (m ((c : Thread nD τ).loc main_arg5)) (m ((c : Thread nD τ).loc main_arg6))

theorem rows_exit (c : Dev nD) : rows5 (before5 (exitV m c)) = rowsAt m c := by
  rw [rows5_eq, exit_seg, exit_hit, exit_trk, exit_arg0, exit_arg1, exit_arg5, exit_arg6]

theorem end_v91 (c : Dev nD) :
    Pipeline.afterTail₀ cfgs (dats m) 0 (V0 m) later c main_v91 = Cert.Readback.col0 (rowsAt m c) := by
  show StableHlo.after (later (F := F)).flatten (exitV m c) (Proc.devRef .tc main_v91) = _
  rw [later_split, s5_v91, rows_exit]
theorem end_v92 (c : Dev nD) :
    Pipeline.afterTail₀ cfgs (dats m) 0 (V0 m) later c main_v92 = Cert.Readback.col1 (rowsAt m c) := by
  show StableHlo.after (later (F := F)).flatten (exitV m c) (Proc.devRef .tc main_v92) = _
  rw [later_split, s5_v92, rows_exit]
theorem end_v93 (c : Dev nD) :
    Pipeline.afterTail₀ cfgs (dats m) 0 (V0 m) later c main_v93 = Cert.Readback.col2 (rowsAt m c) := by
  show StableHlo.after (later (F := F)).flatten (exitV m c) (Proc.devRef .tc main_v93) = _
  rw [later_split, s5_v93, rows_exit]
theorem end_v94 (c : Dev nD) :
    Pipeline.afterTail₀ cfgs (dats m) 0 (V0 m) later c main_v94 = Cert.Readback.col3 (rowsAt m c) := by
  show StableHlo.after (later (F := F)).flatten (exitV m c) (Proc.devRef .tc main_v94) = _
  rw [later_split, s5_v94, rows_exit]

end Cert.KernelIdeal.Tail

end
-- ==== Proof.RefSpec.lean ====
/-
  The four results, in the reference's own form.

  With N = 4000000 hits and 10001 segments (segment 0 for noise): the flat segment index of hit n is its id plus one;
  the hit (track) energy of hit n is its energy unless it is noise or its flag is not 0 (not 1); the per-segment sums
  are scatter-adds of those into zeros; the two correction tables come from the factor column and the two position
  tables; and each result column gathers, for every hit, one of the four tables — track sums, corrected track sums,
  hit sums, corrected hit sums — at the hit's segment. These are the terms the reference program's run ends at, named
  here so that both programs' runs can be stated over the same four functions of the argument arrays.
-/
import proofs.«423578_j61237643706562_3_alg».proof.Proof.Gen.ReferenceIdeal
import proofs.«423578_j61237643706562_3_alg».proof.Proof.CorrBridge
import proofs.«423578_j61237643706562_3_alg».proof.Proof.Readback

set_option maxRecDepth 16384

noncomputable section

namespace Cert.RefSpec

open Idealize.ShloMosaic Idealize.ShloMosaic.TcCoe
open Idealize.SL Idealize.SL.Sem
open Cert.ReferenceIdeal Cert.ReferenceIdeal.Facts₀

variable {F : FTy → Type} [FloatOps F]

/-- The flat segment indices: ids plus one. -/
def segOf (sid : IVec S4000000x1 32) : IVec S4000000 32 :=
  addi (shapeCast _ sid shapeCasts_S4000000x1_S4000000) (broadcastInDim S4000000 ![] bcast_S_S4000000 (constantI S_ 32 1#32))

/-- The flat energies of the hits whose flag is `flag`, noise zeroed. -/
def energyOf (flag : BitVec 32) (sid : IVec S4000000x1 32) (e : FVec F S4000000x1 .f32) (rhid : IVec S4000000x1 32) : FVec F S4000000 .f32 :=
  shapeCast _ (select (cmpi .eq rhid (broadcastInDim S4000000x1 ![] bcast_S_S4000000x1 (constantI S_ 32 flag)))
    (select (cmpi .eq sid (broadcastInDim S4000000x1 ![] bcast_S_S4000000x1 (constantI S_ 32 4294967295#32)))
      (broadcastInDim S4000000x1 ![] bcast_S_S4000000x1 (id (constant S_ .f32 0x00000000#32))) e)
    (broadcastInDim S4000000x1 ![] bcast_S_S4000000x1 (id (constant S_ .f32 0x00000000#32)))) shapeCasts_S4000000x1_S4000000

/-- Energies summed per segment. -/
def showerR (SID : IVec S4000000 32) (E : FVec F S4000000 .f32) : FVec F S10001 .f32 :=
  Host.scatterAdd scatter_S10001_S4000000x1_S4000000_n_0_0_1 (broadcastInDim S10001 ![] bcast_S_S10001 (constant S_ .f32 0x00000000#32))
    (broadcastInDim S4000000x1 ![0] bcast_S4000000_S4000000x1_0 SID) E

variable (sid : IVec S4000000x1 32) (pcf e : FVec F S4000000x1 .f32) (rhid : IVec S4000000x1 32) (aT aH : IVec S10000 32)

/-- Track sums gathered back to the hits. -/
def trackRaw : FVec F S4000000x1 .f32 :=
  Cert.Readback.readbackR (showerR (segOf sid) (energyOf 1#32 sid e rhid)) (segOf sid)
/-- Corrected track sums gathered back. -/
def trackCorrected : FVec F S4000000x1 .f32 :=
  Cert.Readback.readbackR (mulf (showerR (segOf sid) (energyOf 1#32 sid e rhid)) (Cert.CorrBridge.corrR sid pcf aT)) (segOf sid)
/-- Hit sums gathered back. -/
def hitRaw : FVec F S4000000x1 .f32 :=
  Cert.Readback.readbackR (showerR (segOf sid) (energyOf 0#32 sid e rhid)) (segOf sid)
/-- Corrected hit sums gathered back. -/
def hitCorrected : FVec F S4000000x1 .f32 :=
  Cert.Readback.readbackR (mulf (showerR (segOf sid) (energyOf 0#32 sid e rhid)) (Cert.CorrBridge.corrR sid pcf aH)) (segOf sid)

end Cert.RefSpec

end
-- ==== Proof.MaskSpec.lean ====
/-
  The masking stage as whole-array functions.

  Over the hits laid out as a [625, 6400] grid: the segment of a hit is its id plus one (noise, id -1, goes to
  segment 0); its energy is kept unless the id is -1; the hit energy is the kept energy where the flag is 0 and zero
  elsewhere, the track energy the same where the flag is 1. Each is one pointwise function of the id, energy and flag
  arrays, stated once here for every tile and every layout to be compared with.
-/
import Idealize.ShloMosaic.PureOps

noncomputable section

namespace Cert.MaskSpec

open Idealize.ShloMosaic

/-- The hits as a grid of 625 rows of 6400. -/
abbrev Grid : Shape := ⟨2, ![625, 6400]⟩

variable {F : FTy → Type} [FloatOps F]

/-- Segment index: id plus one. -/
def segG (s : IVec Grid 32) : IVec Grid 32 := addi s (broadcast Grid 1#32)

/-- The energy with noise hits (id -1) zeroed. -/
def keptG (s : IVec Grid 32) (e : FVec F Grid .f32) : FVec F Grid .f32 :=
  select (cmpi .eq s (broadcast Grid 4294967295#32)) (broadcast Grid (Scalar.ofBits .f32 0x00000000#32 : F .f32)) e

/-- The kept energy of the hits proper (flag 0), zero elsewhere. -/
def hitG (s : IVec Grid 32) (e : FVec F Grid .f32) (r : IVec Grid 32) : FVec F Grid .f32 :=
  select (cmpi .eq r (broadcast Grid 0#32)) (keptG s e) (broadcast Grid (Scalar.ofBits .f32 0x00000000#32 : F .f32))

/-- The kept energy of the tracks (flag 1), zero elsewhere. -/
def trkG (s : IVec Grid 32) (e : FVec F Grid .f32) (r : IVec Grid 32) : FVec F Grid .f32 :=
  select (cmpi .eq r (broadcast Grid 1#32)) (keptG s e) (broadcast Grid (Scalar.ofBits .f32 0x00000000#32 : F .f32))

end Cert.MaskSpec

end
-- ==== Proof.IdealArrays.lean ====
/-
  From blocks to the array: the three result arrays of the masking region as whole-array functions.

  The grid's five points cut each [625, 6400] array into five column tiles [625, 1280]: the block of every window at
  point t is all 625 rows and the columns 1280·t … 1280·t + 1279. At a point the body leaves in each result tile one
  whole-tile store read back, and the stored value is a pointwise function of the three input tiles: the id plus one;
  the energy where the id is not -1 and the flag is 0, else zero; the same where the flag is 1. An element of a tile
  is the element of the array in the same row and in column 1280·t plus its own column, for the inputs and the results
  alike, so what point t writes back is block t of that pointwise function applied to the whole input arrays. The five
  blocks tile the array — column q lies in the block of point q / 1280 — so the assembled array is that function of
  the input arrays.
-/
import proofs.«423578_j61237643706562_3_alg».proof.Proof.IdealRegion
import proofs.«423578_j61237643706562_3_alg».proof.Proof.MaskSpec
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Host Cert.KernelIdeal.Region

variable {F : FTy → Type} [FloatOps F]
variable (m : (ℓ : Loc nD τ sig) → Buf (Elt F) ℓ)

/-! ## The index maps, decided over the five points -/

/-- The zero offsets of a whole-tile load or store, spelt as a constant function. -/
theorem hz : (![0, 0] : Fin 2 → Nat) = fun _ => 0 := funext fun a => by fin_cases a <;> rfl

/-- At point `t` every window's block is block (0, t): all the rows, the `t`-th run of 1280 columns. -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val) :=
  (by decide +kernel : ∀ t : Fin grid0.N, _)

/-- The point whose block holds an index of the array: its column divided by the tile's width. -/
def pointOf (i : S625x6400.Idx) : Fin cfg0.N :=
  ⟨(i 1).val / 1280, by have h : (i 1).val < 6400 := (i 1).isLt; show _ < grid0.N; rw [N_0]; omega⟩

theorem pointOf_val (i : S625x6400.Idx) : (pointOf i).val = (i 1).val / 1280 := rfl

/-! ## The stored values, element by element -/

/-- The energy of one hit with noise (id -1) zeroed. -/
def keptAt (s : BitVec 32) (e : F .f32) : F .f32 :=
  Scalar.select (IntOp.cmpi .eq s 4294967295#32) (Scalar.ofBits .f32 0x00000000#32 : F .f32) e

/-- A value kept where the flag is `k`, zero elsewhere. -/
def gateAt (k r : BitVec 32) (v : F .f32) : F .f32 :=
  Scalar.select (IntOp.cmpi .eq r k) v (Scalar.ofBits .f32 0x00000000#32 : F .f32)

/-- The segment tile is the ids' tile plus one, -/
theorem seg_at (x0 : Vec F S625x1280 .i32) (y : S625x1280.Idx) : k0_pay2 x0 y = IntOp.addi (x0 y) 1#32 := by
  unfold k0_pay2 k0_pay1
  rw [shapeCast_self]
  rfl

/-- the hit tile the kept energy where the flag is 0, -/
theorem hit_at (x0 : Vec F S625x1280 .i32) (x1 : Vec F S625x1280 .f32) (x2 : Vec F S625x1280 .i32) (y : S625x1280.Idx) :
    k0_pay5 x0 x1 x2 y = gateAt 0#32 (x2 y) (keptAt (x0 y) (x1 y)) := by
  unfold k0_pay5 k0_pay4 k0_pay3 k0_pay1
  simp only [shapeCast_self]
  rfl

/-- the track tile the kept energy where the flag is 1. -/
theorem trk_at (x0 : Vec F S625x1280 .i32) (x1 : Vec F S625x1280 .f32) (x2 : Vec F S625x1280 .i32) (y : S625x1280.Idx) :
    k0_pay6 x0 x1 x2 y = gateAt 1#32 (x2 y) (keptAt (x0 y) (x1 y)) := by
  unfold k0_pay6 k0_pay4 k0_pay3 k0_pay1
  simp only [shapeCast_self]
  rfl

/-- The same three functions read off the whole arrays. -/
theorem segG_at (A0 : S625x6400.Idx → BitVec 32) (i : S625x6400.Idx) : Cert.MaskSpec.segG A0 i = IntOp.addi (A0 i) 1#32 := rfl
theorem hitG_at (A0 : S625x6400.Idx → BitVec 32) (A1 : S625x6400.Idx → F .f32) (A2 : S625x6400.Idx → BitVec 32) (i : S625x6400.Idx) :
    Cert.MaskSpec.hitG A0 A1 A2 i = gateAt 0#32 (A2 i) (keptAt (A0 i) (A1 i)) := rfl
theorem trkG_at (A0 : S625x6400.Idx → BitVec 32) (A1 : S625x6400.Idx → F .f32) (A2 : S625x6400.Idx → BitVec 32) (i : S625x6400.Idx) :
    Cert.MaskSpec.trkG A0 A1 A2 i = gateAt 1#32 (A2 i) (keptAt (A0 i) (A1 i)) := rfl

/-! ## Window 3: the segment ids -/

/-- Over any ids' array: the segment tile computed from block `t` of it, as point `t` writes it back, is block `t` of the
    array plus one. An element of either block sits in its array in the same row and in column 1280·t plus its own. -/
theorem seg_block (t : Fin cfg0.N) (A0 : S625x6400.Idx → BitVec 32) :
    (cfg0.win 3).cut (grid0.coords t) (tileSeg (F := F) (((cfg0.win 0).blk t).view.read (Elt F) A0))
      = ((cfg0.win 3).blk t).view.read (Elt F) (Cert.MaskSpec.segG A0) := by
  unfold tileSeg
  rw [View.canon_unit_zero hz]
  simp only [View.ld_unit_zero (S := S625x1280) hz]
  obtain ⟨⟨a0, b0⟩, -, -, ⟨a3, b3⟩, -, -⟩ := idx_facts t
  funext j
  refine (seg_at (F := F) (((cfg0.win 0).blk t).view.read (Elt F) A0) _).trans ?_
  show IntOp.addi (A0 (((cfg0.win 0).blk t).view.emb j)) 1#32 = IntOp.addi (A0 (((cfg0.win 3).blk t).view.emb j)) 1#32
  have h0 : ((cfg0.win 0).blk t).view.emb j = ((cfg0.win 3).blk t).view.emb j := by
    funext a; apply Fin.ext
    match a with
    | ⟨0, _⟩ => show win0_0.index t (0 : Fin 2) * 625 + 1 * (j 0).val = win0_3.index t (0 : Fin 2) * 625 + 1 * (j 0).val; omega
    | ⟨1, _⟩ => show win0_0.index t (1 : Fin 2) * 1280 + 1 * (j 1).val = win0_3.index t (1 : Fin 2) * 1280 + 1 * (j 1).val; omega
  rw [h0]

/-- What point `t` writes back to the segment array is block `t` of the ids' array plus one. -/
theorem seg_flushed (c : Dev nD) (t : Fin cfg0.N) :
    (dats m 0 c).flushed 3 t = ((cfg0.win 3).blk t).view.read (Elt F) (Cert.MaskSpec.segG (V m c main_v0)) := by
  show (cfg0.win 3).cut (grid0.coords t) ((dats m 0 c).after 3 t) = _
  rw [left3]
  exact seg_block t (V m c main_v0)

/-- An index of the segment array is in point `t`'s block iff each coordinate is in the block's range on its axis. -/
theorem mem_blk3 (t : Fin cfg0.N) (i : S625x6400.Idx) :
    i ∈ ((cfg0.win 3).blk t).view.set ↔ ∀ a : Fin 2, win0_3.index t a * S625x1280.size a ≤ (i a).val ∧ (i a).val < win0_3.index t a * S625x1280.size a + S625x1280.size a := by
  show i ∈ ((View.whole main_v3_0).slice (win0_3.rect t)).set ↔ _
  rw [View.set_slice_whole, Rect.mem_set_unit]
  exact Iff.rfl

/-- The five blocks tile the segment array: an index is in the block of its column's point. -/
theorem cover3 (i : S625x6400.Idx) : ∃ t : Fin cfg0.N, (cfg0.win 3).flush t = true ∧ i ∈ ((cfg0.win 3).blk t).view.set := by
  have hi0 : (i 0).val < 625 := (i 0).isLt
  have hi1 : (i 1).val < 6400 := (i 1).isLt
  have ht := pointOf_val i
  obtain ⟨-, -, -, ⟨a3, b3⟩, -, -⟩ := idx_facts (pointOf i)
  refine ⟨pointOf i, flush0_3 _, ?_⟩
  rw [mem_blk3]
  intro a
  match a with
  | ⟨0, _⟩ => show win0_3.index (pointOf i) (0 : Fin 2) * 625 ≤ (i 0).val ∧ (i 0).val < win0_3.index (pointOf i) (0 : Fin 2) * 625 + 625; omega
  | ⟨1, _⟩ => show win0_3.index (pointOf i) (1 : Fin 2) * 1280 ≤ (i 1).val ∧ (i 1).val < win0_3.index (pointOf i) (1 : Fin 2) * 1280 + 1280; omega

/-- The segment array after the region: the ids' array plus one. -/
theorem seg_array (c : Dev nD) : (dats m 0 c).arrAt 3 cfg0.N = Cert.MaskSpec.segG (V m c main_v0) :=
  (dats m 0 c).arrAt_eq_of_cover 3 (Cert.MaskSpec.segG (V m c main_v0)) (fun t _ => seg_flushed m c t) cover3

/-! ## Window 4: the hit energies -/

/-- Over any three input arrays: the hit tile computed from their blocks `t`, as point `t` writes it back, is block `t` of
    the hit energies of the arrays. All four blocks sit at the same rows and columns of their arrays. -/
theorem hit_block (t : Fin cfg0.N) (A0 : S625x6400.Idx → BitVec 32) (A1 : S625x6400.Idx → F .f32) (A2 : S625x6400.Idx → BitVec 32) :
    (cfg0.win 4).cut (grid0.coords t) (tileHit (F := F) (((cfg0.win 0).blk t).view.read (Elt F) A0)
        (((cfg0.win 1).blk t).view.read (Elt F) A1) (((cfg0.win 2).blk t).view.read (Elt F) A2))
      = ((cfg0.win 4).blk t).view.read (Elt F) (Cert.MaskSpec.hitG A0 A1 A2) := by
  unfold tileHit
  rw [View.canon_unit_zero hz]
  simp only [View.ld_unit_zero (S := S625x1280) hz]
  obtain ⟨⟨a0, b0⟩, ⟨a1, b1⟩, ⟨a2, b2⟩, -, ⟨a4, b4⟩, -⟩ := idx_facts t
  funext j
  refine (hit_at (F := F) (((cfg0.win 0).blk t).view.read (Elt F) A0) (((cfg0.win 1).blk t).view.read (Elt F) A1)
    (((cfg0.win 2).blk t).view.read (Elt F) A2) _).trans ?_
  show gateAt 0#32 (A2 (((cfg0.win 2).blk t).view.emb j)) (keptAt (A0 (((cfg0.win 0).blk t).view.emb j)) (A1 (((cfg0.win 1).blk t).view.emb j)))
    = gateAt 0#32 (A2 (((cfg0.win 4).blk t).view.emb j)) (keptAt (A0 (((cfg0.win 4).blk t).view.emb j)) (A1 (((cfg0.win 4).blk t).view.emb j)))
  have h0 : ((cfg0.win 0).blk t).view.emb j = ((cfg0.win 4).blk t).view.emb j := by
    funext a; apply Fin.ext
    match a with
    | ⟨0, _⟩ => show win0_0.index t (0 : Fin 2) * 625 + 1 * (j 0).val = win0_4.index t (0 : Fin 2) * 625 + 1 * (j 0).val; omega
    | ⟨1, _⟩ => show win0_0.index t (1 : Fin 2) * 1280 + 1 * (j 1).val = win0_4.index t (1 : Fin 2) * 1280 + 1 * (j 1).val; omega
  have h1 : ((cfg0.win 1).blk t).view.emb j = ((cfg0.win 4).blk t).view.emb j := by
    funext a; apply Fin.ext
    match a with
    | ⟨0, _⟩ => show win0_1.index t (0 : Fin 2) * 625 + 1 * (j 0).val = win0_4.index t (0 : Fin 2) * 625 + 1 * (j 0).val; omega
    | ⟨1, _⟩ => show win0_1.index t (1 : Fin 2) * 1280 + 1 * (j 1).val = win0_4.index t (1 : Fin 2) * 1280 + 1 * (j 1).val; omega
  have h2 : ((cfg0.win 2).blk t).view.emb j = ((cfg0.win 4).blk t).view.emb j := by
    funext a; apply Fin.ext
    match a with
    | ⟨0, _⟩ => show win0_2.index t (0 : Fin 2) * 625 + 1 * (j 0).val = win0_4.index t (0 : Fin 2) * 625 + 1 * (j 0).val; omega
    | ⟨1, _⟩ => show win0_2.index t (1 : Fin 2) * 1280 + 1 * (j 1).val = win0_4.index t (1 : Fin 2) * 1280 + 1 * (j 1).val; omega
  rw [h0, h1, h2]

/-- What point `t` writes back to the hit array is block `t` of the hit energies of the three input arrays. -/
theorem hit_flushed (c : Dev nD) (t : Fin cfg0.N) :
    (dats m 0 c).flushed 4 t
      = ((cfg0.win 4).blk t).view.read (Elt F) (Cert.MaskSpec.hitG (V m c main_v0) (V m c main_v1) (V m c main_v2)) := by
  show (cfg0.win 4).cut (grid0.coords t) ((dats m 0 c).after 4 t) = _
  rw [left4]
  exact hit_block t (V m c main_v0) (V m c main_v1) (V m c main_v2)

/-- An index of the hit array is in point `t`'s block iff each coordinate is in the block's range on its axis. -/
theorem mem_blk4 (t : Fin cfg0.N) (i : S625x6400.Idx) :
    i ∈ ((cfg0.win 4).blk t).view.set ↔ ∀ a : Fin 2, win0_4.index t a * S625x1280.size a ≤ (i a).val ∧ (i a).val < win0_4.index t a * S625x1280.size a + S625x1280.size a := by
  show i ∈ ((View.whole main_v3_1).slice (win0_4.rect t)).set ↔ _
  rw [View.set_slice_whole, Rect.mem_set_unit]
  exact Iff.rfl

/-- The five blocks tile the hit array. -/
theorem cover4 (i : S625x6400.Idx) : ∃ t : Fin cfg0.N, (cfg0.win 4).flush t = true ∧ i ∈ ((cfg0.win 4).blk t).view.set := by
  have hi0 : (i 0).val < 625 := (i 0).isLt
  have hi1 : (i 1).val < 6400 := (i 1).isLt
  have ht := pointOf_val i
  obtain ⟨-, -, -, -, ⟨a4, b4⟩, -⟩ := idx_facts (pointOf i)
  refine ⟨pointOf i, flush0_4 _, ?_⟩
  rw [mem_blk4]
  intro a
  match a with
  | ⟨0, _⟩ => show win0_4.index (pointOf i) (0 : Fin 2) * 625 ≤ (i 0).val ∧ (i 0).val < win0_4.index (pointOf i) (0 : Fin 2) * 625 + 625; omega
  | ⟨1, _⟩ => show win0_4.index (pointOf i) (1 : Fin 2) * 1280 ≤ (i 1).val ∧ (i 1).val < win0_4.index (pointOf i) (1 : Fin 2) * 1280 + 1280; omega

/-- The hit array after the region: the hit energies of the three input arrays. -/
theorem hit_array (c : Dev nD) :
    (dats m 0 c).arrAt 4 cfg0.N = Cert.MaskSpec.hitG (V m c main_v0) (V m c main_v1) (V m c main_v2) :=
  (dats m 0 c).arrAt_eq_of_cover 4 (Cert.MaskSpec.hitG (V m c main_v0) (V m c main_v1) (V m c main_v2))
    (fun t _ => hit_flushed m c t) cover4

/-! ## Window 5: the track energies -/

/-- Over any three input arrays: the track tile computed from their blocks `t`, as point `t` writes it back, is block `t`
    of the track energies of the arrays. -/
theorem trk_block (t : Fin cfg0.N) (A0 : S625x6400.Idx → BitVec 32) (A1 : S625x6400.Idx → F .f32) (A2 : S625x6400.Idx → BitVec 32) :
    (cfg0.win 5).cut (grid0.coords t) (tileTrk (F := F) (((cfg0.win 0).blk t).view.read (Elt F) A0)
        (((cfg0.win 1).blk t).view.read (Elt F) A1) (((cfg0.win 2).blk t).view.read (Elt F) A2))
      = ((cfg0.win 5).blk t).view.read (Elt F) (Cert.MaskSpec.trkG A0 A1 A2) := by
  unfold tileTrk
  rw [View.canon_unit_zero hz]
  simp only [View.ld_unit_zero (S := S625x1280) hz]
  obtain ⟨⟨a0, b0⟩, ⟨a1, b1⟩, ⟨a2, b2⟩, -, -, ⟨a5, b5⟩⟩ := idx_facts t
  funext j
  refine (trk_at (F := F) (((cfg0.win 0).blk t).view.read (Elt F) A0) (((cfg0.win 1).blk t).view.read (Elt F) A1)
    (((cfg0.win 2).blk t).view.read (Elt F) A2) _).trans ?_
  show gateAt 1#32 (A2 (((cfg0.win 2).blk t).view.emb j)) (keptAt (A0 (((cfg0.win 0).blk t).view.emb j)) (A1 (((cfg0.win 1).blk t).view.emb j)))
    = gateAt 1#32 (A2 (((cfg0.win 5).blk t).view.emb j)) (keptAt (A0 (((cfg0.win 5).blk t).view.emb j)) (A1 (((cfg0.win 5).blk t).view.emb j)))
  have h0 : ((cfg0.win 0).blk t).view.emb j = ((cfg0.win 5).blk t).view.emb j := by
    funext a; apply Fin.ext
    match a with
    | ⟨0, _⟩ => show win0_0.index t (0 : Fin 2) * 625 + 1 * (j 0).val = win0_5.index t (0 : Fin 2) * 625 + 1 * (j 0).val; omega
    | ⟨1, _⟩ => show win0_0.index t (1 : Fin 2) * 1280 + 1 * (j 1).val = win0_5.index t (1 : Fin 2) * 1280 + 1 * (j 1).val; omega
  have h1 : ((cfg0.win 1).blk t).view.emb j = ((cfg0.win 5).blk t).view.emb j := by
    funext a; apply Fin.ext
    match a with
    | ⟨0, _⟩ => show win0_1.index t (0 : Fin 2) * 625 + 1 * (j 0).val = win0_5.index t (0 : Fin 2) * 625 + 1 * (j 0).val; omega
    | ⟨1, _⟩ => show win0_1.index t (1 : Fin 2) * 1280 + 1 * (j 1).val = win0_5.index t (1 : Fin 2) * 1280 + 1 * (j 1).val; omega
  have h2 : ((cfg0.win 2).blk t).view.emb j = ((cfg0.win 5).blk t).view.emb j := by
    funext a; apply Fin.ext
    match a with
    | ⟨0, _⟩ => show win0_2.index t (0 : Fin 2) * 625 + 1 * (j 0).val = win0_5.index t (0 : Fin 2) * 625 + 1 * (j 0).val; omega
    | ⟨1, _⟩ => show win0_2.index t (1 : Fin 2) * 1280 + 1 * (j 1).val = win0_5.index t (1 : Fin 2) * 1280 + 1 * (j 1).val; omega
  rw [h0, h1, h2]

/-- What point `t` writes back to the track array is block `t` of the track energies of the three input arrays. -/
theorem trk_flushed (c : Dev nD) (t : Fin cfg0.N) :
    (dats m 0 c).flushed 5 t
      = ((cfg0.win 5).blk t).view.read (Elt F) (Cert.MaskSpec.trkG (V m c main_v0) (V m c main_v1) (V m c main_v2)) := by
  show (cfg0.win 5).cut (grid0.coords t) ((dats m 0 c).after 5 t) = _
  rw [left5]
  exact trk_block t (V m c main_v0) (V m c main_v1) (V m c main_v2)

/-- An index of the track array is in point `t`'s block iff each coordinate is in the block's range on its axis. -/
theorem mem_blk5 (t : Fin cfg0.N) (i : S625x6400.Idx) :
    i ∈ ((cfg0.win 5).blk t).view.set ↔ ∀ a : Fin 2, win0_5.index t a * S625x1280.size a ≤ (i a).val ∧ (i a).val < win0_5.index t a * S625x1280.size a + S625x1280.size a := by
  show i ∈ ((View.whole main_v3_2).slice (win0_5.rect t)).set ↔ _
  rw [View.set_slice_whole, Rect.mem_set_unit]
  exact Iff.rfl

/-- The five blocks tile the track array. -/
theorem cover5 (i : S625x6400.Idx) : ∃ t : Fin cfg0.N, (cfg0.win 5).flush t = true ∧ i ∈ ((cfg0.win 5).blk t).view.set := by
  have hi0 : (i 0).val < 625 := (i 0).isLt
  have hi1 : (i 1).val < 6400 := (i 1).isLt
  have ht := pointOf_val i
  obtain ⟨-, -, -, -, -, ⟨a5, b5⟩⟩ := idx_facts (pointOf i)
  refine ⟨pointOf i, flush0_5 _, ?_⟩
  rw [mem_blk5]
  intro a
  match a with
  | ⟨0, _⟩ => show win0_5.index (pointOf i) (0 : Fin 2) * 625 ≤ (i 0).val ∧ (i 0).val < win0_5.index (pointOf i) (0 : Fin 2) * 625 + 625; omega
  | ⟨1, _⟩ => show win0_5.index (pointOf i) (1 : Fin 2) * 1280 ≤ (i 1).val ∧ (i 1).val < win0_5.index (pointOf i) (1 : Fin 2) * 1280 + 1280; omega

/-- The track array after the region: the track energies of the three input arrays. -/
theorem trk_array (c : Dev nD) :
    (dats m 0 c).arrAt 5 cfg0.N = Cert.MaskSpec.trkG (V m c main_v0) (V m c main_v1) (V m c main_v2) :=
  (dats m 0 c).arrAt_eq_of_cover 5 (Cert.MaskSpec.trkG (V m c main_v0) (V m c main_v1) (V m c main_v2))
    (fun t _ => trk_flushed m c t) cover5

end Cert.KernelIdeal.Arrays

end
-- ==== Proof.MaskRelaid.lean ====
/-
  The masking stage is the same function of the hit number in either layout.

  The 4000000 hits are held as a [4000000, 1] column. One program lays the column out as a [625, 6400] grid
  (row-major: hit n sits at row n / 6400, column n % 6400), applies the pointwise masking function there, and
  flattens the grid to a [4000000] vector; the other applies the same pointwise function to the column and
  flattens that. A reshape keeps every element at its row-major position, and

      (n / 6400) · 6400 + n % 6400  =  n  =  n · 1 + 0,

  so position n of either flattened result is the masking function of the column's entries at row n. The three
  statements below say this for the segment index (id + 1), the hit energy (flag 0) and the track energy (flag 1).
-/
import proofs.«423578_j61237643706562_3_alg».proof.Proof.MaskSpec
import Idealize.ShloMosaic.Lib.ValueIdx
import Idealize.ShloMosaic.Lib.Pipeline.Value

noncomputable section

namespace Cert.MaskRelaid

open Idealize.ShloMosaic Idealize.ShloMosaic.ValueIdx
open Cert.MaskSpec

/-- The hits as a column. -/
abbrev Col : Shape := ⟨2, ![4000000, 1]⟩
/-- The hits as a flat vector. -/
abbrev Flat : Shape := ⟨1, ![4000000]⟩
/-- The shape of a scalar. -/
abbrev S0 : Shape := ⟨0, ![]⟩

/-- Hit n on the grid: row n / 6400, column n % 6400. -/
abbrev gridIdx (n : Fin 4000000) : Grid.Idx :=
  ix2 (⟨n.val / 6400, by have := n.isLt; omega⟩ : Fin 625) (⟨n.val % 6400, Nat.mod_lt _ (by decide)⟩ : Fin 6400)

/-- Hit n in the column: row n of the one column. -/
abbrev colIdx (n : Fin 4000000) : Col.Idx := ix2 n (⟨0, Nat.one_pos⟩ : Fin 1)

section Reads
variable {α : Type}

/-- The flattened grid at n is the grid at (n / 6400, n % 6400): (n / 6400) · 6400 + n % 6400 = n. -/
theorem flat_of_grid (x : Grid.Idx → α) (h2 : Grid.ShapeCasts Flat) (n : Fin 4000000) :
    shapeCast Flat x h2 (ix1 n) = x (gridIdx n) :=
  shapeCast_apply x h2 (ix1 n) (gridIdx n) (by
    rw [Shape.rowMajor_val_two, Shape.rowMajor_val_one]
    show n.val / 6400 * 6400 + n.val % 6400 = n.val
    omega)

/-- The column laid out as the grid, at (n / 6400, n % 6400), is the column at row n. -/
theorem grid_of_col (a : Col.Idx → α) (h1 : Col.ShapeCasts Grid) (n : Fin 4000000) :
    shapeCast Grid a h1 (gridIdx n) = a (colIdx n) :=
  shapeCast_apply a h1 (gridIdx n) (colIdx n) (by
    rw [Shape.rowMajor_val_two, Shape.rowMajor_val_two]
    show n.val * 1 + 0 = n.val / 6400 * 6400 + n.val % 6400
    omega)

/-- The flattened column at n is the column at row n: n · 1 + 0 = n. -/
theorem flat_of_col (a : Col.Idx → α) (h3 : Col.ShapeCasts Flat) (n : Fin 4000000) :
    shapeCast Flat a h3 (ix1 n) = a (colIdx n) :=
  shapeCast_apply a h3 (ix1 n) (colIdx n) (by
    rw [Shape.rowMajor_val_two, Shape.rowMajor_val_one]
    show n.val * 1 + 0 = n.val
    omega)

end Reads

variable {F : FTy → Type} [FloatOps F]

/-- SEGMENT INDEX. Position n of either side is (id of hit n) + 1. -/
theorem seg_relaid (h1 : Col.ShapeCasts Cert.MaskSpec.Grid) (h2 : Cert.MaskSpec.Grid.ShapeCasts Flat) (h3 : Col.ShapeCasts Flat)
    (hb : S0.BroadcastsInDim Flat (![] : Fin 0 → Fin Flat.rank)) (a0 : IVec Col 32) :
    shapeCast Flat (Cert.MaskSpec.segG (shapeCast Cert.MaskSpec.Grid a0 h1)) h2
      = addi (shapeCast Flat a0 h3) (broadcastInDim Flat ![] hb (constantI S0 32 1#32)) := by
  funext j
  obtain ⟨n, rfl⟩ : ∃ n : Fin 4000000, j = ix1 n := ⟨j 0, eq_ix1 j⟩
  refine (flat_of_grid _ h2 n).trans ?_
  -- both sides are a pointwise sum with the literal 1, read at one position
  show IntOp.addi (shapeCast Grid a0 h1 (gridIdx n)) 1#32 = IntOp.addi (shapeCast Flat a0 h3 (ix1 n)) 1#32
  rw [grid_of_col, flat_of_col]

/-- HIT ENERGY. Position n of either side is: the energy of hit n, zeroed when its id is -1, kept where its flag
    is 0 and zero elsewhere. -/
theorem hit_relaid (h1 : Col.ShapeCasts Cert.MaskSpec.Grid) (h2 : Cert.MaskSpec.Grid.ShapeCasts Flat) (h3 : Col.ShapeCasts Flat)
    (hc : S0.BroadcastsInDim Col (![] : Fin 0 → Fin Col.rank)) (a0 : IVec Col 32) (a2 : FVec F Col .f32) (a3 : IVec Col 32) :
    shapeCast Flat (Cert.MaskSpec.hitG (shapeCast Cert.MaskSpec.Grid a0 h1) (shapeCast Cert.MaskSpec.Grid a2 h1) (shapeCast Cert.MaskSpec.Grid a3 h1)) h2
      = shapeCast Flat (select (cmpi .eq a3 (broadcastInDim Col ![] hc (constantI S0 32 0#32)))
          (select (cmpi .eq a0 (broadcastInDim Col ![] hc (constantI S0 32 4294967295#32))) (broadcastInDim Col ![] hc (id (constant S0 .f32 0x00000000#32))) a2)
          (broadcastInDim Col ![] hc (id (constant S0 .f32 0x00000000#32)))) h3 := by
  funext j
  obtain ⟨n, rfl⟩ : ∃ n : Fin 4000000, j = ix1 n := ⟨j 0, eq_ix1 j⟩
  refine (flat_of_grid _ h2 n).trans ?_
  refine Eq.trans ?_ (flat_of_col _ h3 n).symm
  -- both sides are the same nested selection, read at one position
  show Scalar.select (IntOp.cmpi .eq (shapeCast Grid a3 h1 (gridIdx n)) 0#32)
        (Scalar.select (IntOp.cmpi .eq (shapeCast Grid a0 h1 (gridIdx n)) 4294967295#32)
          (Scalar.ofBits .f32 0x00000000#32 : F .f32) (shapeCast Grid a2 h1 (gridIdx n)))
        (Scalar.ofBits .f32 0x00000000#32 : F .f32)
      = Scalar.select (IntOp.cmpi .eq (a3 (colIdx n)) 0#32)
        (Scalar.select (IntOp.cmpi .eq (a0 (colIdx n)) 4294967295#32)
          (Scalar.ofBits .f32 0x00000000#32 : F .f32) (a2 (colIdx n)))
        (Scalar.ofBits .f32 0x00000000#32 : F .f32)
  rw [grid_of_col a3, grid_of_col a0, grid_of_col a2]

/-- TRACK ENERGY. The same with flag 1 in place of flag 0. -/
theorem trk_relaid (h1 : Col.ShapeCasts Cert.MaskSpec.Grid) (h2 : Cert.MaskSpec.Grid.ShapeCasts Flat) (h3 : Col.ShapeCasts Flat)
    (hc : S0.BroadcastsInDim Col (![] : Fin 0 → Fin Col.rank)) (a0 : IVec Col 32) (a2 : FVec F Col .f32) (a3 : IVec Col 32) :
    shapeCast Flat (Cert.MaskSpec.trkG (shapeCast Cert.MaskSpec.Grid a0 h1) (shapeCast Cert.MaskSpec.Grid a2 h1) (shapeCast Cert.MaskSpec.Grid a3 h1)) h2
      = shapeCast Flat (select (cmpi .eq a3 (broadcastInDim Col ![] hc (constantI S0 32 1#32)))
          (select (cmpi .eq a0 (broadcastInDim Col ![] hc (constantI S0 32 4294967295#32))) (broadcastInDim Col ![] hc (id (constant S0 .f32 0x00000000#32))) a2)
          (broadcastInDim Col ![] hc (id (constant S0 .f32 0x00000000#32)))) h3 := by
  funext j
  obtain ⟨n, rfl⟩ : ∃ n : Fin 4000000, j = ix1 n := ⟨j 0, eq_ix1 j⟩
  refine (flat_of_grid _ h2 n).trans ?_
  refine Eq.trans ?_ (flat_of_col _ h3 n).symm
  show Scalar.select (IntOp.cmpi .eq (shapeCast Grid a3 h1 (gridIdx n)) 1#32)
        (Scalar.select (IntOp.cmpi .eq (shapeCast Grid a0 h1 (gridIdx n)) 4294967295#32)
          (Scalar.ofBits .f32 0x00000000#32 : F .f32) (shapeCast Grid a2 h1 (gridIdx n)))
        (Scalar.ofBits .f32 0x00000000#32 : F .f32)
      = Scalar.select (IntOp.cmpi .eq (a3 (colIdx n)) 1#32)
        (Scalar.select (IntOp.cmpi .eq (a0 (colIdx n)) 4294967295#32)
          (Scalar.ofBits .f32 0x00000000#32 : F .f32) (a2 (colIdx n)))
        (Scalar.ofBits .f32 0x00000000#32 : F .f32)
  rw [grid_of_col a3, grid_of_col a0, grid_of_col a2]

end Cert.MaskRelaid

end
-- ==== Proof.Bridge.lean ====
/-
  The idealized kernel's four results are the reference's four functions of the argument arrays.

  Column k of the gathered rows is the k-th table read back at the flat segment indices (the kernel's row gather of
  the stacked table and column slice against the reference's gather of one table). The flat segment indices and the
  flat hit and track energies the kernel computes — through the [625, 6400] grid, tile by tile — are the ones the
  reference computes on the [4000000, 1] columns, because masking is pointwise and the two reshapes compose to the
  flattening. The per-segment sums are then the same scatter-adds of the same arrays. The correction tables agree
  wherever every position of the position tables lies in [0, 4000000], which the precondition states.
-/
import proofs.«423578_j61237643706562_3_alg».proof.Proof.KernelTail
import proofs.«423578_j61237643706562_3_alg».proof.Proof.RefSpec
import proofs.«423578_j61237643706562_3_alg».proof.Proof.IdealArrays
import proofs.«423578_j61237643706562_3_alg».proof.Proof.MaskRelaid

set_option maxRecDepth 16384

noncomputable section

namespace Cert.Bridge

open Idealize.ShloMosaic Idealize.ShloMosaic.TcCoe
open Idealize.SL Idealize.SL.Sem
open Cert.KernelIdeal Cert.KernelIdeal.Facts₀ Cert.KernelIdeal.Host Cert.KernelIdeal.Region

variable {F : FTy → Type} [FloatOps F]

variable (m : (ℓ : Loc nD τ sig) → Buf (Elt F) ℓ)

/-- The flat segment indices the later lines read off the region's first result are ids plus one. -/
theorem flat_seg (c : Dev nD) :
    shapeCast S4000000 ((dats m 0 c).arrAt 3 cfg0.N) shapeCasts_S625x6400_S4000000
      = Cert.RefSpec.segOf (m ((c : Thread nD τ).loc main_arg0)) := by
  rw [Cert.KernelIdeal.Arrays.seg_array, Cert.KernelIdeal.Tail.found_ids]
  exact Cert.MaskRelaid.seg_relaid _ _ _ _ _

/-- The flat hit energies. -/
theorem flat_hit (c : Dev nD) :
    shapeCast S4000000 ((dats m 0 c).arrAt 4 cfg0.N) shapeCasts_S625x6400_S4000000
      = Cert.RefSpec.energyOf 0#32 (m ((c : Thread nD τ).loc main_arg0)) (m ((c : Thread nD τ).loc main_arg2)) (m ((c : Thread nD τ).loc main_arg3)) := by
  rw [Cert.KernelIdeal.Arrays.hit_array, Cert.KernelIdeal.Tail.found_ids, Cert.KernelIdeal.Tail.found_energies, Cert.KernelIdeal.Tail.found_flags]
  exact Cert.MaskRelaid.hit_relaid _ _ _ _ _ _ _

/-- The flat track energies. -/
theorem flat_trk (c : Dev nD) :
    shapeCast S4000000 ((dats m 0 c).arrAt 5 cfg0.N) shapeCasts_S625x6400_S4000000
      = Cert.RefSpec.energyOf 1#32 (m ((c : Thread nD τ).loc main_arg0)) (m ((c : Thread nD τ).loc main_arg2)) (m ((c : Thread nD τ).loc main_arg3)) := by
  rw [Cert.KernelIdeal.Arrays.trk_array, Cert.KernelIdeal.Tail.found_ids, Cert.KernelIdeal.Tail.found_energies, Cert.KernelIdeal.Tail.found_flags]
  exact Cert.MaskRelaid.trk_relaid _ _ _ _ _ _ _

/-- The two programs sum per segment by the same scatter-add. -/
theorem shower_same (SID : IVec S4000000 32) (E : FVec F S4000000 .f32) :
    Cert.KernelIdeal.Tail.showerK SID E = Cert.RefSpec.showerR SID E := rfl

variable (hT : ∀ c : Dev nD, ∀ k : S10000.Idx, ((m ((c : Thread nD τ).loc main_arg5)) k).toNat ≤ 4000000)
variable (hH : ∀ c : Dev nD, ∀ k : S10000.Idx, ((m ((c : Thread nD τ).loc main_arg6)) k).toNat ≤ 4000000)

theorem col0_is (c : Dev nD) : Cert.Readback.col0 (Cert.KernelIdeal.Tail.rowsAt m c)
    = Cert.RefSpec.trackRaw (m ((c : Thread nD τ).loc main_arg0)) (m ((c : Thread nD τ).loc main_arg2)) (m ((c : Thread nD τ).loc main_arg3)) := by
  unfold Cert.KernelIdeal.Tail.rowsAt Cert.KernelIdeal.Tail.rows Cert.RefSpec.trackRaw
  rw [Cert.Readback.col0_eq, flat_seg, flat_trk, shower_same]

include hT in
theorem col1_is (c : Dev nD) : Cert.Readback.col1 (Cert.KernelIdeal.Tail.rowsAt m c)
    = Cert.RefSpec.trackCorrected (m ((c : Thread nD τ).loc main_arg0)) (m ((c : Thread nD τ).loc main_arg1)) (m ((c : Thread nD τ).loc main_arg2)) (m ((c : Thread nD τ).loc main_arg3)) (m ((c : Thread nD τ).loc main_arg5)) := by
  unfold Cert.KernelIdeal.Tail.rowsAt Cert.KernelIdeal.Tail.rows Cert.RefSpec.trackCorrected
  rw [Cert.Readback.col1_eq, flat_seg, flat_trk, shower_same, Cert.CorrBridge.corr_agree _ _ _ (hT c)]

theorem col2_is (c : Dev nD) : Cert.Readback.col2 (Cert.KernelIdeal.Tail.rowsAt m c)
    = Cert.RefSpec.hitRaw (m ((c : Thread nD τ).loc main_arg0)) (m ((c : Thread nD τ).loc main_arg2)) (m ((c : Thread nD τ).loc main_arg3)) := by
  unfold Cert.KernelIdeal.Tail.rowsAt Cert.KernelIdeal.Tail.rows Cert.RefSpec.hitRaw
  rw [Cert.Readback.col2_eq, flat_seg, flat_hit, shower_same]

include hH in
theorem col3_is (c : Dev nD) : Cert.Readback.col3 (Cert.KernelIdeal.Tail.rowsAt m c)
    = Cert.RefSpec.hitCorrected (m ((c : Thread nD τ).loc main_arg0)) (m ((c : Thread nD τ).loc main_arg1)) (m ((c : Thread nD τ).loc main_arg2)) (m ((c : Thread nD τ).loc main_arg3)) (m ((c : Thread nD τ).loc main_arg6)) := by
  unfold Cert.KernelIdeal.Tail.rowsAt Cert.KernelIdeal.Tail.rows Cert.RefSpec.hitCorrected
  rw [Cert.Readback.col3_eq, flat_seg, flat_hit, shower_same, Cert.CorrBridge.corr_agree _ _ _ (hH c)]

end Cert.Bridge

end
-- ==== Proof.RefRun.lean ====
/-
  The reference's run, over the four named results.

  The program is 118 host operations in a row, and its run ends with every buffer at the fold of the operations'
  results over the launch contents. The fold is read in four stretches, each from ANY buffer contents it may start
  from: the first computes the flat segment indices, the masked factor column and the two per-segment sums; the
  second the hits' correction table (the factor column extended by a zero row, gathered at the hits' positions, a
  zero put in front); the third the tracks' table; the fourth the two products and the four gathers back to the hits.
  A stretch leaves what it does not write. Composed, the four results are the named functions of the launch contents
  (track sums, corrected track sums, hit sums, corrected hit sums, gathered back), and no operation writes an argument.
-/
import proofs.«423578_j61237643706562_3_alg».proof.Proof.RefSpec
import proofs.«423578_j61237643706562_3_alg».proof.Proof.RefRunCopy

set_option maxRecDepth 16384
set_option maxHeartbeats 8000000

noncomputable section

namespace Cert.RefSpec

open Idealize.ShloMosaic Idealize.ShloMosaic.TcCoe Idealize.ShloMosaic.StableHlo
open Idealize.SL Idealize.SL.Sem
open Cert.ReferenceIdeal Cert.ReferenceIdeal.Facts₀ Cert.ReferenceIdeal.ValueP

variable {F : FTy → Type} [FloatOps F]

/-! ## The four stretches -/

abbrev st1 : List (HloOp τ sig (Elt F)) := (ops (F := F)).take 39
abbrev st2 : List (HloOp τ sig (Elt F)) := ((ops (F := F)).drop 39).take 20
abbrev st3 : List (HloOp τ sig (Elt F)) := (((ops (F := F)).drop 39).drop 20).take 17
abbrev st4 : List (HloOp τ sig (Elt F)) := (((ops (F := F)).drop 39).drop 20).drop 17

theorem ops_split : (ops (F := F)) = st1 ++ (st2 ++ (st3 ++ st4)) := by
  simp only [st1, st2, st3, st4, List.take_append_drop]

/-- The whole fold is the four stretches' folds in a row. -/
theorem after_ops (X : Valuation τ sig (Elt F)) :
    StableHlo.after (ops (F := F)) X = StableHlo.after st4 (StableHlo.after st3 (StableHlo.after st2 (StableHlo.after st1 X))) := by
  conv_lhs => rw [ops_split]
  rw [StableHlo.after_append, StableHlo.after_append, StableHlo.after_append]

/-! ## The pieces of a correction table -/

/-- The (row, column) start indices of the reference's correction gather: the position, 4000001 added if negative,
    beside a column of zeros. -/
def startsR (alpha : IVec S10000 32) : IVec S10000x2 32 :=
  concatenate S10000x2 1 [⟨S10000x1, (broadcastInDim S10000x1 ![0] bcast_S10000_S10000x1_0 (select (cmpi .slt alpha (broadcastInDim S10000 ![] bcast_S_S10000 (constantI S_ 32 0#32))) (addi alpha (broadcastInDim S10000 ![] bcast_S_S10000 (constantI S_ 32 4000001#32))) alpha))⟩, ⟨S10000x1, (broadcastInDim S10000x1 ![0] bcast_S10000_S10000x1_0 (id (broadcastInDim S10000 ![] bcast_S_S10000 (constantI S_ 32 0#32))))⟩] concatenates_S10000x1_S10000x1_S10000x2_d1

/-- The factor column with noise rows zeroed. -/
def keptR (sid : IVec S4000000x1 32) (pcf : FVec F S4000000x1 .f32) : FVec F S4000000x1 .f32 :=
  select (cmpi .eq sid (broadcastInDim S4000000x1 ![] bcast_S_S4000000x1 (constantI S_ 32 4294967295#32))) (broadcastInDim S4000000x1 ![] bcast_S_S4000000x1 (id (constant S_ .f32 0x00000000#32))) pcf

/-- A column extended by one zero row. -/
def extR (col : FVec F S4000000x1 .f32) : FVec F S4000001x1 .f32 :=
  concatenate S4000001x1 0 [⟨S4000000x1, col⟩, ⟨S1x1, (broadcastInDim S1x1 ![] bcast_S_S1x1 (constant S_ .f32 0x00000000#32))⟩] concatenates_S4000000x1_S1x1_S4000001x1_d0

/-- The correction entries gathered off the extended column, a zero in front. -/
def tableR (ext : FVec F S4000001x1 .f32) (alpha : IVec S10000 32) : FVec F S10001 .f32 :=
  concatenate S10001 0 [⟨S1, (broadcastInDim S1 ![] bcast_S_S1 (constant S_ .f32 0x00000000#32))⟩, ⟨S10000, (Host.gather gather_S4000001x1_S10000x2_S10000_n_01_n_n_01_1_11 ext (startsR alpha))⟩] concatenates_S1_S10000_S10001_d0

theorem corrR_pieces (sid : IVec S4000000x1 32) (pcf : FVec F S4000000x1 .f32) (alpha : IVec S10000 32) :
    tableR (extR (keptR sid pcf)) alpha = Cert.CorrBridge.corrR sid pcf alpha := rfl

/-! ## The first stretch -/

section Stretch1
variable (Y : Valuation τ sig (Elt F))

theorem r1_seg : StableHlo.after st1 Y (Proc.devRef .tc main_v2) = segOf (Y (Proc.devRef .tc main_arg0)) := by
  simp only [st1, ops, List.take_succ_cons, List.take_zero, List.drop_succ_cons, List.drop_zero]; after_results <;> (try rfl)
theorem r1_kept : StableHlo.after st1 Y (Proc.devRef .tc main_v5)
    = keptR (Y (Proc.devRef .tc main_arg0)) (Y (Proc.devRef .tc main_arg1)) := by
  simp only [st1, ops, List.take_succ_cons, List.take_zero, List.drop_succ_cons, List.drop_zero]; after_results <;> (try rfl)
theorem r1_hit : StableHlo.after st1 Y (Proc.devRef .tc main_v17)
    = showerR (segOf (Y (Proc.devRef .tc main_arg0)))
        (energyOf 0#32 (Y (Proc.devRef .tc main_arg0)) (Y (Proc.devRef .tc main_arg2)) (Y (Proc.devRef .tc main_arg3))) := by
  simp only [st1, ops, List.take_succ_cons, List.take_zero, List.drop_succ_cons, List.drop_zero]; after_results <;> (try rfl)
theorem r1_trk : StableHlo.after st1 Y (Proc.devRef .tc main_v20)
    = showerR (segOf (Y (Proc.devRef .tc main_arg0)))
        (energyOf 1#32 (Y (Proc.devRef .tc main_arg0)) (Y (Proc.devRef .tc main_arg2)) (Y (Proc.devRef .tc main_arg3))) := by
  simp only [st1, ops, List.take_succ_cons, List.take_zero, List.drop_succ_cons, List.drop_zero]; after_results <;> (try rfl)
theorem r1_arg5 : StableHlo.after st1 Y (Proc.devRef .tc main_arg5) = Y (Proc.devRef .tc main_arg5) := by
  simp only [st1, ops, List.take_succ_cons, List.take_zero, List.drop_succ_cons, List.drop_zero]; after_results_simp
theorem r1_arg6 : StableHlo.after st1 Y (Proc.devRef .tc main_arg6) = Y (Proc.devRef .tc main_arg6) := by
  simp only [st1, ops, List.take_succ_cons, List.take_zero, List.drop_succ_cons, List.drop_zero]; after_results_simp

end Stretch1

/-! ## The second stretch: the hits' table -/

section Stretch2
variable (Y : Valuation τ sig (Elt F))

theorem r2_ext : StableHlo.after st2 Y (Proc.devRef .tc main_v22) = extR (Y (Proc.devRef .tc main_v5)) := by
  simp only [st2, ops, List.take_succ_cons, List.take_zero, List.drop_succ_cons, List.drop_zero]; after_results <;> (try rfl)
theorem r2_hits : StableHlo.after st2 Y (Proc.devRef .tc main_v35)
    = tableR (extR (Y (Proc.devRef .tc main_v5))) (Y (Proc.devRef .tc main_arg6)) := by
  simp only [st2, ops, List.take_succ_cons, List.take_zero, List.drop_succ_cons, List.drop_zero]; after_results <;> (try rfl)
theorem r2_seg : StableHlo.after st2 Y (Proc.devRef .tc main_v2) = Y (Proc.devRef .tc main_v2) := by
  simp only [st2, ops, List.take_succ_cons, List.take_zero, List.drop_succ_cons, List.drop_zero]; after_results_simp
theorem r2_hit : StableHlo.after st2 Y (Proc.devRef .tc main_v17) = Y (Proc.devRef .tc main_v17) := by
  simp only [st2, ops, List.take_succ_cons, List.take_zero, List.drop_succ_cons, List.drop_zero]; after_results_simp
theorem r2_trk : StableHlo.after st2 Y (Proc.devRef .tc main_v20) = Y (Proc.devRef .tc main_v20) := by
  simp only [st2, ops, List.take_succ_cons, List.take_zero, List.drop_succ_cons, List.drop_zero]; after_results_simp
theorem r2_arg5 : StableHlo.after st2 Y (Proc.devRef .tc main_arg5) = Y (Proc.devRef .tc main_arg5) := by
  simp only [st2, ops, List.take_succ_cons, List.take_zero, List.drop_succ_cons, List.drop_zero]; after_results_simp

end Stretch2

/-! ## The third stretch: the tracks' table -/

section Stretch3
variable (Y : Valuation τ sig (Elt F))

theorem r3_tracks : StableHlo.after st3 Y (Proc.devRef .tc main_v48)
    = tableR (Y (Proc.devRef .tc main_v22)) (Y (Proc.devRef .tc main_arg5)) := by
  simp only [st3, ops, List.take_succ_cons, List.take_zero, List.drop_succ_cons, List.drop_zero]; after_results <;> (try rfl)
theorem r3_seg : StableHlo.after st3 Y (Proc.devRef .tc main_v2) = Y (Proc.devRef .tc main_v2) := by
  simp only [st3, ops, List.take_succ_cons, List.take_zero, List.drop_succ_cons, List.drop_zero]; after_results_simp
theorem r3_hit : StableHlo.after st3 Y (Proc.devRef .tc main_v17) = Y (Proc.devRef .tc main_v17) := by
  simp only [st3, ops, List.take_succ_cons, List.take_zero, List.drop_succ_cons, List.drop_zero]; after_results_simp
theorem r3_trk : StableHlo.after st3 Y (Proc.devRef .tc main_v20) = Y (Proc.devRef .tc main_v20) := by
  simp only [st3, ops, List.take_succ_cons, List.take_zero, List.drop_succ_cons, List.drop_zero]; after_results_simp
theorem r3_hits : StableHlo.after st3 Y (Proc.devRef .tc main_v35) = Y (Proc.devRef .tc main_v35) := by
  simp only [st3, ops, List.take_succ_cons, List.take_zero, List.drop_succ_cons, List.drop_zero]; after_results_simp

end Stretch3

/-! ## The fourth stretch: the products and the gathers back -/

section Stretch4
variable (Y : Valuation τ sig (Elt F))

theorem r4_v82 : StableHlo.after st4 Y (Proc.devRef .tc main_v82)
    = Cert.Readback.readbackR (Y (Proc.devRef .tc main_v20)) (Y (Proc.devRef .tc main_v2)) := by
  simp only [st4, ops, List.take_succ_cons, List.take_zero, List.drop_succ_cons, List.drop_zero]; after_results <;> (try rfl)
theorem r4_v74 : StableHlo.after st4 Y (Proc.devRef .tc main_v74)
    = Cert.Readback.readbackR (mulf (Y (Proc.devRef .tc main_v20)) (Y (Proc.devRef .tc main_v48))) (Y (Proc.devRef .tc main_v2)) := by
  simp only [st4, ops, List.take_succ_cons, List.take_zero, List.drop_succ_cons, List.drop_zero]; after_results <;> (try rfl)
theorem r4_v66 : StableHlo.after st4 Y (Proc.devRef .tc main_v66)
    = Cert.Readback.readbackR (Y (Proc.devRef .tc main_v17)) (Y (Proc.devRef .tc main_v2)) := by
  simp only [st4, ops, List.take_succ_cons, List.take_zero, List.drop_succ_cons, List.drop_zero]; after_results <;> (try rfl)
theorem r4_v58 : StableHlo.after st4 Y (Proc.devRef .tc main_v58)
    = Cert.Readback.readbackR (mulf (Y (Proc.devRef .tc main_v17)) (Y (Proc.devRef .tc main_v35))) (Y (Proc.devRef .tc main_v2)) := by
  simp only [st4, ops, List.take_succ_cons, List.take_zero, List.drop_succ_cons, List.drop_zero]; after_results <;> (try rfl)

end Stretch4

/-! ## Composed -/

section Composed
variable (X : Valuation τ sig (Elt F))

theorem end_v82 : StableHlo.after (ops (F := F)) X (Proc.devRef .tc main_v82)
    = trackRaw (X (Proc.devRef .tc main_arg0)) (X (Proc.devRef .tc main_arg2)) (X (Proc.devRef .tc main_arg3)) := by
  rw [after_ops, r4_v82, r3_trk, r2_trk, r1_trk, r3_seg, r2_seg, r1_seg]
  rfl
theorem end_v66 : StableHlo.after (ops (F := F)) X (Proc.devRef .tc main_v66)
    = hitRaw (X (Proc.devRef .tc main_arg0)) (X (Proc.devRef .tc main_arg2)) (X (Proc.devRef .tc main_arg3)) := by
  rw [after_ops, r4_v66, r3_hit, r2_hit, r1_hit, r3_seg, r2_seg, r1_seg]
  rfl
theorem end_v74 : StableHlo.after (ops (F := F)) X (Proc.devRef .tc main_v74)
    = trackCorrected (X (Proc.devRef .tc main_arg0)) (X (Proc.devRef .tc main_arg1)) (X (Proc.devRef .tc main_arg2)) (X (Proc.devRef .tc main_arg3)) (X (Proc.devRef .tc main_arg5)) := by
  rw [after_ops, r4_v74, r3_trk, r2_trk, r1_trk, r3_seg, r2_seg, r1_seg, r3_tracks, r2_ext, r1_kept, r2_arg5, r1_arg5, corrR_pieces]
  rfl
theorem end_v58 : StableHlo.after (ops (F := F)) X (Proc.devRef .tc main_v58)
    = hitCorrected (X (Proc.devRef .tc main_arg0)) (X (Proc.devRef .tc main_arg1)) (X (Proc.devRef .tc main_arg2)) (X (Proc.devRef .tc main_arg3)) (X (Proc.devRef .tc main_arg6)) := by
  rw [after_ops, r4_v58, r3_hit, r2_hit, r1_hit, r3_seg, r2_seg, r1_seg, r3_hits, r2_hits, r1_kept, r1_arg6, corrR_pieces]
  rfl

/-- No operation writes an argument. -/
theorem end_arg0 : StableHlo.after (ops (F := F)) X (Proc.devRef .tc main_arg0) = X (Proc.devRef .tc main_arg0) := by
  simp only [ops]; after_results_simp
theorem end_arg1 : StableHlo.after (ops (F := F)) X (Proc.devRef .tc main_arg1) = X (Proc.devRef .tc main_arg1) := by
  simp only [ops]; after_results_simp
theorem end_arg2 : StableHlo.after (ops (F := F)) X (Proc.devRef .tc main_arg2) = X (Proc.devRef .tc main_arg2) := by
  simp only [ops]; after_results_simp
theorem end_arg3 : StableHlo.after (ops (F := F)) X (Proc.devRef .tc main_arg3) = X (Proc.devRef .tc main_arg3) := by
  simp only [ops]; after_results_simp
theorem end_arg4 : StableHlo.after (ops (F := F)) X (Proc.devRef .tc main_arg4) = X (Proc.devRef .tc main_arg4) := by
  simp only [ops]; after_results_simp
theorem end_arg5 : StableHlo.after (ops (F := F)) X (Proc.devRef .tc main_arg5) = X (Proc.devRef .tc main_arg5) := by
  simp only [ops]; after_results_simp
theorem end_arg6 : StableHlo.after (ops (F := F)) X (Proc.devRef .tc main_arg6) = X (Proc.devRef .tc main_arg6) := by
  simp only [ops]; after_results_simp

end Composed

/-! ## The run -/

set_option maxHeartbeats 4000000 in
/-- The reference's run, over those names: it terminates with the four results at the four functions of the launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
          = trackRaw (m ((c.tc : Thread nD τ).loc main_arg0)) (m ((c.tc : Thread nD τ).loc main_arg2)) (m ((c.tc : Thread nD τ).loc main_arg3))
      ∧ r.2.mem ((c.tc : Thread nD τ).loc main_v74)
          = trackCorrected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v66)
          = hitRaw (m ((c.tc : Thread nD τ).loc main_arg0)) (m ((c.tc : Thread nD τ).loc main_arg2)) (m ((c.tc : Thread nD τ).loc main_arg3))
      ∧ r.2.mem ((c.tc : Thread nD τ).loc main_v58)
          = hitCorrected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v82).trans (end_v82 _), (h c main_v74).trans (end_v74 _), (h c main_v66).trans (end_v66 _), (h c main_v58).trans (end_v58 _),
     (h c main_arg0).trans (end_arg0 _), (h c main_arg1).trans (end_arg1 _), (h c main_arg2).trans (end_arg2 _), (h c main_arg3).trans (end_arg3 _),
     (h c main_arg4).trans (end_arg4 _), (h c main_arg5).trans (end_arg5 _), (h c main_arg6).trans (end_arg6 _)⟩)
    (Cert.ReferenceIdeal.ValueP.run_raw (F := F) m ρ)

end Cert.RefSpec

end
-- ==== Proof.PreBounds.lean ====
/-
  The index tables' ranges, read back from the precondition.

  The precondition is one bit: the conjunction of seven "all elements satisfy ..." reductions. Three of them say
  that float arrays are finite; the other four say, of each of the two [10000] tables of 32-bit words, that every
  word is ≥ 0 and ≤ 4000000 as a SIGNED integer. The claim that the precondition is 1 therefore gives, for every
  position k of either table, 0 ≤ toInt (t k) ≤ 4000000.

  A 32-bit word whose signed reading is nonnegative has its top bit clear, i.e. its unsigned value is below 2³¹, and
  for such a word the signed and the unsigned readings are the same integer. Hence toNat (t k) ≤ 4000000, which is
  the form in which a table entry is used as a position (an unsigned quantity) elsewhere.
-/
import proofs.«423578_j61237643706562_3_alg».proof.Pre_finite_inputs
import proofs.«423578_j61237643706562_3_alg».proof.Proof.Gen.Pre_finite_inputs
import Idealize.ShloMosaic.Lib.ReduceAll
import Idealize.ShloMosaic.Lib.StableHlo.Predicate

namespace Cert.PreBounds

open Idealize.ShloMosaic

/-- The shape of a scalar has no axis, so it has exactly one index (the empty tuple of coordinates). -/
instance scalarIdxSubsingleton : Subsingleton Cert.Pre_finite_inputs.S_.Idx :=
  ⟨fun a b => funext fun d => d.elim0⟩

/-- An elementwise "and" of two bit arrays is 1 at a position exactly when both arrays are 1 there. -/
theorem andi_at_eq_one {s : Shape} (x y : IVec s 1) (i : s.Idx) :
    andi x y i = 1#1 ↔ x i = 1#1 ∧ y i = 1#1 :=
  IntOp.andi_eq_one

/-- SIGNED RANGE TO UNSIGNED BOUND. If a 32-bit word w satisfies 0 ≤ w and w ≤ n as signed integers, where
    n < 2³¹ is a literal, then its unsigned value is at most n.
    From 0 ≤ toInt w the top bit of w is clear: 2 · toNat w < 2³², so toInt w = toNat w. The literal n < 2³¹ reads
    as n under the signed reading too. The signed inequality toInt w ≤ n is then toNat w ≤ n. -/
theorem toNat_le_of_signed_range (w : BitVec 32) (n : Nat) (hn : n < 2 ^ 31)
    (hlo : IntOp.cmpi .sge w 0#32 = 1#1) (hhi : IntOp.cmpi .sle w (BitVec.ofNat 32 n) = 1#1) :
    w.toNat ≤ n := by
  -- the two comparison bits, as inequalities between signed readings
  have h0 : (0#32 : BitVec 32).toInt ≤ w.toInt := IntOp.cmpi_sge.1 hlo
  have h1 : w.toInt ≤ (BitVec.ofNat 32 n).toInt := IntOp.cmpi_sle.1 hhi
  have z : (0#32 : BitVec 32).toInt = 0 := by decide
  rw [z] at h0
  -- nonnegative signed reading: the top bit is clear
  have htop : 2 * w.toNat < 2 ^ 32 := BitVec.toInt_pos_iff.1 h0
  -- so the signed reading is the unsigned value; the literal reads as itself
  rw [StableHlo.Predicate.toInt_eq_toNat_of_lt (by omega), StableHlo.Predicate.toInt_ofNat_small n hn] at h1
  omega

/-- THE PRECONDITION DECODED AT THE TWO INDEX TABLES: every entry of either table is at most 4000000, unsigned.
    The precondition bit is a left-nested conjunction ((((F ∧ A₅) ∧ B₅) ∧ A₆) ∧ B₆), F the float-finiteness part,
    A_t = "all k, t k ≥ 0 signed", B_t = "all k, t k ≤ 4000000 signed"; each A_t, B_t is a reduction by "and" over
    the table's one axis into a scalar, which is 1 only if the compared bit is 1 at every k. At a position k the
    compared bit is the comparison of the word t k with the broadcast literal, which reads the literal itself. -/
theorem index_bounds {F : FTy → Type} [FloatOps F]
    (a0 : IVec Cert.Pre_finite_inputs.S4000000x1 32) (a1 a2 : FVec F Cert.Pre_finite_inputs.S4000000x1 .f32)
    (a3 : IVec Cert.Pre_finite_inputs.S4000000x1 32) (a4 : FVec F Cert.Pre_finite_inputs.S4000000x1 .f32)
    (a5 a6 : IVec Cert.Pre_finite_inputs.S10000 32)
    (h : Cert.Pre_finite_inputs.fn (F := F) a0 a1 a2 a3 a4 a5 a6 = fun _ => 1#1) :
    (∀ k : Cert.Pre_finite_inputs.S10000.Idx, (a5 k).toNat ≤ 4000000) ∧
      (∀ k : Cert.Pre_finite_inputs.S10000.Idx, (a6 k).toNat ≤ 4000000) := by
  -- the scalar result at its one index
  have e := congrFun h (fun d => d.elim0)
  dsimp only [Cert.Pre_finite_inputs.fn, Cert.Pre_finite_inputs.fn_part1] at e
  -- split the four outer conjunctions; the float part is not used
  rw [andi_at_eq_one, andi_at_eq_one, andi_at_eq_one, andi_at_eq_one] at e
  obtain ⟨⟨⟨⟨-, h5lo⟩, h5hi⟩, h6lo⟩, h6hi⟩ := e
  -- each reduction over the whole table being 1 says the compared bit is 1 at every position
  have g5lo := Host.reduce_andi_all _ _ _ _ _ h5lo
  have g5hi := Host.reduce_andi_all _ _ _ _ _ h5hi
  have g6lo := Host.reduce_andi_all _ _ _ _ _ h6lo
  have g6hi := Host.reduce_andi_all _ _ _ _ _ h6hi
  -- at position k the compared bit is the comparison of the word with the literal
  refine ⟨fun k => ?_, fun k => ?_⟩
  · have lo : IntOp.cmpi .sge (a5 k) 0#32 = 1#1 := g5lo k
    have hi : IntOp.cmpi .sle (a5 k) (BitVec.ofNat 32 4000000) = 1#1 := g5hi k
    exact toNat_le_of_signed_range (a5 k) 4000000 (by decide) lo hi
  · have lo : IntOp.cmpi .sge (a6 k) 0#32 = 1#1 := g6lo k
    have hi : IntOp.cmpi .sle (a6 k) (BitVec.ofNat 32 4000000) = 1#1 := g6hi k
    exact toNat_le_of_signed_range (a6 k) 4000000 (by decide) lo hi

end Cert.PreBounds
-- ==== Proof.lean ====
/-
  The certificate's claim.

  The kernel masks the hits tile by tile (segment = id + 1; energy zeroed for noise; split by the hit/track flag) and
  leaves the per-segment sums, the correction tables and the gather back to the hits to host operations; the
  reference does everything with host operations on the [4000000, 1] columns. The two frames of the kernel program
  (read at the word level and at the ideal instance) are the same text: the masking body run at each of the five
  grid points, the region launched between the three reshapes and the 121 later lines, the argument arrays untouched
  by all of them. The reference's frame is its run. Nothing was rewritten by the ideal pass. For the results: both
  programs end at the same four functions of the argument arrays (track sums, corrected track sums, hit sums,
  corrected hit sums, each gathered back to the hits), the only difference being how the correction tables index the
  factor column, and those agree when every position of the two position tables is in [0, 4000000] — the
  precondition's added conjuncts, used nowhere else; finiteness of the float inputs is not needed, since no
  arithmetic law is: both sides apply the same sums and products to equal arrays.
-/
import proofs.«423578_j61237643706562_3_alg».proof.Defs
import proofs.«423578_j61237643706562_3_alg».proof.Proof.Gen.Kernel
import proofs.«423578_j61237643706562_3_alg».proof.Proof.Gen.KernelIdeal
import proofs.«423578_j61237643706562_3_alg».proof.Proof.Gen.ReferenceIdeal
import proofs.«423578_j61237643706562_3_alg».proof.Proof.Gen.Pre_finite_inputs
import proofs.«423578_j61237643706562_3_alg».proof.Proof.BitsRegion
import proofs.«423578_j61237643706562_3_alg».proof.Proof.IdealRegion
import proofs.«423578_j61237643706562_3_alg».proof.Proof.Bridge
import proofs.«423578_j61237643706562_3_alg».proof.Proof.RefRun
import proofs.«423578_j61237643706562_3_alg».proof.Proof.PreBounds

set_option maxRecDepth 16384

noncomputable section

namespace Cert.Proof

open Idealize.ShloMosaic Idealize.ShloMosaic.TcCoe Idealize.SL.Sem

theorem frame_word : Cert.frame_Kernel := fun m ρ _ => Cert.Kernel.Region.frame m ρ

theorem frame_ideal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2.2.2.2) (Cert.RefSpec.run (F := Ideal) m ρ)

theorem preserves : Cert.preserves_Kernel_KernelIdeal := trivial

set_option maxHeartbeats 2000000 in
theorem algebraic : Cert.algebraic_KernelIdeal_ReferenceIdeal := by
  intro m ρ m' ρ' hpre hagree
  -- every position of the two position tables is in range
  have hT : ∀ c : Dev Cert.KernelIdeal.nD, ∀ k : Cert.KernelIdeal.S10000.Idx, ((m ((c.tc : Thread Cert.KernelIdeal.nD Cert.KernelIdeal.τ).loc Cert.KernelIdeal.main_arg5)) k).toNat ≤ 4000000 :=
    fun c => (Cert.PreBounds.index_bounds _ _ _ _ _ _ _ (hpre c)).1
  have hH : ∀ c : Dev Cert.KernelIdeal.nD, ∀ k : Cert.KernelIdeal.S10000.Idx, ((m ((c.tc : Thread Cert.KernelIdeal.nD Cert.KernelIdeal.τ).loc Cert.KernelIdeal.main_arg6)) k).toNat ≤ 4000000 :=
    fun c => (Cert.PreBounds.index_bounds _ _ _ _ _ _ _ (hpre c)).2
  refine ⟨fun c => Cert.RefSpec.trackRaw (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.RefSpec.trackCorrected (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
    fun c => Cert.RefSpec.hitRaw (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.RefSpec.hitCorrected (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)), ?_, ?_⟩
  · -- the kernel's run: each result buffer bypasses the region and ends at its column of the gathered rows
    refine (θ_run Cert.KernelIdeal.defs _ _).mono (fun r h c => ?_) (Cert.KernelIdeal.Region.run_main (F := Ideal) m ρ)
    have hr := (h c).2
    exact ⟨(hr Cert.KernelIdeal.main_v91 (Pipeline.mem_restRefs_of _ (by decide) (by decide))).trans
        ((Cert.KernelIdeal.Tail.end_v91 m c).trans (Cert.Bridge.col0_is m c)),
      (hr Cert.KernelIdeal.main_v92 (Pipeline.mem_restRefs_of _ (by decide) (by decide))).trans
        ((Cert.KernelIdeal.Tail.end_v92 m c).trans (Cert.Bridge.col1_is m hT c)),
      (hr Cert.KernelIdeal.main_v93 (Pipeline.mem_restRefs_of _ (by decide) (by decide))).trans
        ((Cert.KernelIdeal.Tail.end_v93 m c).trans (Cert.Bridge.col2_is m c)),
      (hr Cert.KernelIdeal.main_v94 (Pipeline.mem_restRefs_of _ (by decide) (by decide))).trans
        ((Cert.KernelIdeal.Tail.end_v94 m c).trans (Cert.Bridge.col3_is m hH c)),
      (hr Cert.KernelIdeal.main_arg0 (Pipeline.mem_restRefs_of _ (by decide) (by decide))).trans (Cert.KernelIdeal.Host.W_arg0 m _ c),
      (hr Cert.KernelIdeal.main_arg1 (Pipeline.mem_restRefs_of _ (by decide) (by decide))).trans (Cert.KernelIdeal.Host.W_arg1 m _ c),
      (hr Cert.KernelIdeal.main_arg2 (Pipeline.mem_restRefs_of _ (by decide) (by decide))).trans (Cert.KernelIdeal.Host.W_arg2 m _ c),
      (hr Cert.KernelIdeal.main_arg3 (Pipeline.mem_restRefs_of _ (by decide) (by decide))).trans (Cert.KernelIdeal.Host.W_arg3 m _ c),
      (hr Cert.KernelIdeal.main_arg4 (Pipeline.mem_restRefs_of _ (by decide) (by decide))).trans (Cert.KernelIdeal.Host.W_arg4 m _ c),
      (hr Cert.KernelIdeal.main_arg5 (Pipeline.mem_restRefs_of _ (by decide) (by decide))).trans (Cert.KernelIdeal.Host.W_arg5 m _ c),
      (hr Cert.KernelIdeal.main_arg6 (Pipeline.mem_restRefs_of _ (by decide) (by decide))).trans (Cert.KernelIdeal.Host.W_arg6 m _ c)⟩
  · -- the reference's run, its memory agreeing with the kernel's on the arguments
    refine (θ_run Cert.ReferenceIdeal.defs _ _).mono (fun r h c => ?_) (Cert.RefSpec.run (F := Ideal) m' ρ')
    obtain ⟨h0, h1, h2, h3, rest⟩ := h c
    obtain ⟨e0, e1, e2, e3, e4, e5, e6⟩ := hagree c
    refine ⟨?_, ?_, ?_, ?_, rest⟩
    · rw [h0, e0, e2, e3]
    · rw [h1, e0, e1, e2, e3, e5]
    · rw [h2, e0, e2, e3]
    · rw [h3, e0, e1, e2, e3, e6]

theorem claim : Cert.Claim := ⟨Cert.Kernel.Gen.facts, Cert.KernelIdeal.Gen.facts, Cert.ReferenceIdeal.Gen.facts, Cert.Pre_finite_inputs.Gen.facts,
  frame_word, frame_ideal, frame_reference, preserves, algebraic⟩

end Cert.Proof

end
